-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S256 .f32) (main_arg14 : FVec F S256 .f32) (main_arg15 : FVec F S256x128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_v63 main_v67

def fn_part2 {F : FTy → Type} [FloatOps F] (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x768 .f32) (main_arg1 : IVec S2x800000 32) (main_arg2 : IVec S50000 32) (main_arg3 : FVec F S768x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x768 : Shape := ⟨2, ![2000, 768]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S64 : Shape := ⟨1, ![64]⟩
abbrev S64x128 : Shape := ⟨2, ![64, 128]⟩
abbrev S2000x64 : Shape := ⟨2, ![2000, 64]⟩
abbrev S64x1 : Shape := ⟨2, ![64, 1]⟩

abbrev nBuf : Space → Nat
  | .hbm => 157
  | .vmem => 44
  | .smem => 0
  | _ => 0

abbrev hbmTy0_0 (i : Nat) : BufTy := match i % 128 with
  | 0 => ⟨S50000x768, .f32⟩
  | 1 => ⟨S2x800000, .i32⟩
  | 2 => ⟨S50000, .i32⟩
  | 3 => ⟨S768x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S50000, .f32⟩
  | 58 => ⟨S768x256, .bf16⟩
  | 59 => ⟨S256x256, .bf16⟩
  | 60 => ⟨S256x128, .bf16⟩
  | 61 => ⟨S50000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S800000x1, .f32⟩
  | 72 => ⟨S800000x256, .f32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S50000x1, .f32⟩
  | 79 => ⟨S50000x256, .f32⟩
  | 80 => ⟨S50000x256, .f32⟩
  | 81 => ⟨S50000x256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S50000x256, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S800000x1, .f32⟩
  | 99 => ⟨S800000x256, .f32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000x1, .f32⟩
  | 106 => ⟨S50000x256, .f32⟩
  | 107 => ⟨S50000x256, .f32⟩
  | 108 => ⟨S50000x256, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S50000x256, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x768, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x1, .i32⟩
  | 11 => ⟨S1x64, .i32⟩
  | 12 => ⟨S50000x64, .i32⟩
  | 13 => ⟨S50000x64, .i32⟩
  | 14 => ⟨S50000x64, .i1⟩
  | 15 => ⟨S50000x64, .bf16⟩
  | 16 => ⟨S_, .f32⟩
  | 17 => ⟨S50000, .f32⟩
  | 18 => ⟨S_, .f32⟩
  | 19 => ⟨S64, .f32⟩
  | 20 => ⟨S50000x1, .i32⟩
  | 21 => ⟨S64, .f32⟩
  | 22 => ⟨S64x128, .f32⟩
  | 23 => ⟨S_, .f32⟩
  | 24 => ⟨S64, .f32⟩
  | 25 => ⟨S64, .f32⟩
  | 26 => ⟨S64x1, .f32⟩
  | 27 => ⟨S64x128, .f32⟩
  | 28 => ⟨S64x128, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x128, .bf16⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x64, .bf16⟩
  | .local _ .vmem, ⟨39, _⟩ => ⟨S2000x64, .bf16⟩
  | .local _ .vmem, ⟨40, _⟩ => ⟨S2000x128, .f32⟩
  | .local _ .vmem, ⟨41, _⟩ => ⟨S2000x128, .f32⟩
  | .local _ .vmem, ⟨42, _⟩ => ⟨S64x128, .f32⟩
  | .local _ .vmem, ⟨43, _⟩ => ⟨S64x128, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_13 : Ref sig .tc := ⟨.hbm, 116, rfl⟩
abbrev main_v84 : Ref sig .tc := ⟨.hbm, 117, rfl⟩
abbrev main_v85 : Ref sig .tc := ⟨.hbm, 118, rfl⟩
abbrev main_c_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call0_v0 : Ref sig .tc := ⟨.hbm, 138, rfl⟩
abbrev main_call0_v1 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_v103 : Ref sig .tc := ⟨.hbm, 143, rfl⟩
abbrev main_cst_16 : Ref sig .tc := ⟨.hbm, 144, rfl⟩
abbrev main_v104 : Ref sig .tc := ⟨.hbm, 145, rfl⟩
abbrev main_cst_17 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_18 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  inb_S2000x768_S2000x768_0_0 : ∀ a, (![0, 0] : Fin 2 → Nat) a + S2000x768.size a ≤ S2000x768.size a
  h_S2000x768 : 0 < S2000x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x768_S768x256_S2000x256_1_0_0_1_n_n_wf : DotDims.WF S2000x768 S768x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  dot_S2000x64_S2000x128_S64x128_0_0_1_1_n_n_wf : DotDims.WF S2000x64 S2000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .bf16 = 32 ∨ (Rect.block (s := S256x128) S256x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .bf16 = 32 ∨ (Rect.block (s := S50000x64) S2000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v100) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v103) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v108) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 249
  | .vmem => 0
  | .smem => 0
  | _ => 0

abbrev hbmTy0_0 (i : Nat) : BufTy := match i % 128 with
  | 0 => ⟨S50000x768, .f32⟩
  | 1 => ⟨S2x800000, .i32⟩
  | 2 => ⟨S50000, .i32⟩
  | 3 => ⟨S768x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S50000x256, .f32⟩
  | 22 => ⟨S_, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S_, .f32⟩
  | 33 => ⟨S800000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S800000x1, .f32⟩
  | 65 => ⟨S800000x256, .f32⟩
  | 66 => ⟨S800000x256, .f32⟩
  | 67 => ⟨S_, .f32⟩
  | 68 => ⟨S50000x256, .f32⟩
  | 69 => ⟨S800000x1, .i32⟩
  | 70 => ⟨S50000x256, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S256, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S50000x256, .f32⟩
  | 99 => ⟨S_, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S_, .f32⟩
  | 110 => ⟨S800000, .f32⟩
  | 111 => ⟨S50000, .f32⟩
  | 112 => ⟨S50000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x768, .f32⟩

abbrev hbmTy0_1 (i : Nat) : BufTy := match i % 128 with
  | 0 => ⟨S800000, .i32⟩
  | 1 => ⟨S800000x1, .i32⟩
  | 2 => ⟨S800000, .f32⟩
  | 3 => ⟨S800000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x256, .f32⟩
  | 13 => ⟨S800000x1, .f32⟩
  | 14 => ⟨S800000x256, .f32⟩
  | 15 => ⟨S800000x256, .f32⟩
  | 16 => ⟨S_, .f32⟩
  | 17 => ⟨S50000x256, .f32⟩
  | 18 => ⟨S800000x1, .i32⟩
  | 19 => ⟨S50000x256, .f32⟩
  | 20 => ⟨S50000, .f32⟩
  | 21 => ⟨S50000x1, .f32⟩
  | 22 => ⟨S50000x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S256, .f32⟩
  | 33 => ⟨S256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S50000x128, .f32⟩
  | 48 => ⟨S_, .f32⟩
  | 49 => ⟨S50000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S_, .f32⟩
  | 59 => ⟨S800000, .f32⟩
  | 60 => ⟨S50000, .f32⟩
  | 61 => ⟨S50000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000, .f32⟩
  | 98 => ⟨S50000x1, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S64x128, .f32⟩
  | 107 => ⟨S50000x1, .i32⟩
  | 108 => ⟨S64x128, .f32⟩
  | 109 => ⟨S_, .f32⟩
  | 110 => ⟨S50000, .f32⟩
  | 111 => ⟨S_, .f32⟩
  | 112 => ⟨S64, .f32⟩
  | 113 => ⟨S50000x1, .i32⟩
  | 114 => ⟨S64, .f32⟩
  | 115 => ⟨S_, .f32⟩
  | 116 => ⟨S64, .f32⟩
  | 117 => ⟨S64, .f32⟩
  | 118 => ⟨S64x1, .f32⟩
  | 119 => ⟨S64x128, .f32⟩
  | 120 => ⟨S64x128, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call0_cst : Ref sig .tc := ⟨.hbm, 95, rfl⟩
abbrev main_call0_v0 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_c_11 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_16 : Ref sig .tc := ⟨.hbm, 122, rfl⟩
abbrev main_v85 : Ref sig .tc := ⟨.hbm, 123, rfl⟩
abbrev main_v86 : Ref sig .tc := ⟨.hbm, 124, rfl⟩
abbrev main_c_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_c_19 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_21 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_call1_cst : Ref sig .tc := ⟨.hbm, 172, rfl⟩
abbrev main_call1_v0 : Ref sig .tc := ⟨.hbm, 173, rfl⟩
abbrev main_v129 : Ref sig .tc := ⟨.hbm, 174, rfl⟩
abbrev main_v130 : Ref sig .tc := ⟨.hbm, 175, rfl⟩
abbrev main_cst_22 : Ref sig .tc := ⟨.hbm, 176, rfl⟩
abbrev main_v131 : Ref sig .tc := ⟨.hbm, 177, rfl⟩
abbrev main_c_23 : Ref sig .tc := ⟨.hbm, 178, rfl⟩
abbrev main_v132 : Ref sig .tc := ⟨.hbm, 179, rfl⟩
abbrev main_v133 : Ref sig .tc := ⟨.hbm, 180, rfl⟩
abbrev main_c_24 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_25 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_26 : Ref sig .tc := ⟨.hbm, 190, rfl⟩
abbrev main_v141 : Ref sig .tc := ⟨.hbm, 191, rfl⟩
abbrev main_v142 : Ref sig .tc := ⟨.hbm, 192, rfl⟩
abbrev main_c_27 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_28 : Ref sig .tc := ⟨.hbm, 199, rfl⟩
abbrev main_v148 : Ref sig .tc := ⟨.hbm, 200, rfl⟩
abbrev main_v149 : Ref sig .tc := ⟨.hbm, 201, rfl⟩
abbrev main_c_29 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_30 : Ref sig .tc := ⟨.hbm, 209, rfl⟩
abbrev main_v156 : Ref sig .tc := ⟨.hbm, 210, rfl⟩
abbrev main_v157 : Ref sig .tc := ⟨.hbm, 211, rfl⟩
abbrev main_c_31 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_32 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_33 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_34 : Ref sig .tc := ⟨.hbm, 237, rfl⟩
abbrev main_v180 : Ref sig .tc := ⟨.hbm, 238, rfl⟩
abbrev main_cst_35 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_36 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x768_S768x256_S50000x256_1_0_0_1_n_n_wf : DotDims.WF S50000x768 S768x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.Basic.lean ====
/-
  Common to the region modules of the kernel program: what the unscoped buffers hold on each core at a
  region's entry is a parameter, named here once.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents on each core when a region is entered. -/
abbrev Vals (F : FTy → Type) [FloatOps F] := (c : Dev nD) → (b : Ref sig .tc) → Buf (Elt F) ((c : Thread nD τ).loc b)

end Cert.Kernel.Hand

end
-- ==== Proof.K.Reg0.lean ====
/-
  Region 0 of the kernel program: the first dense layer's product, one block of 2000 rows of the node
  features at a grid point against the whole (rounded) weight matrix. What is said here holds at any float
  instance: where each window's block sits in its array, what the body leaves in the output block (the
  matrix product of the row block with the weights, as one pure term of the two loaded blocks), and that the
  body run at any point meets the pipeline's obligation with an invariant that does not look at the body's
  buffers.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole output block as one rectangle. -/
abbrev rOut0 : Rect S2000x256 := Rect.unit (s := S2000x256) ![0, 0] S2000x256.size inb_S2000x256_S2000x256_0_0

/-- What the body leaves in the output block: its one stored value, a pure term of the two loaded blocks, over the whole block. -/
def out0 (x : Vec F S2000x768 .f32) (w : Vec F S768x256 .bf16) : Vec F S2000x256 .f32 :=
  View.canon [⟨rOut0, k0_pay1 (View.ld x (Rect.unit (s := S2000x768) ![0, 0] S2000x768.size inb_S2000x768_S2000x768_0_0))
    (View.ld w (Rect.unit (s := S768x256) ![0, 0] S768x256.size inb_S768x256_S768x256_0_0))⟩]

theorem cover0 (p0 : Vec F S2000x256 .f32) (y : S2000x256.Idx) :
    ∃ pc ∈ ([⟨rOut0, p0⟩] : List (View.Piece (Elt F) S2000x256 .f32)), y ∈ pc.1.set :=
  View.cover_of_tiled [⟨rOut0, p0⟩] S2000x256.size (by rfl) y

set_option maxHeartbeats 1000000 in
/-- The body on whole staging buffers: the two input blocks are read and kept, the output block ends at `out0` of them. -/
theorem sound_kernel0 (c : Dev nD) (E : Set ℕ) (i : grid0.Coords)
    (a1 : Memref sig .tc .vmem S2000x768 .f32) (h1 : a1.IsWhole) (a2 : Memref sig .tc .vmem S768x256 .bf16) (h2 : a2.IsWhole)
    (a3 : Memref sig .tc .vmem S2000x256 .f32) (h3 : a3.IsWhole)
    (x : Vec F S2000x768 .f32) (w : Vec F S768x256 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data on core `c`: the arrays as the region finds them; after the body each input block is
    still its block and the output block is `out0` of the two; the invariant is the scoped rest and the
    generator register, which the body does not touch; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- The first input's staging buffer holds its row block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second input's staging buffer holds its whole array at every point, fetched there or not (its block index never moves). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: the scoped rest and the generator register. -/
theorem Phi0 (c : Dev nD) (t : Fin (cfg0.N + 1)) : (dat0 V c).Φ t = Pipeline.ΦA spec0 c := rfl

end Cert.Kernel.Hand

end
-- ==== Proof.K.Reg1.lean ====
/-
  Region 1 of the kernel program: the finish of the first layer. At a grid point one block of 2000 rows of
  the aggregated first-layer features goes in, with five parameter rows (each a single row of 256, the same
  at every point); what comes out is the block with a bias row added, a mean row subtracted, scaled by the
  reciprocal square root of a variance row plus a small constant and by a gain row, shifted by an offset
  row, and cut below at zero, every row of the block treated alike. What is said here holds at any float
  instance: where each window's block sits in its array, what the body leaves in the output block (one pure
  term of the six loaded blocks), and that the body run at any point meets the pipeline's obligation with an
  invariant that does not look at the body's buffers.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole output block as one rectangle. -/
abbrev rOut1 : Rect S2000x256 := Rect.unit (s := S2000x256) ![0, 0] S2000x256.size inb_S2000x256_S2000x256_0_0

/-- What the body leaves in the output block: its one stored value, a pure term of the six loaded blocks
    (the row block, then the five parameter rows in window order), over the whole block. The term takes the
    rows in the order the body reads them, which is not window order: the fifth and sixth windows' rows are
    read before the third and fourth's. -/
def out1 (x0 : Vec F S2000x256 .f32) (x1 x2 x3 x4 x5 : Vec F S1x256 .f32) : Vec F S2000x256 .f32 :=
  View.canon [⟨rOut1, k1_pay1 (View.ld x0 (Rect.unit (s := S2000x256) ![0, 0] S2000x256.size inb_S2000x256_S2000x256_0_0))
    (View.ld x1 (Rect.unit (s := S1x256) ![0, 0] S1x256.size inb_S1x256_S1x256_0_0))
    (View.ld x4 (Rect.unit (s := S1x256) ![0, 0] S1x256.size inb_S1x256_S1x256_0_0))
    (View.ld x5 (Rect.unit (s := S1x256) ![0, 0] S1x256.size inb_S1x256_S1x256_0_0))
    (View.ld x2 (Rect.unit (s := S1x256) ![0, 0] S1x256.size inb_S1x256_S1x256_0_0))
    (View.ld x3 (Rect.unit (s := S1x256) ![0, 0] S1x256.size inb_S1x256_S1x256_0_0))⟩]

theorem cover1 (p0 : Vec F S2000x256 .f32) (y : S2000x256.Idx) :
    ∃ pc ∈ ([⟨rOut1, p0⟩] : List (View.Piece (Elt F) S2000x256 .f32)), y ∈ pc.1.set :=
  View.cover_of_tiled [⟨rOut1, p0⟩] S2000x256.size (by rfl) y

set_option maxHeartbeats 1000000 in
/-- The body on whole staging buffers: the six input blocks are read and kept, the output block ends at `out1` of them. -/
theorem sound_kernel1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (a7 : Memref sig .tc .vmem S2000x256 .f32) (h7 : a7.IsWhole)
    (x0 : Vec F S2000x256 .f32) (x1 x2 x3 x4 x5 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out1 x0 x1 x2 x3 x4 x5)) -∗ K ⟨⟩))
      ⊢ wp frame (wpE (defs₀ (F := F)) Variants.none c none) E (cc1__finalize_bn_relu_kernel i a1 h1 a2 h2 a3 h3 a4 h4 a5 h5 a6 h6 a7 h7) K := by
  simp only [cc1__finalize_bn_relu_kernel_eq_skeleton]; unfold cc1__finalize_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-- The proof data on core `c`: the arrays as the region finds them; after the body each input block is
    still its block and the output block is `out1` of the six; the invariant is the scoped rest and the
    generator register, which the body does not touch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1 (iblk1 V c 0 t) (iblk1 V c 1 t) (iblk1 V c 2 t) (iblk1 V c 3 t) (iblk1 V c 4 t) (iblk1 V c 5 t) := by dsimp only [dat1]

/-- The first input's staging buffer holds its row block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The second input's staging buffer holds its whole array (one row) at every point, fetched there or not (its block index never moves). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The third input's likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The fourth input's likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The fifth input's likewise. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The sixth input's likewise. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- The invariant is the same at every point: the scoped rest and the generator register. -/
theorem Phi1 (c : Dev nD) (t : Fin (cfg1.N + 1)) : (dat1 V c).Φ t = Pipeline.ΦA spec1 c := rfl

end Cert.Kernel.Hand

end
-- ==== Proof.K.Reg2.lean ====
/-
  Region 2 of the kernel program: the product of the second dense layer, one block of 2000 rows of the first hidden activations at a grid point against the whole (rounded) second weight matrix. As for region 0: where the block of each window sits, what the body leaves in the output block (the product of the row block with the weights as one pure term of the two loaded blocks), and the obligation the pipeline puts on the body, at any float instance.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole output block as one rectangle. -/
abbrev rOut2 : Rect S2000x256 := Rect.unit (s := S2000x256) ![0, 0] S2000x256.size inb_S2000x256_S2000x256_0_0

/-- What the body leaves in the output block: its one stored value, a pure term of the two loaded blocks, over the whole block. -/
def out2 (x : Vec F S2000x256 .f32) (w : Vec F S256x256 .bf16) : Vec F S2000x256 .f32 :=
  View.canon [⟨rOut2, k2_pay1 (View.ld x (Rect.unit (s := S2000x256) ![0, 0] S2000x256.size inb_S2000x256_S2000x256_0_0))
    (View.ld w (Rect.unit (s := S256x256) ![0, 0] S256x256.size inb_S256x256_S256x256_0_0))⟩]

theorem cover2 (p0 : Vec F S2000x256 .f32) (y : S2000x256.Idx) :
    ∃ pc ∈ ([⟨rOut2, p0⟩] : List (View.Piece (Elt F) S2000x256 .f32)), y ∈ pc.1.set :=
  View.cover_of_tiled [⟨rOut2, p0⟩] S2000x256.size (by rfl) y

set_option maxHeartbeats 1000000 in
/-- The body on whole staging buffers: the two input blocks are read and kept, the output block ends at `out2` of them. -/
theorem sound_kernel2 (c : Dev nD) (E : Set ℕ) (i : grid2.Coords)
    (a1 : Memref sig .tc .vmem S2000x256 .f32) (h1 : a1.IsWhole) (a2 : Memref sig .tc .vmem S256x256 .bf16) (h2 : a2.IsWhole)
    (a3 : Memref sig .tc .vmem S2000x256 .f32) (h3 : a3.IsWhole)
    (x : Vec F S2000x256 .f32) (w : Vec F S256x256 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data on core `c`: the arrays as the region finds them; after the body each input block is
    still its block and the output block is `out2` of the two; the invariant is the scoped rest and the
    generator register, which the body does not touch; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- The first input's staging buffer holds its row block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The second input's staging buffer holds its whole array at every point, fetched there or not (its block index never moves). -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

/-- The invariant is the same at every point: the scoped rest and the generator register. -/
theorem Phi2 (c : Dev nD) (t : Fin (cfg2.N + 1)) : (dat2 V c).Φ t = Pipeline.ΦA spec2 c := rfl

end Cert.Kernel.Hand

end
-- ==== Proof.K.Reg3.lean ====
/-
  Region 3 of the kernel program: the finish of the second layer. At a grid point one block of 2000 rows of the aggregated second-layer features goes in, with five parameter rows (each a single row of 256, the same at every point); what comes out is the block with a bias row added, a mean row subtracted, scaled by the reciprocal square root of a variance row plus a small constant and by a gain row, shifted by an offset row, and cut below at zero, every row of the block treated alike. What is said here holds at any float instance: where the block of each window sits in its array, what the body leaves in the output block (one pure term of the six loaded blocks), and that the body run at any point meets the obligation of the pipeline with an invariant that does not look at the buffers of the body.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole output block as one rectangle. -/
abbrev rOut3 : Rect S2000x256 := Rect.unit (s := S2000x256) ![0, 0] S2000x256.size inb_S2000x256_S2000x256_0_0

/-- What the body leaves in the output block: its one stored value, a pure term of the six loaded blocks
    (the row block, then the five parameter rows in window order), over the whole block. The term takes the
    rows in the order the body reads them, which is not window order: the fifth and sixth windows' rows are
    read before the third and fourth's. -/
def out3 (x0 : Vec F S2000x256 .f32) (x1 x2 x3 x4 x5 : Vec F S1x256 .f32) : Vec F S2000x256 .f32 :=
  View.canon [⟨rOut3, k3_pay1 (View.ld x0 (Rect.unit (s := S2000x256) ![0, 0] S2000x256.size inb_S2000x256_S2000x256_0_0))
    (View.ld x1 (Rect.unit (s := S1x256) ![0, 0] S1x256.size inb_S1x256_S1x256_0_0))
    (View.ld x4 (Rect.unit (s := S1x256) ![0, 0] S1x256.size inb_S1x256_S1x256_0_0))
    (View.ld x5 (Rect.unit (s := S1x256) ![0, 0] S1x256.size inb_S1x256_S1x256_0_0))
    (View.ld x2 (Rect.unit (s := S1x256) ![0, 0] S1x256.size inb_S1x256_S1x256_0_0))
    (View.ld x3 (Rect.unit (s := S1x256) ![0, 0] S1x256.size inb_S1x256_S1x256_0_0))⟩]

theorem cover3 (p0 : Vec F S2000x256 .f32) (y : S2000x256.Idx) :
    ∃ pc ∈ ([⟨rOut3, p0⟩] : List (View.Piece (Elt F) S2000x256 .f32)), y ∈ pc.1.set :=
  View.cover_of_tiled [⟨rOut3, p0⟩] S2000x256.size (by rfl) y

set_option maxHeartbeats 1000000 in
/-- The body on whole staging buffers: the six input blocks are read and kept, the output block ends at `out3` of them. -/
theorem sound_kernel3 (c : Dev nD) (E : Set ℕ) (i : grid3.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (a7 : Memref sig .tc .vmem S2000x256 .f32) (h7 : a7.IsWhole)
    (x0 : Vec F S2000x256 .f32) (x1 x2 x3 x4 x5 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out3 x0 x1 x2 x3 x4 x5)) -∗ K ⟨⟩))
      ⊢ wp frame (wpE (defs₀ (F := F)) Variants.none c none) E (cc3__finalize_bn_relu_kernel i a1 h1 a2 h2 a3 h3 a4 h4 a5 h5 a6 h6 a7 h7) K := by
  simp only [cc3__finalize_bn_relu_kernel_eq_skeleton]; unfold cc3__finalize_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3 _)

/-- The proof data on core `c`: the arrays as the region finds them; after the body each input block is
    still its block and the output block is `out3` of the six; the invariant is the scoped rest and the
    generator register, which the body does not touch; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3 (iblk3 V c 0 t) (iblk3 V c 1 t) (iblk3 V c 2 t) (iblk3 V c 3 t) (iblk3 V c 4 t) (iblk3 V c 5 t) := by dsimp only [dat3]

/-- The first input's staging buffer holds its row block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- The second input's staging buffer holds its whole array (one row) at every point, fetched there or not (its block index never moves). -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The third input's likewise. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- The fourth input's likewise. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- The fifth input's likewise. -/
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The sixth input's likewise. -/
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t)
    (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

/-- The invariant is the same at every point: the scoped rest and the generator register. -/
theorem Phi3 (c : Dev nD) (t : Fin (cfg3.N + 1)) : (dat3 V c).Φ t = Pipeline.ΦA spec3 c := rfl

end Cert.Kernel.Hand

end
-- ==== Proof.K.Reg4.lean ====
/-
  Region 4 of the kernel program: the product of the third dense layer, one block of 2000 rows of the second hidden activations at a grid point against the whole (rounded) third weight matrix, 256 to 128 columns. As for region 0: where the block of each window sits, what the body leaves in the output block, and the obligation the pipeline puts on the body, at any float instance.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole output block as one rectangle. -/
abbrev rOut4 : Rect S2000x128 := Rect.unit (s := S2000x128) ![0, 0] S2000x128.size inb_S2000x128_S2000x128_0_0

/-- What the body leaves in the output block: its one stored value, a pure term of the two loaded blocks, over the whole block. -/
def out4 (x : Vec F S2000x256 .f32) (w : Vec F S256x128 .bf16) : Vec F S2000x128 .f32 :=
  View.canon [⟨rOut4, k4_pay1 (View.ld x (Rect.unit (s := S2000x256) ![0, 0] S2000x256.size inb_S2000x256_S2000x256_0_0))
    (View.ld w (Rect.unit (s := S256x128) ![0, 0] S256x128.size inb_S256x128_S256x128_0_0))⟩]

theorem cover4 (p0 : Vec F S2000x128 .f32) (y : S2000x128.Idx) :
    ∃ pc ∈ ([⟨rOut4, p0⟩] : List (View.Piece (Elt F) S2000x128 .f32)), y ∈ pc.1.set :=
  View.cover_of_tiled [⟨rOut4, p0⟩] S2000x128.size (by rfl) y

set_option maxHeartbeats 1000000 in
/-- The body on whole staging buffers: the two input blocks are read and kept, the output block ends at `out4` of them. -/
theorem sound_kernel4 (c : Dev nD) (E : Set ℕ) (i : grid4.Coords)
    (a1 : Memref sig .tc .vmem S2000x256 .f32) (h1 : a1.IsWhole) (a2 : Memref sig .tc .vmem S256x128 .bf16) (h2 : a2.IsWhole)
    (a3 : Memref sig .tc .vmem S2000x128 .f32) (h3 : a3.IsWhole)
    (x : Vec F S2000x256 .f32) (w : Vec F S256x128 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out4 x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data on core `c`: the arrays as the region finds them; after the body each input block is
    still its block and the output block is `out4` of the two; the invariant is the scoped rest and the
    generator register, which the body does not touch; nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

/-- The first input's staging buffer holds its row block at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- The second input's staging buffer holds its whole array at every point, fetched there or not (its block index never moves). -/
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation4 (c : Dev nD) : BodyObligation (dat4 (F := F) V c) (defs₀ (F := F)) Variants.none () Set.univ := fun t => by
  rw [bigSep_W4, bigSep_W4]
  exact sound_body4 V c t

/-- The invariant is the same at every point: the scoped rest and the generator register. -/
theorem Phi4 (c : Dev nD) (t : Fin (cfg4.N + 1)) : (dat4 V c).Φ t = Pipeline.ΦA spec4 c := rfl

end Cert.Kernel.Hand

end
-- ==== Proof.K.Reg5.lean ====
/-
  Region 5 of the kernel program: the bias of the last layer, one block of 2000 rows of the aggregated third-layer features at a grid point plus the bias row broadcast down the rows. As for region 0: where the block of each window sits, what the body leaves in the output block (the row block plus the broadcast bias row, one pure term of the two loaded blocks), and the obligation the pipeline puts on the body, at any float instance.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole output block as one rectangle. -/
abbrev rOut5 : Rect S2000x128 := Rect.unit (s := S2000x128) ![0, 0] S2000x128.size inb_S2000x128_S2000x128_0_0

/-- What the body leaves in the output block: its one stored value, a pure term of the two loaded blocks, over the whole block. -/
def out5 (x : Vec F S2000x128 .f32) (w : Vec F S1x128 .f32) : Vec F S2000x128 .f32 :=
  View.canon [⟨rOut5, k5_pay1 (View.ld x (Rect.unit (s := S2000x128) ![0, 0] S2000x128.size inb_S2000x128_S2000x128_0_0))
    (View.ld w (Rect.unit (s := S1x128) ![0, 0] S1x128.size inb_S1x128_S1x128_0_0))⟩]

theorem cover5 (p0 : Vec F S2000x128 .f32) (y : S2000x128.Idx) :
    ∃ pc ∈ ([⟨rOut5, p0⟩] : List (View.Piece (Elt F) S2000x128 .f32)), y ∈ pc.1.set :=
  View.cover_of_tiled [⟨rOut5, p0⟩] S2000x128.size (by rfl) y

set_option maxHeartbeats 1000000 in
/-- The body on whole staging buffers: the two input blocks are read and kept, the output block ends at `out5` of them. -/
theorem sound_kernel5 (c : Dev nD) (E : Set ℕ) (i : grid5.Coords)
    (a1 : Memref sig .tc .vmem S2000x128 .f32) (h1 : a1.IsWhole) (a2 : Memref sig .tc .vmem S1x128 .f32) (h2 : a2.IsWhole)
    (a3 : Memref sig .tc .vmem S2000x128 .f32) (h3 : a3.IsWhole)
    (x : Vec F S2000x128 .f32) (w : Vec F S1x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out5 x w)) -∗ K ⟨⟩))
      ⊢ wp frame (wpE (defs₀ (F := F)) Variants.none c none) E (cc5__finalize_bias_kernel i a1 h1 a2 h2 a3 h3) K := by
  simp only [cc5__finalize_bias_kernel_eq_skeleton]; unfold cc5__finalize_bias_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The proof data on core `c`: the arrays as the region finds them; after the body each input block is
    still its block and the output block is `out5` of the two; the invariant is the scoped rest and the
    generator register, which the body does not touch; nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

/-- The first input's staging buffer holds its row block at every point. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- The second input's staging buffer holds its whole array at every point, fetched there or not (its block index never moves). -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation5 (c : Dev nD) : BodyObligation (dat5 (F := F) V c) (defs₀ (F := F)) Variants.none () Set.univ := fun t => by
  rw [bigSep_W5, bigSep_W5]
  exact sound_body5 V c t

/-- The invariant is the same at every point: the scoped rest and the generator register. -/
theorem Phi5 (c : Dev nD) (t : Fin (cfg5.N + 1)) : (dat5 V c).Φ t = Pipeline.ΦA spec5 c := rfl

end Cert.Kernel.Hand

end
-- ==== Proof.K.Reg6.lean ====
/-
  Region 6 of the kernel program: the pooling of the node outputs by graph. The grid runs over 25 blocks of
  2000 rows; at each point the block of the one-hot membership matrix, transposed, is multiplied with the block
  of (rounded) node outputs and added to an accumulator of 64 x 128 sums that lives in a scratch buffer carried
  from point to point: a running sum over the grid of one-hot^T times nodes, reset to zero at the first point
  and copied out to the output block at the last. What is said here holds at any float instance.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Basic
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running sum after the body at point `n`: at the first point the zero block plus the first product of
    the transposed one-hot block with the node block, afterwards the sum of the point before plus this point's product. -/
def acc6 (c : Dev nD) : (n : ℕ) → n < cfg6.N → Vec F S64x128 .f32
  | 0, h => k6_pay2 (iblk6 V c 1 ⟨0, h⟩) (iblk6 V c 0 ⟨0, h⟩) (k6_pay1 (F := F))
  | n + 1, h => k6_pay2 (iblk6 V c 1 ⟨n + 1, h⟩) (iblk6 V c 0 ⟨n + 1, h⟩) (acc6 c n (Nat.lt_of_succ_lt h))

theorem acc6_zero (c : Dev nD) (h : 0 < cfg6.N) :
    acc6 V c 0 h = k6_pay2 (iblk6 V c 1 ⟨0, h⟩) (iblk6 V c 0 ⟨0, h⟩) (k6_pay1 (F := F)) := rfl

theorem acc6_succ (c : Dev nD) (n : ℕ) (h : n + 1 < cfg6.N) :
    acc6 V c (n + 1) h = k6_pay2 (iblk6 V c 1 ⟨n + 1, h⟩) (iblk6 V c 0 ⟨n + 1, h⟩) (acc6 V c n (Nat.lt_of_succ_lt h)) := rfl

/-! ## The body's two conditions, decided over the grid -/

/-- The first conditional's condition: the point is the first of the grid. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional's condition: the point is the last of the grid. -/
abbrev cond6_1 (i : grid6.Coords) : Prop := k6_cond2 i = 1#1
theorem hcond6_1 : ∀ t : Fin cfg6.N, cond6_1 (grid6.coords t) ↔ t.val = 24 :=
  (by decide +kernel : ∀ t : Fin grid6.N, cond6_1 (grid6.coords t) ↔ t.val = 24)

/-- The inputs are never idle. -/
theorem live6_0 : ∀ t : Fin cfg6.N, cfg6.idle 0 (grid6.coords t) = false := by decide +kernel
theorem live6_1 : ∀ t : Fin cfg6.N, cfg6.idle 1 (grid6.coords t) = false := by decide +kernel
/-- The output is idle at every point but the last, and not written back there. -/
theorem idle6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- At the last point it is live. -/
theorem live6_2 : ∀ t : Fin cfg6.N, cond6_1 (grid6.coords t) → cfg6.idle 2 (grid6.coords t) = false := by decide +kernel

/-! ## The body on whole buffers, case by case -/

theorem hz6 : (![0, 0] : Fin 2 → Nat) = fun _ => 0 := by funext a; fin_cases a <;> rfl

/-- A store over the whole accumulator block, last, covers it. -/
theorem cover6 (p0 : Vec F S64x128 .f32) (L : List (View.Piece (Elt F) S64x128 .f32)) (y : S64x128.Idx) :
    ∃ pc ∈ ((⟨Rect.unit (s := S64x128) ![0, 0] S64x128.size inb_S64x128_S64x128_0_0, p0⟩ : View.Piece (Elt F) S64x128 .f32) :: L), y ∈ pc.1.set :=
  ⟨_, List.mem_cons.mpr (Or.inl rfl), View.mem_set_unit_zero (S := S64x128) hz6 inb_S64x128_S64x128_0_0 y⟩

set_option maxHeartbeats 1000000 in
/-- At the first point: the scratch, whatever it held, is zeroed and then takes the first product; the inputs
    are read and kept, the output block's buffer is not touched. -/
theorem sound_kernel6_first (c : Dev nD) (E : Set ℕ) (i : grid6.Coords) (hc0 : cond6_0 i) (hc1 : ¬cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (xo : Vec F S64x128 .f32) (K : PUnit → sProp 𝕄) :
    iprop(owns (c : Thread nD τ) a1 fullShare x1 ∗ owns (c : Thread nD τ) a2 fullShare x2 ∗ owns (c : Thread nD τ) a3 fullShare xo
        ∗ (∃ d, owns (c : Thread nD τ) a4 fullShare d)
        ∗ (iprop(owns (c : Thread nD τ) a1 fullShare x1 ∗ owns (c : Thread nD τ) a2 fullShare x2 ∗ owns (c : Thread nD τ) a3 fullShare xo
            ∗ owns (c : Thread nD τ) a4 fullShare (k6_pay2 x2 x1 (k6_pay1 (F := F)))) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover6 _ _), View.canon_cons_unit_zero (S := S64x128) hz6,
    View.readCov_unit_zero (S := S64x128) _ hz6]
  simp only [View.readAt_eq_ld, View.ld_unit_zero (S := S2000x128) hz6, View.ld_unit_zero (S := S2000x64) hz6]

set_option maxHeartbeats 1000000 in
/-- At a point that is neither first nor last: the scratch takes its sum plus this point's product; the inputs
    are read and kept, the output block's buffer is not touched. -/
theorem sound_kernel6_mid (c : Dev nD) (E : Set ℕ) (i : grid6.Coords) (hc0 : ¬cond6_0 i) (hc1 : ¬cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (xo : Vec F S64x128 .f32) (s : Vec F S64x128 .f32) (K : PUnit → sProp 𝕄) :
    iprop(owns (c : Thread nD τ) a1 fullShare x1 ∗ owns (c : Thread nD τ) a2 fullShare x2 ∗ owns (c : Thread nD τ) a3 fullShare xo
        ∗ owns (c : Thread nD τ) a4 fullShare s
        ∗ (iprop(owns (c : Thread nD τ) a1 fullShare x1 ∗ owns (c : Thread nD τ) a2 fullShare x2 ∗ owns (c : Thread nD τ) a3 fullShare xo
            ∗ owns (c : Thread nD τ) a4 fullShare (k6_pay2 x2 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover6 _ _), View.canon_cons_unit_zero (S := S64x128) hz6]
  simp only [View.readAt_eq_ld, View.ld_unit_zero (S := S2000x128) hz6, View.ld_unit_zero (S := S2000x64) hz6,
    View.ld_unit_zero (S := S64x128) hz6]

set_option maxHeartbeats 1000000 in
/-- At the last point: the scratch takes its sum plus this point's product, and the output block's buffer,
    whatever it held, is stored over with that sum. -/
theorem sound_kernel6_last (c : Dev nD) (E : Set ℕ) (i : grid6.Coords) (hc0 : ¬cond6_0 i) (hc1 : cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (s : Vec F S64x128 .f32) (K : PUnit → sProp 𝕄) :
    iprop(owns (c : Thread nD τ) a1 fullShare x1 ∗ owns (c : Thread nD τ) a2 fullShare x2 ∗ (∃ d, owns (c : Thread nD τ) a3 fullShare d)
        ∗ owns (c : Thread nD τ) a4 fullShare s
        ∗ (iprop(owns (c : Thread nD τ) a1 fullShare x1 ∗ owns (c : Thread nD τ) a2 fullShare x2
            ∗ owns (c : Thread nD τ) a3 fullShare (k6_pay2 x2 x1 s)
            ∗ owns (c : Thread nD τ) a4 fullShare (k6_pay2 x2 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover6 _ _), View.canon_cons_unit_zero (S := S64x128) hz6,
      View.readCov_unit_zero (S := S64x128) _ hz6]
    simp only [View.readAt_eq_ld, View.ld_unit_zero (S := S2000x128) hz6, View.ld_unit_zero (S := S2000x64) hz6,
      View.ld_unit_zero (S := S64x128) hz6]
  iexists _; isplitr
  swap; · iexact H4
  ipureintro
  sl_unfold_words
  rw [View.read_writes_eq_canon _ _ _ (cover6 _ _), View.canon_cons_unit_zero (S := S64x128) hz6]
  simp only [View.readAt_eq_ld, View.ld_unit_zero (S := S2000x128) hz6, View.ld_unit_zero (S := S2000x64) hz6,
    View.ld_unit_zero (S := S64x128) hz6]

/-! ## The carried scratch, the invariant and the proof data -/

/-- The scratch operand the kernel carries between points. -/
abbrev scM6 : Memref sig .tc .vmem S64x128 .f32 := Memref.whole cc6_scratch0

/-- The invariant before position `n`: before the first point what the launch hands the region (every scoped
    buffer at some contents, the generator register at some state); afterwards the scratch at the running sum of
    the point before, beside the other scoped buffers unopened and the generator register. -/
def Phi6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut spec6 c [cc6_scratch0]) ∗ (∃ r, prngReg c r))

/-- The proof data on core `c`: the arrays as the region finds them; after the body each input block is still
    its block and the output block's buffer is named at the running sum (consulted at the last point only, where
    the body copies the sum there: at the other points the window is idle and keeps what it held); the invariant
    carries the scratch at the running sum; nothing is owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

/-- At the last point the output block's buffer holds the whole running sum. -/
theorem after6_2_last (c : Dev nD) (t : Fin cfg6.N) (ht : t.val = 24) : (dat6 V c).after 2 t = acc6 V c 24 (by decide) := by
  rw [after6_2]
  obtain ⟨n, hn⟩ := t
  dsimp only at ht
  subst ht
  rfl

theorem owed6 (c : Dev nD) (t : Fin (cfg6.N + 1)) : (dat6 V c).owed t = 0 := rfl
theorem q6 (c : Dev nD) (w : Fin cfg6.W) : (dat6 V c).q w = fullShare := rfl

/-! ## The invariant, point by point -/

/-- What the launch hands the region, with the carried scratch as a memref owned at some contents. -/
theorem PhiA6_eq (c : Dev nD) :
    (Pipeline.ΦA spec6 c : sProp 𝕄)
      = iprop(iprop(iprop(∃ d, owns (c : Thread nD τ) scM6 fullShare d) ∗ Pipeline.scopedRestBut spec6 c [cc6_scratch0]) ∗ (∃ r, prngReg c r)) := by
  unfold Pipeline.ΦA; rw [scopedRest6_split]; simp only [scM6, owns_whole]
  rfl

theorem Phi6_zero (c : Dev nD) (n : ℕ) (h : n ≤ cfg6.N) (hz : n = 0) : Phi6 V c n h = Pipeline.ΦA spec6 c := by
  subst hz; rfl

/-- After point `n`: the scratch at that point's running sum. -/
theorem Phi6_succ (c : Dev nD) (n : ℕ) (hn : n < cfg6.N) :
    Phi6 V c (n + 1) hn = iprop(iprop(owns (c : Thread nD τ) scM6 fullShare (acc6 V c n hn) ∗ Pipeline.scopedRestBut spec6 c [cc6_scratch0]) ∗ (∃ r, prngReg c r)) := rfl

/-- Before a point that is not the first: the scratch at the running sum of the point before. -/
theorem Phi6_pos (c : Dev nD) (n : ℕ) (h : n ≤ cfg6.N) (hz : n ≠ 0) :
    Phi6 V c n h = iprop(iprop(owns (c : Thread nD τ) scM6 fullShare (acc6 V c (n - 1) (by omega)) ∗ Pipeline.scopedRestBut spec6 c [cc6_scratch0]) ∗ (∃ r, prngReg c r)) := by
  cases n with
  | zero => exact absurd rfl hz
  | succ n => rfl

theorem Phi6_castSucc (c : Dev nD) (t : Fin cfg6.N) :
    (dat6 V c).Φ t.castSucc = Phi6 V c t.val (Nat.le_of_lt t.isLt) := by
  dsimp only [dat6]; simp only [Fin.coe_castSucc]

/-- The running sum at a point after the first, over the sum of the point before. -/
theorem acc6_pos (c : Dev nD) (t : Fin cfg6.N) (hz : t.val ≠ 0) :
    acc6 V c t.val t.isLt = k6_pay2 (iblk6 V c 1 t) (iblk6 V c 0 t) (acc6 V c (t.val - 1) (Nat.lt_of_le_of_lt (Nat.sub_le _ _) t.isLt)) := by
  obtain ⟨n, hn⟩ := t
  cases n with
  | zero => exact absurd rfl hz
  | succ n => rfl

/-- The running sum at the first point. -/
theorem acc6_first (c : Dev nD) (t : Fin cfg6.N) (hz : t.val = 0) :
    acc6 V c t.val t.isLt = k6_pay2 (iblk6 V c 1 t) (iblk6 V c 0 t) (k6_pay1 (F := F)) := by
  obtain ⟨n, hn⟩ := t
  dsimp only at hz
  subst hz
  rfl

/-! ## The inputs' buffers -/

/-- The one-hot block's staging buffer holds its block at every point. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

/-- The node block's staging buffer holds its block at every point. -/
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point: the inputs' buffers hold their blocks; the invariant hands the body the scratch (at
    anything at the first point, at the running sum of the point before afterwards) and takes it back at this
    point's running sum; the output block's buffer is handed back as found, except at the last point, where it
    takes the running sum. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  have hN : t.val < 25 := lt_of_lt_of_eq t.isLt (show cfg6.N = 25 from N_6)
  by_cases h0 : t.val = 0
  · have h1 : ¬t.val = 24 := by omega
    have hc0 : cond6_0 (grid6.coords t) := (hcond6_0 t).mpr h0
    have hc1 : ¬cond6_1 (grid6.coords t) := fun h => h1 ((hcond6_1 t).mp h)
    rw [Dat.leavesExact_idle (dat6 V c) 2 t (idle6_2 t hc1) (noFlush6_2 t hc1)]
    rw [acc6_first V c t h0]
    rw [Phi6_castSucc V c t, Phi6_zero V c _ _ h0, PhiA6_eq]
    iintro ⟨⟨⟨HS, Hr⟩, Hg⟩, Ho, ⟨%d0, H0⟩, ⟨%d1, H1⟩, ⟨%d2, H2⟩⟩
    iapply (sound_kernel6_first c Set.univ (grid6.coords t) hc0 hc1 _ _ _ _ _ _ _ _ (iblk6 V c 0 t) (iblk6 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 24
    · have hc0 : ¬cond6_0 (grid6.coords t) := fun h => h0 ((hcond6_0 t).mp h)
      have hc1 : cond6_1 (grid6.coords t) := (hcond6_1 t).mpr h1
      rw [show (dat6 V c).leavesExact 2 t = owns (c : Thread nD τ) (st6_2 t) fullShare ((dat6 V c).after 2 t) from by
        unfold Dat.leavesExact; rw [live6_2 t hc1], after6_2]
      rw [acc6_pos V c t h0]
      rw [Phi6_castSucc V c t, Phi6_pos V c _ _ h0]
      iintro ⟨⟨⟨HS, Hr⟩, Hg⟩, Ho, ⟨%d0, H0⟩, ⟨%d1, H1⟩, ⟨%d2, H2⟩⟩
      iapply (sound_kernel6_last c Set.univ (grid6.coords t) hc0 hc1 _ _ _ _ _ _ _ _ (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 2 t (idle6_2 t hc1) (noFlush6_2 t hc1)]
      rw [acc6_pos V c t h0]
      rw [Phi6_castSucc V c t, Phi6_pos V c _ _ h0]
      iintro ⟨⟨⟨HS, Hr⟩, Hg⟩, Ho, ⟨%d0, H0⟩, ⟨%d1, H1⟩, ⟨%d2, H2⟩⟩
      iapply (sound_kernel6_mid c Set.univ (grid6.coords t) hc0 hc1 _ _ _ _ _ _ _ _ (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline's obligation on the body, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After any point the invariant gives the launch's back: the scratch's contents are forgotten. -/
theorem Phi6_out (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, Hr⟩, Hg⟩
  isplitl [HS Hr]
  · isplitl [HS]
    · iexists _; iexact HS
    iexact Hr
  iexact Hg

/-- The same after the last point. -/
theorem hout6 (c : Dev nD) : (dat6 V c).Φ (Fin.last cfg6.N) ⊢ Pipeline.ΦA spec6 c :=
  Phi6_out V c _ (by rw [Fin.val_last]; have : cfg6.N = 25 := N_6; omega)

end Cert.Kernel.Hand

end
-- ==== Proof.K.Chain.lean ====
/-
  The contents of the unscoped buffers of the kernel program at each of the fifteen boundaries of @main - the
  launch, after each stretch of host operations, after each of the seven pipelined regions - as a fold from
  the launch memory: a stretch applies its operations, a region replaces its windows' arrays by what the
  pipeline leaves in them (the inputs as entered, the output's blocks written back) and keeps every other
  buffer. Then every pipeline's proof data, each at its own region's entry contents, as one family. Holds
  at any float instance.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Reg0
import proofs.«425873_j26182120636599_1_alg».proof.Proof.K.Reg1
import proofs.«425873_j26182120636599_1_alg».proof.Proof.K.Reg2
import proofs.«425873_j26182120636599_1_alg».proof.Proof.K.Reg3
import proofs.«425873_j26182120636599_1_alg».proof.Proof.K.Reg4
import proofs.«425873_j26182120636599_1_alg».proof.Proof.K.Reg5
import proofs.«425873_j26182120636599_1_alg».proof.Proof.K.Reg6
import proofs.«425873_j26182120636599_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev B0 : Dev nD → Valuation τ sig (Elt F) := fun c b => m (c, b)
/-- After the first stretch (degrees, normalisation coefficients, the rounded weights): region 0's entry. -/
abbrev B1 : Dev nD → Valuation τ sig (Elt F) := fun c => StableHlo.after hostOps0 (B0 m c)
abbrev E1 : Vals F := fun c b => B1 m c b
/-- After region 0: the first dense product in its output array. -/
def B2 (c : Dev nD) : Valuation τ sig (Elt F) :=
  Pipeline.withArrays spec0 c (B1 m c) fun w => (dat0 (E1 m) c).arrAt w cfg0.N
abbrev E2 : Vals F := fun c b => B2 m c b
/-- After the first aggregation stretch: region 1's entry. -/
abbrev B3 : Dev nD → Valuation τ sig (Elt F) := fun c => StableHlo.after hostOps1 (B2 m c)
abbrev E3 : Vals F := fun c b => B3 m c b
/-- After region 1 (bias, normalisation, rectifier). -/
def B4 (c : Dev nD) : Valuation τ sig (Elt F) :=
  Pipeline.withArrays spec1 c (B3 m c) fun w => (dat1 (E3 m) c).arrAt w cfg1.N
abbrev E4 : Vals F := fun c b => B4 m c b
/-- After region 2 (the second dense product). -/
def B5 (c : Dev nD) : Valuation τ sig (Elt F) :=
  Pipeline.withArrays spec2 c (B4 m c) fun w => (dat2 (E4 m) c).arrAt w cfg2.N
abbrev E5 : Vals F := fun c b => B5 m c b
/-- After the second aggregation stretch: region 3's entry. -/
abbrev B6 : Dev nD → Valuation τ sig (Elt F) := fun c => StableHlo.after hostOps3 (B5 m c)
abbrev E6 : Vals F := fun c b => B6 m c b
/-- After region 3. -/
def B7 (c : Dev nD) : Valuation τ sig (Elt F) :=
  Pipeline.withArrays spec3 c (B6 m c) fun w => (dat3 (E6 m) c).arrAt w cfg3.N
abbrev E7 : Vals F := fun c b => B7 m c b
/-- After region 4 (the third dense product). -/
def B8 (c : Dev nD) : Valuation τ sig (Elt F) :=
  Pipeline.withArrays spec4 c (B7 m c) fun w => (dat4 (E7 m) c).arrAt w cfg4.N
abbrev E8 : Vals F := fun c b => B8 m c b
/-- After the third aggregation stretch: region 5's entry. -/
abbrev B9 : Dev nD → Valuation τ sig (Elt F) := fun c => StableHlo.after hostOps5 (B8 m c)
abbrev E9 : Vals F := fun c b => B9 m c b
/-- After region 5 (the last bias). -/
def B10 (c : Dev nD) : Valuation τ sig (Elt F) :=
  Pipeline.withArrays spec5 c (B9 m c) fun w => (dat5 (E9 m) c).arrAt w cfg5.N
abbrev E10 : Vals F := fun c b => B10 m c b
/-- After the one-hot membership matrix is made, -/
abbrev B11 : Dev nD → Valuation τ sig (Elt F) := fun c => StableHlo.after hostOps6 (B10 m c)
/-- and after the graph sizes are counted: region 6's entry. -/
abbrev B12 : Dev nD → Valuation τ sig (Elt F) := fun c => StableHlo.after hostOps6_1 (B11 m c)
abbrev E12 : Vals F := fun c b => B12 m c b
/-- After region 6 (the pooled sums). -/
def B13 (c : Dev nD) : Valuation τ sig (Elt F) :=
  Pipeline.withArrays spec6 c (B12 m c) fun w => (dat6 (E12 m) c).arrAt w cfg6.N
abbrev E13 : Vals F := fun c b => B13 m c b
/-- After the last stretch (the division by the graph sizes): the end of @main. -/
abbrev B14 : Dev nD → Valuation τ sig (Elt F) := fun c => StableHlo.after hostOps7 (B13 m c)

/-! ## A region's arrays at its exit, and everything else kept -/

theorem B2_arr (c : Dev nD) (w : Fin cfg0.W) : B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem B4_arr (c : Dev nD) (w : Fin cfg1.W) : B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem B5_arr (c : Dev nD) (w : Fin cfg2.W) : B5 m c (Proc.devRef .tc (Pipeline.arrRef spec2 w)) = (dat2 (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) : B5 m c (Proc.devRef .tc b) = B4 m c (Proc.devRef .tc b) := by
  unfold B5; exact Pipeline.withArrays_of_ne spec2 c _ _ b hb
theorem B7_arr (c : Dev nD) (w : Fin cfg3.W) : B7 m c (Proc.devRef .tc (Pipeline.arrRef spec3 w)) = (dat3 (E6 m) c).arrAt w cfg3.N := by
  unfold B7; exact Pipeline.withArrays_arr spec3 launch3.win.arr_inj c _ _ w
theorem B7_of_ne (c : Dev nD) (b : Ref sig .tc) (hb : ∀ w, Pipeline.arrRef spec3 w ≠ b) : B7 m c (Proc.devRef .tc b) = B6 m c (Proc.devRef .tc b) := by
  unfold B7; exact Pipeline.withArrays_of_ne spec3 c _ _ b hb
theorem B8_arr (c : Dev nD) (w : Fin cfg4.W) : B8 m c (Proc.devRef .tc (Pipeline.arrRef spec4 w)) = (dat4 (E7 m) c).arrAt w cfg4.N := by
  unfold B8; exact Pipeline.withArrays_arr spec4 launch4.win.arr_inj c _ _ w
theorem B8_of_ne (c : Dev nD) (b : Ref sig .tc) (hb : ∀ w, Pipeline.arrRef spec4 w ≠ b) : B8 m c (Proc.devRef .tc b) = B7 m c (Proc.devRef .tc b) := by
  unfold B8; exact Pipeline.withArrays_of_ne spec4 c _ _ b hb
theorem B10_arr (c : Dev nD) (w : Fin cfg5.W) : B10 m c (Proc.devRef .tc (Pipeline.arrRef spec5 w)) = (dat5 (E9 m) c).arrAt w cfg5.N := by
  unfold B10; exact Pipeline.withArrays_arr spec5 launch5.win.arr_inj c _ _ w
theorem B10_of_ne (c : Dev nD) (b : Ref sig .tc) (hb : ∀ w, Pipeline.arrRef spec5 w ≠ b) : B10 m c (Proc.devRef .tc b) = B9 m c (Proc.devRef .tc b) := by
  unfold B10; exact Pipeline.withArrays_of_ne spec5 c _ _ b hb
theorem B13_arr (c : Dev nD) (w : Fin cfg6.W) : B13 m c (Proc.devRef .tc (Pipeline.arrRef spec6 w)) = (dat6 (E12 m) c).arrAt w cfg6.N := by
  unfold B13; exact Pipeline.withArrays_arr spec6 launch6.win.arr_inj c _ _ w
theorem B13_of_ne (c : Dev nD) (b : Ref sig .tc) (hb : ∀ w, Pipeline.arrRef spec6 w ≠ b) : B13 m c (Proc.devRef .tc b) = B12 m c (Proc.devRef .tc b) := by
  unfold B13; exact Pipeline.withArrays_of_ne spec6 c _ _ b hb

/-! ## The proof data of all seven pipelines -/

/-- Each pipeline's proof data at the contents its region is entered from: a literal match, so that the
    configuration pinned at a numeral reduces to the printed one. -/
def pdats : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E7 m) c
  | ⟨5, _⟩ => fun c => dat5 (E9 m) c
  | ⟨6, _⟩ => fun c => dat6 (E12 m) c

/-! ## What every segment of @main shares -/

abbrev VAR0 : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment: the unscoped buffers from the contents `W` to the operations'
    results over them, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VAR0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
/-
  Region 0 as a segment of @main: entered with every unscoped buffer at the contents the first stretch of
  host operations leaves, left with the region's arrays at what the pipeline wrote back and every other
  buffer as it was. The region's arrays are split out of the unscoped buffers at entry and put back at
  exit; the generator register goes into the region's invariant and comes back; nothing is owed; the
  kernel has no semaphore of its own.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF0 (c : Dev nD) (w : Fin cfg0.W) : (dat0 (E1 m) c).arrAt w cfg0.N = E2 m c (Pipeline.arrRef spec0 w) :=
  (B2_arr m c w).symm
/-- and every other buffer what it held at entry. -/
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

set_option backward.isDefEq.respectTransparency.types false in
def reg0 : Pipeline.RegionSeg (pcfgs (F := F)) adm (pdats m) () defs₀ VAR0 Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of @main (bias, normalisation and rectifier of the first layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF1 (c : Dev nD) (w : Fin cfg1.W) : (dat1 (E3 m) c).arrAt w cfg1.N = E4 m c (Pipeline.arrRef spec1 w) :=
  (B4_arr m c w).symm
/-- and every other buffer what it held at entry. -/
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

set_option backward.isDefEq.respectTransparency.types false in
def reg1 : Pipeline.RegionSeg (pcfgs (F := F)) adm (pdats m) () defs₀ VAR0 Lz lvz 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lz lvz 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of @main (the second dense product): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF2 (c : Dev nD) (w : Fin cfg2.W) : (dat2 (E4 m) c).arrAt w cfg2.N = E5 m c (Pipeline.arrRef spec2 w) :=
  (B5_arr m c w).symm
/-- and every other buffer what it held at entry. -/
theorem hrest2 (c : Dev nD) : ∀ b, b ∉ Finset.univ.image (Pipeline.arrRef spec2) → E5 m c b = E4 m c b :=
  fun b hb => B5_of_ne m c b fun w e => hb (Finset.mem_image.mpr ⟨w, Finset.mem_univ _, e⟩)

set_option backward.isDefEq.respectTransparency.types false in
def reg2 : Pipeline.RegionSeg (pcfgs (F := F)) adm (pdats m) () defs₀ VAR0 Lz lvz 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ Lz lvz 2 fun _ _ => rfl
  pre c := iprop(StableHlo.held (c : Thread nD τ) (Pipeline.ucRefs τ sig) (B4 m c) ∗ Rst c)
  post c := iprop(StableHlo.held (c : Thread nD τ) (Pipeline.ucRefs τ sig) (B5 m c) ∗ Rst c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as a segment of @main (bias, normalisation and rectifier of the second layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF3 (c : Dev nD) (w : Fin cfg3.W) : (dat3 (E6 m) c).arrAt w cfg3.N = E7 m c (Pipeline.arrRef spec3 w) :=
  (B7_arr m c w).symm
/-- and every other buffer what it held at entry. -/
theorem hrest3 (c : Dev nD) : ∀ b, b ∉ Finset.univ.image (Pipeline.arrRef spec3) → E7 m c b = E6 m c b :=
  fun b hb => B7_of_ne m c b fun w e => hb (Finset.mem_image.mpr ⟨w, Finset.mem_univ _, e⟩)

set_option backward.isDefEq.respectTransparency.types false in
def reg3 : Pipeline.RegionSeg (pcfgs (F := F)) adm (pdats m) () defs₀ VAR0 Lz lvz 3 where
  win := launch3.win.to₀
  block_pos := launch3.block_pos
  stage_whole := launch3.stage_whole
  K := PEmpty
  osem k := k.elim
  ho := Pipeline.OwnSemFacts.none _
  hbody c := (body_obligation3 (E6 m) c).loose
  hwaits := Pipeline.hwaits_of_owed_zero _ _ _ _ Lz lvz 3 fun _ _ => rfl
  pre c := iprop(StableHlo.held (c : Thread nD τ) (Pipeline.ucRefs τ sig) (B6 m c) ∗ Rst c)
  post c := iprop(StableHlo.held (c : Thread nD τ) (Pipeline.ucRefs τ sig) (B7 m c) ∗ Rst c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E6 m c) (E7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as a segment of @main (the third dense product): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF4 (c : Dev nD) (w : Fin cfg4.W) : (dat4 (E7 m) c).arrAt w cfg4.N = E8 m c (Pipeline.arrRef spec4 w) :=
  (B8_arr m c w).symm
/-- and every other buffer what it held at entry. -/
theorem hrest4 (c : Dev nD) : ∀ b, b ∉ Finset.univ.image (Pipeline.arrRef spec4) → E8 m c b = E7 m c b :=
  fun b hb => B8_of_ne m c b fun w e => hb (Finset.mem_image.mpr ⟨w, Finset.mem_univ _, e⟩)

set_option backward.isDefEq.respectTransparency.types false in
def reg4 : Pipeline.RegionSeg (pcfgs (F := F)) adm (pdats m) () defs₀ VAR0 Lz lvz 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ Lz lvz 4 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E7 m c) (E8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/-
  Region 5 as a segment of @main (the bias of the last layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF5 (c : Dev nD) (w : Fin cfg5.W) : (dat5 (E9 m) c).arrAt w cfg5.N = E10 m c (Pipeline.arrRef spec5 w) :=
  (B10_arr m c w).symm
/-- and every other buffer what it held at entry. -/
theorem hrest5 (c : Dev nD) : ∀ b, b ∉ Finset.univ.image (Pipeline.arrRef spec5) → E10 m c b = E9 m c b :=
  fun b hb => B10_of_ne m c b fun w e => hb (Finset.mem_image.mpr ⟨w, Finset.mem_univ _, e⟩)

set_option backward.isDefEq.respectTransparency.types false in
def reg5 : Pipeline.RegionSeg (pcfgs (F := F)) adm (pdats m) () defs₀ VAR0 Lz lvz 5 where
  win := launch5.win.to₀
  block_pos := launch5.block_pos
  stage_whole := launch5.stage_whole
  K := PEmpty
  osem k := k.elim
  ho := Pipeline.OwnSemFacts.none _
  hbody c := (body_obligation5 (E9 m) c).loose
  hwaits := Pipeline.hwaits_of_owed_zero _ _ _ _ Lz lvz 5 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E9 m c) (E10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/-
  Region 6 (the pooled sums) as a segment of @main: entered with every unscoped buffer at the contents the
  two stretches before it leave (the one-hot membership matrix, the graph sizes), left with the region's arrays at what the pipeline wrote back and every other
  buffer as it was. The region's arrays are split out of the unscoped buffers at entry and put back at
  exit; the generator register goes into the region's invariant (which, between points, holds the running sum in
  the kernel's scratch) and comes back; nothing is owed; the
  kernel has no semaphore of its own.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF6 (c : Dev nD) (w : Fin cfg6.W) : (dat6 (E12 m) c).arrAt w cfg6.N = E13 m c (Pipeline.arrRef spec6 w) :=
  (B13_arr m c w).symm
/-- and every other buffer what it held at entry. -/
theorem hrest6 (c : Dev nD) : ∀ b, b ∉ Finset.univ.image (Pipeline.arrRef spec6) → E13 m c b = E12 m c b :=
  fun b hb => B13_of_ne m c b fun w e => hb (Finset.mem_image.mpr ⟨w, Finset.mem_univ _, e⟩)

set_option backward.isDefEq.respectTransparency.types false in
def reg6 : Pipeline.RegionSeg (pcfgs (F := F)) adm (pdats m) () defs₀ VAR0 Lz lvz 6 where
  win := launch6.win.to₀
  block_pos := launch6.block_pos
  stage_whole := launch6.stage_whole
  K := PEmpty
  osem k := k.elim
  ho := Pipeline.OwnSemFacts.none _
  hbody c := (body_obligation6 (E12 m) c).loose
  hwaits := Pipeline.hwaits_of_owed_zero _ _ _ _ Lz lvz 6 fun _ _ => rfl
  pre c := iprop(StableHlo.held (c : Thread nD τ) (Pipeline.ucRefs τ sig) (B12 m c) ∗ Rst c)
  post c := iprop(StableHlo.held (c : Thread nD τ) (Pipeline.ucRefs τ sig) (B13 m c) ∗ Rst c)
  X c := iprop(∃ r, prngReg c r)
  Y c := iprop(∃ r, prngReg c r)
  Z c := Pipeline.unscopedRest (Ix := Unit) (Name := ℕ) (U := UR sig nD τ) (Lvl := ℕ) spec6 c (E12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (E12 m) c).Φ 0 from rfl]
    have h : iprop((∃ r, prngReg c r) ∗ Pipeline.prefHeld (pcfgs (F := F) 6).pre c (fun _ => fullShare) (adm (F := F) 6).1
        ∗ Pipeline.scopedRest (Ix := Unit) (Name := ℕ) (U := UR sig nD τ) (Lvl := ℕ) (Val := Elt F) spec6 c) ⊢ (Pipeline.ΦA spec6 c : sProp 𝕄) := by
      unfold Pipeline.ΦA
      iintro ⟨Hp, -, Hr⟩
      isplitl [Hr]; · iexact Hr
      iexact Hp
    exact h.trans (hin6 (E12 m) c)
  hout c := by
    rw [Pipeline.ownSems0_none, show (pdats m 6 c).Φ (Fin.last _) = (dat6 (E12 m) c).Φ (Fin.last cfg6.N) from rfl]
    have h : (Pipeline.ΦA spec6 c : sProp 𝕄) ⊢ iprop((∃ r, prngReg c r) ∗ BI.emp
        ∗ Pipeline.scopedRest (Ix := Unit) (Name := ℕ) (U := UR sig nD τ) (Lvl := ℕ) (Val := Elt F) spec6 c) := by
      unfold Pipeline.ΦA
      iintro ⟨Hr, Hp⟩
      isplitl [Hp]; · iexact Hp
      isplitr; · iempintro
      iexact Hr
    exact (hout6 (E12 m) c).trans h
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E12 m c) (E13 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The run of the kernel program, at any float instance: @main is fourteen segments - eight stretches of host
  operations and the seven pipelined regions - whose thread states chain (each stretch or region is entered
  with every unscoped buffer at the contents the one before it left), so from any launch memory with zero
  counters every weakly fair execution terminates without a fault, and every unscoped buffer ends at the
  last valuation of the fold. The frame claim and the value of the result are both read off this one fact.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Seg0
import proofs.«425873_j26182120636599_1_alg».proof.Proof.K.Seg1
import proofs.«425873_j26182120636599_1_alg».proof.Proof.K.Seg2
import proofs.«425873_j26182120636599_1_alg».proof.Proof.K.Seg3
import proofs.«425873_j26182120636599_1_alg».proof.Proof.K.Seg4
import proofs.«425873_j26182120636599_1_alg».proof.Proof.K.Seg5
import proofs.«425873_j26182120636599_1_alg».proof.Proof.K.Seg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev mainSegs : List (Pipeline.Seg (pcfgs (F := F)) adm (pdats m) () defs₀ VAR0 Lz lvz) :=
  [ .host (hseg hostOps0 hostOps0_sub hostOps0_fresh (B0 m)),
    .region (reg0 m),
    .host (hseg hostOps1 hostOps1_sub hostOps1_fresh (B2 m)),
    .region (reg1 m),
    .region (reg2 m),
    .host (hseg hostOps3 hostOps3_sub hostOps3_fresh (B5 m)),
    .region (reg3 m),
    .region (reg4 m),
    .host (hseg hostOps5 hostOps5_sub hostOps5_fresh (B8 m)),
    .region (reg5 m),
    .host (hseg hostOps6 hostOps6_sub hostOps6_fresh (B10 m)),
    .host (hseg hostOps6_1 hostOps6_1_sub hostOps6_1_fresh (B11 m)),
    .region (reg6 m),
    .host (hseg hostOps7 hostOps7_sub hostOps7_fresh (B13 m)) ]

/-- The last thread state without what is owed: every unscoped buffer at the last contents, the generator
    register at some state. -/
abbrev Tn (c : Dev nD) : sProp 𝕄 := iprop(StableHlo.held (c : Thread nD τ) (Pipeline.ucRefs τ sig) (B14 m c) ∗ ∃ r, prngReg c r)

set_option backward.isDefEq.respectTransparency.types false in
/-- Every weakly fair execution of @main terminates, nothing faulting, with every unscoped buffer of every
    core at the last valuation of the fold through @main. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pdats m) () cellOf_inj emb₁ defs₀ VAR0 Lz lvz m ρ main (mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          Prog.lift (.customCall (Pipeline.entry 6) ()),
          StableHlo.seq hostOps7 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tn m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (B14 m c) ∗ Rst c) ⊢ _
        iintro ⟨Hh, Hp, Ho⟩
        isplitl [Hh Hp]
        · isplitl [Hh]; · iexact Hh
          iexact Hp
        iexact Ho⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

end Cert.Kernel.Hand

end
-- ==== Proof.K.Frames.lean ====
/-
  The frame of the kernel program, at any float instance: no stretch of host operations writes an argument
  of @main and no region changes one (a region changes only its output array, which is never an argument), so
  the fold of the buffers' contents through @main, read at an argument, walks back to the launch memory; with
  the run this is the frame claim: every execution ends with every argument array as launched.
-/
import proofs.«425873_j26182120636599_1_alg».proof.Proof.Gen.Kernel.Launch
import proofs.«425873_j26182120636599_1_alg».proof.Proof.Gen.Kernel.Skeleton
import proofs.«425873_j26182120636599_1_alg».proof.Proof.Gen.Kernel.Points
import proofs.«425873_j26182120636599_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes no buffer but its output array `main_v35`. -/
theorem out_only0 : ∀ w : Fin cfg0.W, (cfg0.win w).isOut = true → Pipeline.arrRef spec0 w = main_v35 := by decide
theorem B2_keep (c : Dev nD) (b : Ref sig .tc) (h : b ≠ main_v35) : B2 m c (Proc.devRef .tc b) = B1 m c (Proc.devRef .tc b) := by
  by_cases hb : ∃ w, Pipeline.arrRef spec0 w = b
  · obtain ⟨w, rfl⟩ := hb
    have hw : (cfg0.win w).isOut = false := by
      cases hio : (cfg0.win w).isOut
      · rfl
      · exact absurd (out_only0 w hio) h
    rw [B2_arr]
    exact ((dat0 (E1 m) c).arrAt_in w hw _).trans (A_eq0 (E1 m) c w)
  · exact B2_of_ne m c b (fun w e => hb ⟨w, e⟩)

/-- Region 1 changes no buffer but its output array `main_v58`. -/
theorem out_only1 : ∀ w : Fin cfg1.W, (cfg1.win w).isOut = true → Pipeline.arrRef spec1 w = main_v58 := by decide
theorem B4_keep (c : Dev nD) (b : Ref sig .tc) (h : b ≠ main_v58) : B4 m c (Proc.devRef .tc b) = B3 m c (Proc.devRef .tc b) := by
  by_cases hb : ∃ w, Pipeline.arrRef spec1 w = b
  · obtain ⟨w, rfl⟩ := hb
    have hw : (cfg1.win w).isOut = false := by
      cases hio : (cfg1.win w).isOut
      · rfl
      · exact absurd (out_only1 w hio) h
    rw [B4_arr]
    exact ((dat1 (E3 m) c).arrAt_in w hw _).trans (A_eq1 (E3 m) c w)
  · exact B4_of_ne m c b (fun w e => hb ⟨w, e⟩)

/-- Region 2 changes no buffer but its output array `main_v59`. -/
theorem out_only2 : ∀ w : Fin cfg2.W, (cfg2.win w).isOut = true → Pipeline.arrRef spec2 w = main_v59 := by decide
theorem B5_keep (c : Dev nD) (b : Ref sig .tc) (h : b ≠ main_v59) : B5 m c (Proc.devRef .tc b) = B4 m c (Proc.devRef .tc b) := by
  by_cases hb : ∃ w, Pipeline.arrRef spec2 w = b
  · obtain ⟨w, rfl⟩ := hb
    have hw : (cfg2.win w).isOut = false := by
      cases hio : (cfg2.win w).isOut
      · rfl
      · exact absurd (out_only2 w hio) h
    rw [B5_arr]
    exact ((dat2 (E4 m) c).arrAt_in w hw _).trans (A_eq2 (E4 m) c w)
  · exact B5_of_ne m c b (fun w e => hb ⟨w, e⟩)

/-- Region 3 changes no buffer but its output array `main_v82`. -/
theorem out_only3 : ∀ w : Fin cfg3.W, (cfg3.win w).isOut = true → Pipeline.arrRef spec3 w = main_v82 := by decide
theorem B7_keep (c : Dev nD) (b : Ref sig .tc) (h : b ≠ main_v82) : B7 m c (Proc.devRef .tc b) = B6 m c (Proc.devRef .tc b) := by
  by_cases hb : ∃ w, Pipeline.arrRef spec3 w = b
  · obtain ⟨w, rfl⟩ := hb
    have hw : (cfg3.win w).isOut = false := by
      cases hio : (cfg3.win w).isOut
      · rfl
      · exact absurd (out_only3 w hio) h
    rw [B7_arr]
    exact ((dat3 (E6 m) c).arrAt_in w hw _).trans (A_eq3 (E6 m) c w)
  · exact B7_of_ne m c b (fun w e => hb ⟨w, e⟩)

/-- Region 4 changes no buffer but its output array `main_v83`. -/
theorem out_only4 : ∀ w : Fin cfg4.W, (cfg4.win w).isOut = true → Pipeline.arrRef spec4 w = main_v83 := by decide
theorem B8_keep (c : Dev nD) (b : Ref sig .tc) (h : b ≠ main_v83) : B8 m c (Proc.devRef .tc b) = B7 m c (Proc.devRef .tc b) := by
  by_cases hb : ∃ w, Pipeline.arrRef spec4 w = b
  · obtain ⟨w, rfl⟩ := hb
    have hw : (cfg4.win w).isOut = false := by
      cases hio : (cfg4.win w).isOut
      · rfl
      · exact absurd (out_only4 w hio) h
    rw [B8_arr]
    exact ((dat4 (E7 m) c).arrAt_in w hw _).trans (A_eq4 (E7 m) c w)
  · exact B8_of_ne m c b (fun w e => hb ⟨w, e⟩)

/-- Region 5 changes no buffer but its output array `main_v102`. -/
theorem out_only5 : ∀ w : Fin cfg5.W, (cfg5.win w).isOut = true → Pipeline.arrRef spec5 w = main_v102 := by decide
theorem B10_keep (c : Dev nD) (b : Ref sig .tc) (h : b ≠ main_v102) : B10 m c (Proc.devRef .tc b) = B9 m c (Proc.devRef .tc b) := by
  by_cases hb : ∃ w, Pipeline.arrRef spec5 w = b
  · obtain ⟨w, rfl⟩ := hb
    have hw : (cfg5.win w).isOut = false := by
      cases hio : (cfg5.win w).isOut
      · rfl
      · exact absurd (out_only5 w hio) h
    rw [B10_arr]
    exact ((dat5 (E9 m) c).arrAt_in w hw _).trans (A_eq5 (E9 m) c w)
  · exact B10_of_ne m c b (fun w e => hb ⟨w, e⟩)

/-- Region 6 changes no buffer but its output array `main_v108`. -/
theorem out_only6 : ∀ w : Fin cfg6.W, (cfg6.win w).isOut = true → Pipeline.arrRef spec6 w = main_v108 := by decide
theorem B13_keep (c : Dev nD) (b : Ref sig .tc) (h : b ≠ main_v108) : B13 m c (Proc.devRef .tc b) = B12 m c (Proc.devRef .tc b) := by
  by_cases hb : ∃ w, Pipeline.arrRef spec6 w = b
  · obtain ⟨w, rfl⟩ := hb
    have hw : (cfg6.win w).isOut = false := by
      cases hio : (cfg6.win w).isOut
      · rfl
      · exact absurd (out_only6 w hio) h
    rw [B13_arr]
    exact ((dat6 (E12 m) c).arrAt_in w hw _).trans (A_eq6 (E12 m) c w)
  · exact B13_of_ne m c b (fun w e => hb ⟨w, e⟩)

/-- A buffer that no stretch writes and that is no region's output array ends as launched. -/
theorem B14_keep (c : Dev nD) (b : Ref sig .tc)
    (h0 : b ∉ hostOps0_W) (h1 : b ∉ hostOps1_W) (h3 : b ∉ hostOps3_W) (h5 : b ∉ hostOps5_W) (h6 : b ∉ hostOps6_W)
    (h61 : b ∉ hostOps6_1_W) (h7 : b ∉ hostOps7_W)
    (ho : b ∉ ([main_v35, main_v58, main_v59, main_v82, main_v83, main_v102, main_v108] : List (Ref sig .tc))) :
    B14 m c (Proc.devRef .tc b) = m (c, Proc.devRef .tc b) := by
  have n35 : b ≠ main_v35 := fun e => ho (by subst e; decide)
  have n58 : b ≠ main_v58 := fun e => ho (by subst e; decide)
  have n59 : b ≠ main_v59 := fun e => ho (by subst e; decide)
  have n82 : b ≠ main_v82 := fun e => ho (by subst e; decide)
  have n83 : b ≠ main_v83 := fun e => ho (by subst e; decide)
  have n102 : b ≠ main_v102 := fun e => ho (by subst e; decide)
  have n108 : b ≠ main_v108 := fun e => ho (by subst e; decide)
  calc B14 m c (Proc.devRef .tc b)
      = B13 m c (Proc.devRef .tc b) := StableHlo.after_of_writes_sub hostOps7 _ hostOps7_writes h7
    _ = B12 m c (Proc.devRef .tc b) := B13_keep m c b n108
    _ = B11 m c (Proc.devRef .tc b) := StableHlo.after_of_writes_sub hostOps6_1 _ hostOps6_1_writes h61
    _ = B10 m c (Proc.devRef .tc b) := StableHlo.after_of_writes_sub hostOps6 _ hostOps6_writes h6
    _ = B9 m c (Proc.devRef .tc b) := B10_keep m c b n102
    _ = B8 m c (Proc.devRef .tc b) := StableHlo.after_of_writes_sub hostOps5 _ hostOps5_writes h5
    _ = B7 m c (Proc.devRef .tc b) := B8_keep m c b n83
    _ = B6 m c (Proc.devRef .tc b) := B7_keep m c b n82
    _ = B5 m c (Proc.devRef .tc b) := StableHlo.after_of_writes_sub hostOps3 _ hostOps3_writes h3
    _ = B4 m c (Proc.devRef .tc b) := B5_keep m c b n59
    _ = B3 m c (Proc.devRef .tc b) := B4_keep m c b n58
    _ = B2 m c (Proc.devRef .tc b) := StableHlo.after_of_writes_sub hostOps1 _ hostOps1_writes h1
    _ = B1 m c (Proc.devRef .tc b) := B2_keep m c b n35
    _ = B0 m c (Proc.devRef .tc b) := StableHlo.after_of_writes_sub hostOps0 _ hostOps0_writes h0
    _ = m (c, Proc.devRef .tc b) := rfl

/-- @main's seventeen arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- Every argument ends as launched. -/
theorem args_kept (c : Dev nD) (b : Ref sig .tc) (hb : b ∈ argRefs) : B14 m c (Proc.devRef .tc b) = m (c, Proc.devRef .tc b) :=
  B14_keep m c b ((by decide : ∀ b ∈ argRefs, b ∉ hostOps0_W) b hb) ((by decide : ∀ b ∈ argRefs, b ∉ hostOps1_W) b hb)
    ((by decide : ∀ b ∈ argRefs, b ∉ hostOps3_W) b hb) ((by decide : ∀ b ∈ argRefs, b ∉ hostOps5_W) b hb)
    ((by decide : ∀ b ∈ argRefs, b ∉ hostOps6_W) b hb) ((by decide : ∀ b ∈ argRefs, b ∉ hostOps6_1_W) b hb)
    ((by decide : ∀ b ∈ argRefs, b ∉ hostOps7_W) b hb)
    ((by decide : ∀ b ∈ argRefs, b ∉ ([main_v35, main_v58, main_v59, main_v82, main_v83, main_v102, main_v108] : List (Ref sig .tc))) b hb)

/-- An argument's buffer in a final state of the run is the launch memory's. -/
theorem arg_end (c : Dev nD) (b : Ref sig .tc) (hb : b ∈ argRefs) (hs : ¬ (Proc.devRef .tc b : DevRef τ sig).isScoped)
    (s : MemSt nD τ sig (Elt F)) (h : ∀ b' ∈ Pipeline.ucRefs τ sig, s.mem (((c : Thread nD τ)).1, b') = B14 m c b') :
    s.mem ((c.tc : Thread nD τ).loc b) = m ((c.tc : Thread nD τ).loc b) :=
  (h _ (mem_uc b hs)).trans (args_kept m c b hb)

/-- THE FRAME, at any float instance: every weakly fair execution of @main from memory `m` with zero counters
    terminates, nothing faulting, and every final memory holds each argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨arg_end m c main_arg0 (by decide) (by decide) r.2 (h c), arg_end m c main_arg1 (by decide) (by decide) r.2 (h c),
     arg_end m c main_arg2 (by decide) (by decide) r.2 (h c), arg_end m c main_arg3 (by decide) (by decide) r.2 (h c),
     arg_end m c main_arg4 (by decide) (by decide) r.2 (h c), arg_end m c main_arg5 (by decide) (by decide) r.2 (h c),
     arg_end m c main_arg6 (by decide) (by decide) r.2 (h c), arg_end m c main_arg7 (by decide) (by decide) r.2 (h c),
     arg_end m c main_arg8 (by decide) (by decide) r.2 (h c), arg_end m c main_arg9 (by decide) (by decide) r.2 (h c),
     arg_end m c main_arg10 (by decide) (by decide) r.2 (h c), arg_end m c main_arg11 (by decide) (by decide) r.2 (h c),
     arg_end m c main_arg12 (by decide) (by decide) r.2 (h c), arg_end m c main_arg13 (by decide) (by decide) r.2 (h c),
     arg_end m c main_arg14 (by decide) (by decide) r.2 (h c), arg_end m c main_arg15 (by decide) (by decide) r.2 (h c),
     arg_end m c main_arg16 (by decide) (by decide) r.2 (h c)⟩) (run_all m ρ)

end Cert.Kernel.Hand

end
-- ==== Proof.KI.Basic.lean ====
/-
  Common to the region modules of the kernel program: what the unscoped buffers hold on each core at a
  region's entry is a parameter, named here once.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents on each core when a region is entered. -/
abbrev Vals (F : FTy → Type) [FloatOps F] := (c : Dev nD) → (b : Ref sig .tc) → Buf (Elt F) ((c : Thread nD τ).loc b)

end Cert.KernelIdeal.Hand

end
-- ==== Proof.KI.Reg0.lean ====
/-
  Region 0 of the kernel program: the first dense layer's product, one block of 2000 rows of the node
  features at a grid point against the whole (rounded) weight matrix. What is said here holds at any float
  instance: where each window's block sits in its array, what the body leaves in the output block (the
  matrix product of the row block with the weights, as one pure term of the two loaded blocks), and that the
  body run at any point meets the pipeline's obligation with an invariant that does not look at the body's
  buffers.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole output block as one rectangle. -/
abbrev rOut0 : Rect S2000x256 := Rect.unit (s := S2000x256) ![0, 0] S2000x256.size inb_S2000x256_S2000x256_0_0

/-- What the body leaves in the output block: its one stored value, a pure term of the two loaded blocks, over the whole block. -/
def out0 (x : Vec F S2000x768 .f32) (w : Vec F S768x256 .bf16) : Vec F S2000x256 .f32 :=
  View.canon [⟨rOut0, k0_pay1 (View.ld x (Rect.unit (s := S2000x768) ![0, 0] S2000x768.size inb_S2000x768_S2000x768_0_0))
    (View.ld w (Rect.unit (s := S768x256) ![0, 0] S768x256.size inb_S768x256_S768x256_0_0))⟩]

theorem cover0 (p0 : Vec F S2000x256 .f32) (y : S2000x256.Idx) :
    ∃ pc ∈ ([⟨rOut0, p0⟩] : List (View.Piece (Elt F) S2000x256 .f32)), y ∈ pc.1.set :=
  View.cover_of_tiled [⟨rOut0, p0⟩] S2000x256.size (by rfl) y

set_option maxHeartbeats 1000000 in
/-- The body on whole staging buffers: the two input blocks are read and kept, the output block ends at `out0` of them. -/
theorem sound_kernel0 (c : Dev nD) (E : Set ℕ) (i : grid0.Coords)
    (a1 : Memref sig .tc .vmem S2000x768 .f32) (h1 : a1.IsWhole) (a2 : Memref sig .tc .vmem S768x256 .bf16) (h2 : a2.IsWhole)
    (a3 : Memref sig .tc .vmem S2000x256 .f32) (h3 : a3.IsWhole)
    (x : Vec F S2000x768 .f32) (w : Vec F S768x256 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data on core `c`: the arrays as the region finds them; after the body each input block is
    still its block and the output block is `out0` of the two; the invariant is the scoped rest and the
    generator register, which the body does not touch; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- The first input's staging buffer holds its row block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second input's staging buffer holds its whole array at every point, fetched there or not (its block index never moves). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: the scoped rest and the generator register. -/
theorem Phi0 (c : Dev nD) (t : Fin (cfg0.N + 1)) : (dat0 V c).Φ t = Pipeline.ΦA spec0 c := rfl

end Cert.KernelIdeal.Hand

end
-- ==== Proof.KI.Reg1.lean ====
/-
  Region 1 of the kernel program: the finish of the first layer. At a grid point one block of 2000 rows of
  the aggregated first-layer features goes in, with five parameter rows (each a single row of 256, the same
  at every point); what comes out is the block with a bias row added, a mean row subtracted, scaled by the
  reciprocal square root of a variance row plus a small constant and by a gain row, shifted by an offset
  row, and cut below at zero, every row of the block treated alike. What is said here holds at any float
  instance: where each window's block sits in its array, what the body leaves in the output block (one pure
  term of the six loaded blocks), and that the body run at any point meets the pipeline's obligation with an
  invariant that does not look at the body's buffers.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole output block as one rectangle. -/
abbrev rOut1 : Rect S2000x256 := Rect.unit (s := S2000x256) ![0, 0] S2000x256.size inb_S2000x256_S2000x256_0_0

/-- What the body leaves in the output block: its one stored value, a pure term of the six loaded blocks
    (the row block, then the five parameter rows in window order), over the whole block. The term takes the
    rows in the order the body reads them, which is not window order: the fifth and sixth windows' rows are
    read before the third and fourth's. -/
def out1 (x0 : Vec F S2000x256 .f32) (x1 x2 x3 x4 x5 : Vec F S1x256 .f32) : Vec F S2000x256 .f32 :=
  View.canon [⟨rOut1, k1_pay1 (View.ld x0 (Rect.unit (s := S2000x256) ![0, 0] S2000x256.size inb_S2000x256_S2000x256_0_0))
    (View.ld x1 (Rect.unit (s := S1x256) ![0, 0] S1x256.size inb_S1x256_S1x256_0_0))
    (View.ld x4 (Rect.unit (s := S1x256) ![0, 0] S1x256.size inb_S1x256_S1x256_0_0))
    (View.ld x5 (Rect.unit (s := S1x256) ![0, 0] S1x256.size inb_S1x256_S1x256_0_0))
    (View.ld x2 (Rect.unit (s := S1x256) ![0, 0] S1x256.size inb_S1x256_S1x256_0_0))
    (View.ld x3 (Rect.unit (s := S1x256) ![0, 0] S1x256.size inb_S1x256_S1x256_0_0))⟩]

theorem cover1 (p0 : Vec F S2000x256 .f32) (y : S2000x256.Idx) :
    ∃ pc ∈ ([⟨rOut1, p0⟩] : List (View.Piece (Elt F) S2000x256 .f32)), y ∈ pc.1.set :=
  View.cover_of_tiled [⟨rOut1, p0⟩] S2000x256.size (by rfl) y

set_option maxHeartbeats 1000000 in
/-- The body on whole staging buffers: the six input blocks are read and kept, the output block ends at `out1` of them. -/
theorem sound_kernel1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (a7 : Memref sig .tc .vmem S2000x256 .f32) (h7 : a7.IsWhole)
    (x0 : Vec F S2000x256 .f32) (x1 x2 x3 x4 x5 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out1 x0 x1 x2 x3 x4 x5)) -∗ K ⟨⟩))
      ⊢ wp frame (wpE (defs₀ (F := F)) Variants.none c none) E (cc1__finalize_bn_relu_kernel i a1 h1 a2 h2 a3 h3 a4 h4 a5 h5 a6 h6 a7 h7) K := by
  simp only [cc1__finalize_bn_relu_kernel_eq_skeleton]; unfold cc1__finalize_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-- The proof data on core `c`: the arrays as the region finds them; after the body each input block is
    still its block and the output block is `out1` of the six; the invariant is the scoped rest and the
    generator register, which the body does not touch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1 (iblk1 V c 0 t) (iblk1 V c 1 t) (iblk1 V c 2 t) (iblk1 V c 3 t) (iblk1 V c 4 t) (iblk1 V c 5 t) := by dsimp only [dat1]

/-- The first input's staging buffer holds its row block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The second input's staging buffer holds its whole array (one row) at every point, fetched there or not (its block index never moves). -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The third input's likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The fourth input's likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The fifth input's likewise. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The sixth input's likewise. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-- The invariant is the same at every point: the scoped rest and the generator register. -/
theorem Phi1 (c : Dev nD) (t : Fin (cfg1.N + 1)) : (dat1 V c).Φ t = Pipeline.ΦA spec1 c := rfl

end Cert.KernelIdeal.Hand

end
-- ==== Proof.KI.Reg2.lean ====
/-
  Region 2 of the kernel program: the product of the second dense layer, one block of 2000 rows of the first hidden activations at a grid point against the whole (rounded) second weight matrix. As for region 0: where the block of each window sits, what the body leaves in the output block (the product of the row block with the weights as one pure term of the two loaded blocks), and the obligation the pipeline puts on the body, at any float instance.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole output block as one rectangle. -/
abbrev rOut2 : Rect S2000x256 := Rect.unit (s := S2000x256) ![0, 0] S2000x256.size inb_S2000x256_S2000x256_0_0

/-- What the body leaves in the output block: its one stored value, a pure term of the two loaded blocks, over the whole block. -/
def out2 (x : Vec F S2000x256 .f32) (w : Vec F S256x256 .bf16) : Vec F S2000x256 .f32 :=
  View.canon [⟨rOut2, k2_pay1 (View.ld x (Rect.unit (s := S2000x256) ![0, 0] S2000x256.size inb_S2000x256_S2000x256_0_0))
    (View.ld w (Rect.unit (s := S256x256) ![0, 0] S256x256.size inb_S256x256_S256x256_0_0))⟩]

theorem cover2 (p0 : Vec F S2000x256 .f32) (y : S2000x256.Idx) :
    ∃ pc ∈ ([⟨rOut2, p0⟩] : List (View.Piece (Elt F) S2000x256 .f32)), y ∈ pc.1.set :=
  View.cover_of_tiled [⟨rOut2, p0⟩] S2000x256.size (by rfl) y

set_option maxHeartbeats 1000000 in
/-- The body on whole staging buffers: the two input blocks are read and kept, the output block ends at `out2` of them. -/
theorem sound_kernel2 (c : Dev nD) (E : Set ℕ) (i : grid2.Coords)
    (a1 : Memref sig .tc .vmem S2000x256 .f32) (h1 : a1.IsWhole) (a2 : Memref sig .tc .vmem S256x256 .bf16) (h2 : a2.IsWhole)
    (a3 : Memref sig .tc .vmem S2000x256 .f32) (h3 : a3.IsWhole)
    (x : Vec F S2000x256 .f32) (w : Vec F S256x256 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data on core `c`: the arrays as the region finds them; after the body each input block is
    still its block and the output block is `out2` of the two; the invariant is the scoped rest and the
    generator register, which the body does not touch; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- The first input's staging buffer holds its row block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The second input's staging buffer holds its whole array at every point, fetched there or not (its block index never moves). -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

/-- The invariant is the same at every point: the scoped rest and the generator register. -/
theorem Phi2 (c : Dev nD) (t : Fin (cfg2.N + 1)) : (dat2 V c).Φ t = Pipeline.ΦA spec2 c := rfl

end Cert.KernelIdeal.Hand

end
-- ==== Proof.KI.Reg3.lean ====
/-
  Region 3 of the kernel program: the finish of the second layer. At a grid point one block of 2000 rows of the aggregated second-layer features goes in, with five parameter rows (each a single row of 256, the same at every point); what comes out is the block with a bias row added, a mean row subtracted, scaled by the reciprocal square root of a variance row plus a small constant and by a gain row, shifted by an offset row, and cut below at zero, every row of the block treated alike. What is said here holds at any float instance: where the block of each window sits in its array, what the body leaves in the output block (one pure term of the six loaded blocks), and that the body run at any point meets the obligation of the pipeline with an invariant that does not look at the buffers of the body.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole output block as one rectangle. -/
abbrev rOut3 : Rect S2000x256 := Rect.unit (s := S2000x256) ![0, 0] S2000x256.size inb_S2000x256_S2000x256_0_0

/-- What the body leaves in the output block: its one stored value, a pure term of the six loaded blocks
    (the row block, then the five parameter rows in window order), over the whole block. The term takes the
    rows in the order the body reads them, which is not window order: the fifth and sixth windows' rows are
    read before the third and fourth's. -/
def out3 (x0 : Vec F S2000x256 .f32) (x1 x2 x3 x4 x5 : Vec F S1x256 .f32) : Vec F S2000x256 .f32 :=
  View.canon [⟨rOut3, k3_pay1 (View.ld x0 (Rect.unit (s := S2000x256) ![0, 0] S2000x256.size inb_S2000x256_S2000x256_0_0))
    (View.ld x1 (Rect.unit (s := S1x256) ![0, 0] S1x256.size inb_S1x256_S1x256_0_0))
    (View.ld x4 (Rect.unit (s := S1x256) ![0, 0] S1x256.size inb_S1x256_S1x256_0_0))
    (View.ld x5 (Rect.unit (s := S1x256) ![0, 0] S1x256.size inb_S1x256_S1x256_0_0))
    (View.ld x2 (Rect.unit (s := S1x256) ![0, 0] S1x256.size inb_S1x256_S1x256_0_0))
    (View.ld x3 (Rect.unit (s := S1x256) ![0, 0] S1x256.size inb_S1x256_S1x256_0_0))⟩]

theorem cover3 (p0 : Vec F S2000x256 .f32) (y : S2000x256.Idx) :
    ∃ pc ∈ ([⟨rOut3, p0⟩] : List (View.Piece (Elt F) S2000x256 .f32)), y ∈ pc.1.set :=
  View.cover_of_tiled [⟨rOut3, p0⟩] S2000x256.size (by rfl) y

set_option maxHeartbeats 1000000 in
/-- The body on whole staging buffers: the six input blocks are read and kept, the output block ends at `out3` of them. -/
theorem sound_kernel3 (c : Dev nD) (E : Set ℕ) (i : grid3.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S1x256 .f32) (h6 : a6.IsWhole)
    (a7 : Memref sig .tc .vmem S2000x256 .f32) (h7 : a7.IsWhole)
    (x0 : Vec F S2000x256 .f32) (x1 x2 x3 x4 x5 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out3 x0 x1 x2 x3 x4 x5)) -∗ K ⟨⟩))
      ⊢ wp frame (wpE (defs₀ (F := F)) Variants.none c none) E (cc3__finalize_bn_relu_kernel i a1 h1 a2 h2 a3 h3 a4 h4 a5 h5 a6 h6 a7 h7) K := by
  simp only [cc3__finalize_bn_relu_kernel_eq_skeleton]; unfold cc3__finalize_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3 _)

/-- The proof data on core `c`: the arrays as the region finds them; after the body each input block is
    still its block and the output block is `out3` of the six; the invariant is the scoped rest and the
    generator register, which the body does not touch; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3 (iblk3 V c 0 t) (iblk3 V c 1 t) (iblk3 V c 2 t) (iblk3 V c 3 t) (iblk3 V c 4 t) (iblk3 V c 5 t) := by dsimp only [dat3]

/-- The first input's staging buffer holds its row block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- The second input's staging buffer holds its whole array (one row) at every point, fetched there or not (its block index never moves). -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The third input's likewise. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- The fourth input's likewise. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- The fifth input's likewise. -/
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The sixth input's likewise. -/
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t)
    (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

/-- The invariant is the same at every point: the scoped rest and the generator register. -/
theorem Phi3 (c : Dev nD) (t : Fin (cfg3.N + 1)) : (dat3 V c).Φ t = Pipeline.ΦA spec3 c := rfl

end Cert.KernelIdeal.Hand

end
-- ==== Proof.KI.Reg4.lean ====
/-
  Region 4 of the kernel program: the product of the third dense layer, one block of 2000 rows of the second hidden activations at a grid point against the whole (rounded) third weight matrix, 256 to 128 columns. As for region 0: where the block of each window sits, what the body leaves in the output block, and the obligation the pipeline puts on the body, at any float instance.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole output block as one rectangle. -/
abbrev rOut4 : Rect S2000x128 := Rect.unit (s := S2000x128) ![0, 0] S2000x128.size inb_S2000x128_S2000x128_0_0

/-- What the body leaves in the output block: its one stored value, a pure term of the two loaded blocks, over the whole block. -/
def out4 (x : Vec F S2000x256 .f32) (w : Vec F S256x128 .bf16) : Vec F S2000x128 .f32 :=
  View.canon [⟨rOut4, k4_pay1 (View.ld x (Rect.unit (s := S2000x256) ![0, 0] S2000x256.size inb_S2000x256_S2000x256_0_0))
    (View.ld w (Rect.unit (s := S256x128) ![0, 0] S256x128.size inb_S256x128_S256x128_0_0))⟩]

theorem cover4 (p0 : Vec F S2000x128 .f32) (y : S2000x128.Idx) :
    ∃ pc ∈ ([⟨rOut4, p0⟩] : List (View.Piece (Elt F) S2000x128 .f32)), y ∈ pc.1.set :=
  View.cover_of_tiled [⟨rOut4, p0⟩] S2000x128.size (by rfl) y

set_option maxHeartbeats 1000000 in
/-- The body on whole staging buffers: the two input blocks are read and kept, the output block ends at `out4` of them. -/
theorem sound_kernel4 (c : Dev nD) (E : Set ℕ) (i : grid4.Coords)
    (a1 : Memref sig .tc .vmem S2000x256 .f32) (h1 : a1.IsWhole) (a2 : Memref sig .tc .vmem S256x128 .bf16) (h2 : a2.IsWhole)
    (a3 : Memref sig .tc .vmem S2000x128 .f32) (h3 : a3.IsWhole)
    (x : Vec F S2000x256 .f32) (w : Vec F S256x128 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out4 x w)) -∗ K ⟨⟩))
      ⊢ wp frame (wpE (defs₀ (F := F)) Variants.none c none) E (cc4__matmul_kernel i a1 h1 a2 h2 a3 h3) K := by
  simp only [cc4__matmul_kernel_eq_skeleton]; unfold cc4__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data on core `c`: the arrays as the region finds them; after the body each input block is
    still its block and the output block is `out4` of the two; the invariant is the scoped rest and the
    generator register, which the body does not touch; nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

/-- The first input's staging buffer holds its row block at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- The second input's staging buffer holds its whole array at every point, fetched there or not (its block index never moves). -/
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation4 (c : Dev nD) : BodyObligation (dat4 (F := F) V c) (defs₀ (F := F)) Variants.none () Set.univ := fun t => by
  rw [bigSep_W4, bigSep_W4]
  exact sound_body4 V c t

/-- The invariant is the same at every point: the scoped rest and the generator register. -/
theorem Phi4 (c : Dev nD) (t : Fin (cfg4.N + 1)) : (dat4 V c).Φ t = Pipeline.ΦA spec4 c := rfl

end Cert.KernelIdeal.Hand

end
-- ==== Proof.KI.Reg5.lean ====
/-
  Region 5 of the kernel program: the bias of the last layer, one block of 2000 rows of the aggregated third-layer features at a grid point plus the bias row broadcast down the rows. As for region 0: where the block of each window sits, what the body leaves in the output block (the row block plus the broadcast bias row, one pure term of the two loaded blocks), and the obligation the pipeline puts on the body, at any float instance.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole output block as one rectangle. -/
abbrev rOut5 : Rect S2000x128 := Rect.unit (s := S2000x128) ![0, 0] S2000x128.size inb_S2000x128_S2000x128_0_0

/-- What the body leaves in the output block: its one stored value, a pure term of the two loaded blocks, over the whole block. -/
def out5 (x : Vec F S2000x128 .f32) (w : Vec F S1x128 .f32) : Vec F S2000x128 .f32 :=
  View.canon [⟨rOut5, k5_pay1 (View.ld x (Rect.unit (s := S2000x128) ![0, 0] S2000x128.size inb_S2000x128_S2000x128_0_0))
    (View.ld w (Rect.unit (s := S1x128) ![0, 0] S1x128.size inb_S1x128_S1x128_0_0))⟩]

theorem cover5 (p0 : Vec F S2000x128 .f32) (y : S2000x128.Idx) :
    ∃ pc ∈ ([⟨rOut5, p0⟩] : List (View.Piece (Elt F) S2000x128 .f32)), y ∈ pc.1.set :=
  View.cover_of_tiled [⟨rOut5, p0⟩] S2000x128.size (by rfl) y

set_option maxHeartbeats 1000000 in
/-- The body on whole staging buffers: the two input blocks are read and kept, the output block ends at `out5` of them. -/
theorem sound_kernel5 (c : Dev nD) (E : Set ℕ) (i : grid5.Coords)
    (a1 : Memref sig .tc .vmem S2000x128 .f32) (h1 : a1.IsWhole) (a2 : Memref sig .tc .vmem S1x128 .f32) (h2 : a2.IsWhole)
    (a3 : Memref sig .tc .vmem S2000x128 .f32) (h3 : a3.IsWhole)
    (x : Vec F S2000x128 .f32) (w : Vec F S1x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out5 x w)) -∗ K ⟨⟩))
      ⊢ wp frame (wpE (defs₀ (F := F)) Variants.none c none) E (cc5__finalize_bias_kernel i a1 h1 a2 h2 a3 h3) K := by
  simp only [cc5__finalize_bias_kernel_eq_skeleton]; unfold cc5__finalize_bias_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The proof data on core `c`: the arrays as the region finds them; after the body each input block is
    still its block and the output block is `out5` of the two; the invariant is the scoped rest and the
    generator register, which the body does not touch; nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

/-- The first input's staging buffer holds its row block at every point. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- The second input's staging buffer holds its whole array at every point, fetched there or not (its block index never moves). -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation5 (c : Dev nD) : BodyObligation (dat5 (F := F) V c) (defs₀ (F := F)) Variants.none () Set.univ := fun t => by
  rw [bigSep_W5, bigSep_W5]
  exact sound_body5 V c t

/-- The invariant is the same at every point: the scoped rest and the generator register. -/
theorem Phi5 (c : Dev nD) (t : Fin (cfg5.N + 1)) : (dat5 V c).Φ t = Pipeline.ΦA spec5 c := rfl

end Cert.KernelIdeal.Hand

end
-- ==== Proof.KI.Reg6.lean ====
/-
  Region 6 of the kernel program: the pooling of the node outputs by graph. The grid runs over 25 blocks of
  2000 rows; at each point the block of the one-hot membership matrix, transposed, is multiplied with the block
  of (rounded) node outputs and added to an accumulator of 64 x 128 sums that lives in a scratch buffer carried
  from point to point: a running sum over the grid of one-hot^T times nodes, reset to zero at the first point
  and copied out to the output block at the last. What is said here holds at any float instance.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

/-- Window `w`'s block at point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The running sum after the body at point `n`: at the first point the zero block plus the first product of
    the transposed one-hot block with the node block, afterwards the sum of the point before plus this point's product. -/
def acc6 (c : Dev nD) : (n : ℕ) → n < cfg6.N → Vec F S64x128 .f32
  | 0, h => k6_pay2 (iblk6 V c 1 ⟨0, h⟩) (iblk6 V c 0 ⟨0, h⟩) (k6_pay1 (F := F))
  | n + 1, h => k6_pay2 (iblk6 V c 1 ⟨n + 1, h⟩) (iblk6 V c 0 ⟨n + 1, h⟩) (acc6 c n (Nat.lt_of_succ_lt h))

theorem acc6_zero (c : Dev nD) (h : 0 < cfg6.N) :
    acc6 V c 0 h = k6_pay2 (iblk6 V c 1 ⟨0, h⟩) (iblk6 V c 0 ⟨0, h⟩) (k6_pay1 (F := F)) := rfl

theorem acc6_succ (c : Dev nD) (n : ℕ) (h : n + 1 < cfg6.N) :
    acc6 V c (n + 1) h = k6_pay2 (iblk6 V c 1 ⟨n + 1, h⟩) (iblk6 V c 0 ⟨n + 1, h⟩) (acc6 V c n (Nat.lt_of_succ_lt h)) := rfl

/-! ## The body's two conditions, decided over the grid -/

/-- The first conditional's condition: the point is the first of the grid. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional's condition: the point is the last of the grid. -/
abbrev cond6_1 (i : grid6.Coords) : Prop := k6_cond2 i = 1#1
theorem hcond6_1 : ∀ t : Fin cfg6.N, cond6_1 (grid6.coords t) ↔ t.val = 24 :=
  (by decide +kernel : ∀ t : Fin grid6.N, cond6_1 (grid6.coords t) ↔ t.val = 24)

/-- The inputs are never idle. -/
theorem live6_0 : ∀ t : Fin cfg6.N, cfg6.idle 0 (grid6.coords t) = false := by decide +kernel
theorem live6_1 : ∀ t : Fin cfg6.N, cfg6.idle 1 (grid6.coords t) = false := by decide +kernel
/-- The output is idle at every point but the last, and not written back there. -/
theorem idle6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- At the last point it is live. -/
theorem live6_2 : ∀ t : Fin cfg6.N, cond6_1 (grid6.coords t) → cfg6.idle 2 (grid6.coords t) = false := by decide +kernel

/-! ## The body on whole buffers, case by case -/

theorem hz6 : (![0, 0] : Fin 2 → Nat) = fun _ => 0 := by funext a; fin_cases a <;> rfl

/-- A store over the whole accumulator block, last, covers it. -/
theorem cover6 (p0 : Vec F S64x128 .f32) (L : List (View.Piece (Elt F) S64x128 .f32)) (y : S64x128.Idx) :
    ∃ pc ∈ ((⟨Rect.unit (s := S64x128) ![0, 0] S64x128.size inb_S64x128_S64x128_0_0, p0⟩ : View.Piece (Elt F) S64x128 .f32) :: L), y ∈ pc.1.set :=
  ⟨_, List.mem_cons.mpr (Or.inl rfl), View.mem_set_unit_zero (S := S64x128) hz6 inb_S64x128_S64x128_0_0 y⟩

set_option maxHeartbeats 1000000 in
/-- At the first point: the scratch, whatever it held, is zeroed and then takes the first product; the inputs
    are read and kept, the output block's buffer is not touched. -/
theorem sound_kernel6_first (c : Dev nD) (E : Set ℕ) (i : grid6.Coords) (hc0 : cond6_0 i) (hc1 : ¬cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (xo : Vec F S64x128 .f32) (K : PUnit → sProp 𝕄) :
    iprop(owns (c : Thread nD τ) a1 fullShare x1 ∗ owns (c : Thread nD τ) a2 fullShare x2 ∗ owns (c : Thread nD τ) a3 fullShare xo
        ∗ (∃ d, owns (c : Thread nD τ) a4 fullShare d)
        ∗ (iprop(owns (c : Thread nD τ) a1 fullShare x1 ∗ owns (c : Thread nD τ) a2 fullShare x2 ∗ owns (c : Thread nD τ) a3 fullShare xo
            ∗ owns (c : Thread nD τ) a4 fullShare (k6_pay2 x2 x1 (k6_pay1 (F := F)))) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover6 _ _), View.canon_cons_unit_zero (S := S64x128) hz6,
    View.readCov_unit_zero (S := S64x128) _ hz6]
  simp only [View.readAt_eq_ld, View.ld_unit_zero (S := S2000x128) hz6, View.ld_unit_zero (S := S2000x64) hz6]

set_option maxHeartbeats 1000000 in
/-- At a point that is neither first nor last: the scratch takes its sum plus this point's product; the inputs
    are read and kept, the output block's buffer is not touched. -/
theorem sound_kernel6_mid (c : Dev nD) (E : Set ℕ) (i : grid6.Coords) (hc0 : ¬cond6_0 i) (hc1 : ¬cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (xo : Vec F S64x128 .f32) (s : Vec F S64x128 .f32) (K : PUnit → sProp 𝕄) :
    iprop(owns (c : Thread nD τ) a1 fullShare x1 ∗ owns (c : Thread nD τ) a2 fullShare x2 ∗ owns (c : Thread nD τ) a3 fullShare xo
        ∗ owns (c : Thread nD τ) a4 fullShare s
        ∗ (iprop(owns (c : Thread nD τ) a1 fullShare x1 ∗ owns (c : Thread nD τ) a2 fullShare x2 ∗ owns (c : Thread nD τ) a3 fullShare xo
            ∗ owns (c : Thread nD τ) a4 fullShare (k6_pay2 x2 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover6 _ _), View.canon_cons_unit_zero (S := S64x128) hz6]
  simp only [View.readAt_eq_ld, View.ld_unit_zero (S := S2000x128) hz6, View.ld_unit_zero (S := S2000x64) hz6,
    View.ld_unit_zero (S := S64x128) hz6]

set_option maxHeartbeats 1000000 in
/-- At the last point: the scratch takes its sum plus this point's product, and the output block's buffer,
    whatever it held, is stored over with that sum. -/
theorem sound_kernel6_last (c : Dev nD) (E : Set ℕ) (i : grid6.Coords) (hc0 : ¬cond6_0 i) (hc1 : cond6_1 i)
    (a1 : Memref sig .tc .vmem S2000x64 .bf16) (h1 : a1.IsWhole) (a2 : Memref sig .tc .vmem S2000x128 .f32) (h2 : a2.IsWhole)
    (a3 : Memref sig .tc .vmem S64x128 .f32) (h3 : a3.IsWhole) (a4 : Memref sig .tc .vmem S64x128 .f32) (h4 : a4.IsWhole)
    (x1 : Vec F S2000x64 .bf16) (x2 : Vec F S2000x128 .f32) (s : Vec F S64x128 .f32) (K : PUnit → sProp 𝕄) :
    iprop(owns (c : Thread nD τ) a1 fullShare x1 ∗ owns (c : Thread nD τ) a2 fullShare x2 ∗ (∃ d, owns (c : Thread nD τ) a3 fullShare d)
        ∗ owns (c : Thread nD τ) a4 fullShare s
        ∗ (iprop(owns (c : Thread nD τ) a1 fullShare x1 ∗ owns (c : Thread nD τ) a2 fullShare x2
            ∗ owns (c : Thread nD τ) a3 fullShare (k6_pay2 x2 x1 s)
            ∗ owns (c : Thread nD τ) a4 fullShare (k6_pay2 x2 x1 s)) -∗ K ⟨⟩))
      ⊢ wp frame (wpE (defs₀ (F := F)) Variants.none c none) E (cc6__pool_kernel i a1 h1 a2 h2 a3 h3 a4 h4) K := by
  simp only [cc6__pool_kernel_eq_skeleton]; unfold cc6__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover6 _ _), View.canon_cons_unit_zero (S := S64x128) hz6,
      View.readCov_unit_zero (S := S64x128) _ hz6]
    simp only [View.readAt_eq_ld, View.ld_unit_zero (S := S2000x128) hz6, View.ld_unit_zero (S := S2000x64) hz6,
      View.ld_unit_zero (S := S64x128) hz6]
  iexists _; isplitr
  swap; · iexact H4
  ipureintro
  sl_unfold_words
  rw [View.read_writes_eq_canon _ _ _ (cover6 _ _), View.canon_cons_unit_zero (S := S64x128) hz6]
  simp only [View.readAt_eq_ld, View.ld_unit_zero (S := S2000x128) hz6, View.ld_unit_zero (S := S2000x64) hz6,
    View.ld_unit_zero (S := S64x128) hz6]

/-! ## The carried scratch, the invariant and the proof data -/

/-- The scratch operand the kernel carries between points. -/
abbrev scM6 : Memref sig .tc .vmem S64x128 .f32 := Memref.whole cc6_scratch0

/-- The invariant before position `n`: before the first point what the launch hands the region (every scoped
    buffer at some contents, the generator register at some state); afterwards the scratch at the running sum of
    the point before, beside the other scoped buffers unopened and the generator register. -/
def Phi6 (c : Dev nD) : (n : ℕ) → n ≤ cfg6.N → sProp 𝕄
  | 0, _ => Pipeline.ΦA spec6 c
  | n + 1, hn => iprop(iprop(owns (c : Thread nD τ) scM6 fullShare (acc6 V c n hn) ∗ Pipeline.scopedRestBut spec6 c [cc6_scratch0]) ∗ (∃ r, prngReg c r))

/-- The proof data on core `c`: the arrays as the region finds them; after the body each input block is still
    its block and the output block's buffer is named at the running sum (consulted at the last point only, where
    the body copies the sum there: at the other points the window is idle and keeps what it held); the invariant
    carries the scratch at the running sum; nothing is owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

/-- At the last point the output block's buffer holds the whole running sum. -/
theorem after6_2_last (c : Dev nD) (t : Fin cfg6.N) (ht : t.val = 24) : (dat6 V c).after 2 t = acc6 V c 24 (by decide) := by
  rw [after6_2]
  obtain ⟨n, hn⟩ := t
  dsimp only at ht
  subst ht
  rfl

theorem owed6 (c : Dev nD) (t : Fin (cfg6.N + 1)) : (dat6 V c).owed t = 0 := rfl
theorem q6 (c : Dev nD) (w : Fin cfg6.W) : (dat6 V c).q w = fullShare := rfl

/-! ## The invariant, point by point -/

/-- What the launch hands the region, with the carried scratch as a memref owned at some contents. -/
theorem PhiA6_eq (c : Dev nD) :
    (Pipeline.ΦA spec6 c : sProp 𝕄)
      = iprop(iprop(iprop(∃ d, owns (c : Thread nD τ) scM6 fullShare d) ∗ Pipeline.scopedRestBut spec6 c [cc6_scratch0]) ∗ (∃ r, prngReg c r)) := by
  unfold Pipeline.ΦA; rw [scopedRest6_split]; simp only [scM6, owns_whole]
  rfl

theorem Phi6_zero (c : Dev nD) (n : ℕ) (h : n ≤ cfg6.N) (hz : n = 0) : Phi6 V c n h = Pipeline.ΦA spec6 c := by
  subst hz; rfl

/-- After point `n`: the scratch at that point's running sum. -/
theorem Phi6_succ (c : Dev nD) (n : ℕ) (hn : n < cfg6.N) :
    Phi6 V c (n + 1) hn = iprop(iprop(owns (c : Thread nD τ) scM6 fullShare (acc6 V c n hn) ∗ Pipeline.scopedRestBut spec6 c [cc6_scratch0]) ∗ (∃ r, prngReg c r)) := rfl

/-- Before a point that is not the first: the scratch at the running sum of the point before. -/
theorem Phi6_pos (c : Dev nD) (n : ℕ) (h : n ≤ cfg6.N) (hz : n ≠ 0) :
    Phi6 V c n h = iprop(iprop(owns (c : Thread nD τ) scM6 fullShare (acc6 V c (n - 1) (by omega)) ∗ Pipeline.scopedRestBut spec6 c [cc6_scratch0]) ∗ (∃ r, prngReg c r)) := by
  cases n with
  | zero => exact absurd rfl hz
  | succ n => rfl

theorem Phi6_castSucc (c : Dev nD) (t : Fin cfg6.N) :
    (dat6 V c).Φ t.castSucc = Phi6 V c t.val (Nat.le_of_lt t.isLt) := by
  dsimp only [dat6]; simp only [Fin.coe_castSucc]

/-- The running sum at a point after the first, over the sum of the point before. -/
theorem acc6_pos (c : Dev nD) (t : Fin cfg6.N) (hz : t.val ≠ 0) :
    acc6 V c t.val t.isLt = k6_pay2 (iblk6 V c 1 t) (iblk6 V c 0 t) (acc6 V c (t.val - 1) (Nat.lt_of_le_of_lt (Nat.sub_le _ _) t.isLt)) := by
  obtain ⟨n, hn⟩ := t
  cases n with
  | zero => exact absurd rfl hz
  | succ n => rfl

/-- The running sum at the first point. -/
theorem acc6_first (c : Dev nD) (t : Fin cfg6.N) (hz : t.val = 0) :
    acc6 V c t.val t.isLt = k6_pay2 (iblk6 V c 1 t) (iblk6 V c 0 t) (k6_pay1 (F := F)) := by
  obtain ⟨n, hn⟩ := t
  dsimp only at hz
  subst hz
  rfl

/-! ## The inputs' buffers -/

/-- The one-hot block's staging buffer holds its block at every point. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)

/-- The node block's staging buffer holds its block at every point. -/
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point: the inputs' buffers hold their blocks; the invariant hands the body the scratch (at
    anything at the first point, at the running sum of the point before afterwards) and takes it back at this
    point's running sum; the output block's buffer is handed back as found, except at the last point, where it
    takes the running sum. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  have hN : t.val < 25 := lt_of_lt_of_eq t.isLt (show cfg6.N = 25 from N_6)
  by_cases h0 : t.val = 0
  · have h1 : ¬t.val = 24 := by omega
    have hc0 : cond6_0 (grid6.coords t) := (hcond6_0 t).mpr h0
    have hc1 : ¬cond6_1 (grid6.coords t) := fun h => h1 ((hcond6_1 t).mp h)
    rw [Dat.leavesExact_idle (dat6 V c) 2 t (idle6_2 t hc1) (noFlush6_2 t hc1)]
    rw [acc6_first V c t h0]
    rw [Phi6_castSucc V c t, Phi6_zero V c _ _ h0, PhiA6_eq]
    iintro ⟨⟨⟨HS, Hr⟩, Hg⟩, Ho, ⟨%d0, H0⟩, ⟨%d1, H1⟩, ⟨%d2, H2⟩⟩
    iapply (sound_kernel6_first c Set.univ (grid6.coords t) hc0 hc1 _ _ _ _ _ _ _ _ (iblk6 V c 0 t) (iblk6 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 24
    · have hc0 : ¬cond6_0 (grid6.coords t) := fun h => h0 ((hcond6_0 t).mp h)
      have hc1 : cond6_1 (grid6.coords t) := (hcond6_1 t).mpr h1
      rw [show (dat6 V c).leavesExact 2 t = owns (c : Thread nD τ) (st6_2 t) fullShare ((dat6 V c).after 2 t) from by
        unfold Dat.leavesExact; rw [live6_2 t hc1], after6_2]
      rw [acc6_pos V c t h0]
      rw [Phi6_castSucc V c t, Phi6_pos V c _ _ h0]
      iintro ⟨⟨⟨HS, Hr⟩, Hg⟩, Ho, ⟨%d0, H0⟩, ⟨%d1, H1⟩, ⟨%d2, H2⟩⟩
      iapply (sound_kernel6_last c Set.univ (grid6.coords t) hc0 hc1 _ _ _ _ _ _ _ _ (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond6_0 (grid6.coords t) := fun h => h0 ((hcond6_0 t).mp h)
      have hc1 : ¬cond6_1 (grid6.coords t) := fun h => h1 ((hcond6_1 t).mp h)
      rw [Dat.leavesExact_idle (dat6 V c) 2 t (idle6_2 t hc1) (noFlush6_2 t hc1)]
      rw [acc6_pos V c t h0]
      rw [Phi6_castSucc V c t, Phi6_pos V c _ _ h0]
      iintro ⟨⟨⟨HS, Hr⟩, Hg⟩, Ho, ⟨%d0, H0⟩, ⟨%d1, H1⟩, ⟨%d2, H2⟩⟩
      iapply (sound_kernel6_mid c Set.univ (grid6.coords t) hc0 hc1 _ _ _ _ _ _ _ _ (iblk6 V c 0 t) (iblk6 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline's obligation on the body, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = Phi6 V c 0 (Nat.zero_le _) from rfl, Phi6_zero V c 0 _ rfl]
  try exact Idealize.SL.BI.Entails.refl _

/-- After any point the invariant gives the launch's back: the scratch's contents are forgotten. -/
theorem Phi6_out (c : Dev nD) (t : Fin (cfg6.N + 1)) (ht : t.val ≠ 0) : (dat6 V c).Φ t ⊢ Pipeline.ΦA spec6 c := by
  rw [show (dat6 V c).Φ t = Phi6 V c t.val (Nat.le_of_lt_succ t.isLt) from rfl, Phi6_pos V c _ _ ht, PhiA6_eq]
  iintro ⟨⟨HS, Hr⟩, Hg⟩
  isplitl [HS Hr]
  · isplitl [HS]
    · iexists _; iexact HS
    iexact Hr
  iexact Hg

/-- The same after the last point. -/
theorem hout6 (c : Dev nD) : (dat6 V c).Φ (Fin.last cfg6.N) ⊢ Pipeline.ΦA spec6 c :=
  Phi6_out V c _ (by rw [Fin.val_last]; have : cfg6.N = 25 := N_6; omega)

end Cert.KernelIdeal.Hand

end
-- ==== Proof.KI.Chain.lean ====
/-
  The contents of the unscoped buffers of the kernel program at each of the fifteen boundaries of @main - the
  launch, after each stretch of host operations, after each of the seven pipelined regions - as a fold from
  the launch memory: a stretch applies its operations, a region replaces its windows' arrays by what the
  pipeline leaves in them (the inputs as entered, the output's blocks written back) and keeps every other
  buffer. Then every pipeline's proof data, each at its own region's entry contents, as one family. Holds
  at any float instance.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Reg0
import proofs.«425873_j26182120636599_1_alg».proof.Proof.KI.Reg1
import proofs.«425873_j26182120636599_1_alg».proof.Proof.KI.Reg2
import proofs.«425873_j26182120636599_1_alg».proof.Proof.KI.Reg3
import proofs.«425873_j26182120636599_1_alg».proof.Proof.KI.Reg4
import proofs.«425873_j26182120636599_1_alg».proof.Proof.KI.Reg5
import proofs.«425873_j26182120636599_1_alg».proof.Proof.KI.Reg6
import proofs.«425873_j26182120636599_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev B0 : Dev nD → Valuation τ sig (Elt F) := fun c b => m (c, b)
/-- After the first stretch (degrees, normalisation coefficients, the rounded weights): region 0's entry. -/
abbrev B1 : Dev nD → Valuation τ sig (Elt F) := fun c => StableHlo.after hostOps0 (B0 m c)
abbrev E1 : Vals F := fun c b => B1 m c b
/-- After region 0: the first dense product in its output array. -/
def B2 (c : Dev nD) : Valuation τ sig (Elt F) :=
  Pipeline.withArrays spec0 c (B1 m c) fun w => (dat0 (E1 m) c).arrAt w cfg0.N
abbrev E2 : Vals F := fun c b => B2 m c b
/-- After the first aggregation stretch: region 1's entry. -/
abbrev B3 : Dev nD → Valuation τ sig (Elt F) := fun c => StableHlo.after hostOps1 (B2 m c)
abbrev E3 : Vals F := fun c b => B3 m c b
/-- After region 1 (bias, normalisation, rectifier). -/
def B4 (c : Dev nD) : Valuation τ sig (Elt F) :=
  Pipeline.withArrays spec1 c (B3 m c) fun w => (dat1 (E3 m) c).arrAt w cfg1.N
abbrev E4 : Vals F := fun c b => B4 m c b
/-- After region 2 (the second dense product). -/
def B5 (c : Dev nD) : Valuation τ sig (Elt F) :=
  Pipeline.withArrays spec2 c (B4 m c) fun w => (dat2 (E4 m) c).arrAt w cfg2.N
abbrev E5 : Vals F := fun c b => B5 m c b
/-- After the second aggregation stretch: region 3's entry. -/
abbrev B6 : Dev nD → Valuation τ sig (Elt F) := fun c => StableHlo.after hostOps3 (B5 m c)
abbrev E6 : Vals F := fun c b => B6 m c b
/-- After region 3. -/
def B7 (c : Dev nD) : Valuation τ sig (Elt F) :=
  Pipeline.withArrays spec3 c (B6 m c) fun w => (dat3 (E6 m) c).arrAt w cfg3.N
abbrev E7 : Vals F := fun c b => B7 m c b
/-- After region 4 (the third dense product). -/
def B8 (c : Dev nD) : Valuation τ sig (Elt F) :=
  Pipeline.withArrays spec4 c (B7 m c) fun w => (dat4 (E7 m) c).arrAt w cfg4.N
abbrev E8 : Vals F := fun c b => B8 m c b
/-- After the third aggregation stretch: region 5's entry. -/
abbrev B9 : Dev nD → Valuation τ sig (Elt F) := fun c => StableHlo.after hostOps5 (B8 m c)
abbrev E9 : Vals F := fun c b => B9 m c b
/-- After region 5 (the last bias). -/
def B10 (c : Dev nD) : Valuation τ sig (Elt F) :=
  Pipeline.withArrays spec5 c (B9 m c) fun w => (dat5 (E9 m) c).arrAt w cfg5.N
abbrev E10 : Vals F := fun c b => B10 m c b
/-- After the one-hot membership matrix is made, -/
abbrev B11 : Dev nD → Valuation τ sig (Elt F) := fun c => StableHlo.after hostOps6 (B10 m c)
/-- and after the graph sizes are counted: region 6's entry. -/
abbrev B12 : Dev nD → Valuation τ sig (Elt F) := fun c => StableHlo.after hostOps6_1 (B11 m c)
abbrev E12 : Vals F := fun c b => B12 m c b
/-- After region 6 (the pooled sums). -/
def B13 (c : Dev nD) : Valuation τ sig (Elt F) :=
  Pipeline.withArrays spec6 c (B12 m c) fun w => (dat6 (E12 m) c).arrAt w cfg6.N
abbrev E13 : Vals F := fun c b => B13 m c b
/-- After the last stretch (the division by the graph sizes): the end of @main. -/
abbrev B14 : Dev nD → Valuation τ sig (Elt F) := fun c => StableHlo.after hostOps7 (B13 m c)

/-! ## A region's arrays at its exit, and everything else kept -/

theorem B2_arr (c : Dev nD) (w : Fin cfg0.W) : B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem B4_arr (c : Dev nD) (w : Fin cfg1.W) : B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem B5_arr (c : Dev nD) (w : Fin cfg2.W) : B5 m c (Proc.devRef .tc (Pipeline.arrRef spec2 w)) = (dat2 (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) : B5 m c (Proc.devRef .tc b) = B4 m c (Proc.devRef .tc b) := by
  unfold B5; exact Pipeline.withArrays_of_ne spec2 c _ _ b hb
theorem B7_arr (c : Dev nD) (w : Fin cfg3.W) : B7 m c (Proc.devRef .tc (Pipeline.arrRef spec3 w)) = (dat3 (E6 m) c).arrAt w cfg3.N := by
  unfold B7; exact Pipeline.withArrays_arr spec3 launch3.win.arr_inj c _ _ w
theorem B7_of_ne (c : Dev nD) (b : Ref sig .tc) (hb : ∀ w, Pipeline.arrRef spec3 w ≠ b) : B7 m c (Proc.devRef .tc b) = B6 m c (Proc.devRef .tc b) := by
  unfold B7; exact Pipeline.withArrays_of_ne spec3 c _ _ b hb
theorem B8_arr (c : Dev nD) (w : Fin cfg4.W) : B8 m c (Proc.devRef .tc (Pipeline.arrRef spec4 w)) = (dat4 (E7 m) c).arrAt w cfg4.N := by
  unfold B8; exact Pipeline.withArrays_arr spec4 launch4.win.arr_inj c _ _ w
theorem B8_of_ne (c : Dev nD) (b : Ref sig .tc) (hb : ∀ w, Pipeline.arrRef spec4 w ≠ b) : B8 m c (Proc.devRef .tc b) = B7 m c (Proc.devRef .tc b) := by
  unfold B8; exact Pipeline.withArrays_of_ne spec4 c _ _ b hb
theorem B10_arr (c : Dev nD) (w : Fin cfg5.W) : B10 m c (Proc.devRef .tc (Pipeline.arrRef spec5 w)) = (dat5 (E9 m) c).arrAt w cfg5.N := by
  unfold B10; exact Pipeline.withArrays_arr spec5 launch5.win.arr_inj c _ _ w
theorem B10_of_ne (c : Dev nD) (b : Ref sig .tc) (hb : ∀ w, Pipeline.arrRef spec5 w ≠ b) : B10 m c (Proc.devRef .tc b) = B9 m c (Proc.devRef .tc b) := by
  unfold B10; exact Pipeline.withArrays_of_ne spec5 c _ _ b hb
theorem B13_arr (c : Dev nD) (w : Fin cfg6.W) : B13 m c (Proc.devRef .tc (Pipeline.arrRef spec6 w)) = (dat6 (E12 m) c).arrAt w cfg6.N := by
  unfold B13; exact Pipeline.withArrays_arr spec6 launch6.win.arr_inj c _ _ w
theorem B13_of_ne (c : Dev nD) (b : Ref sig .tc) (hb : ∀ w, Pipeline.arrRef spec6 w ≠ b) : B13 m c (Proc.devRef .tc b) = B12 m c (Proc.devRef .tc b) := by
  unfold B13; exact Pipeline.withArrays_of_ne spec6 c _ _ b hb

/-! ## The proof data of all seven pipelines -/

/-- Each pipeline's proof data at the contents its region is entered from: a literal match, so that the
    configuration pinned at a numeral reduces to the printed one. -/
def pdats : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E7 m) c
  | ⟨5, _⟩ => fun c => dat5 (E9 m) c
  | ⟨6, _⟩ => fun c => dat6 (E12 m) c

/-! ## What every segment of @main shares -/

abbrev VAR0 : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment: the unscoped buffers from the contents `W` to the operations'
    results over them, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VAR0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/-
  Region 0 as a segment of @main: entered with every unscoped buffer at the contents the first stretch of
  host operations leaves, left with the region's arrays at what the pipeline wrote back and every other
  buffer as it was. The region's arrays are split out of the unscoped buffers at entry and put back at
  exit; the generator register goes into the region's invariant and comes back; nothing is owed; the
  kernel has no semaphore of its own.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF0 (c : Dev nD) (w : Fin cfg0.W) : (dat0 (E1 m) c).arrAt w cfg0.N = E2 m c (Pipeline.arrRef spec0 w) :=
  (B2_arr m c w).symm
/-- and every other buffer what it held at entry. -/
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

set_option backward.isDefEq.respectTransparency.types false in
def reg0 : Pipeline.RegionSeg (pcfgs (F := F)) adm (pdats m) () defs₀ VAR0 Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (B1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of @main (bias, normalisation and rectifier of the first layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF1 (c : Dev nD) (w : Fin cfg1.W) : (dat1 (E3 m) c).arrAt w cfg1.N = E4 m c (Pipeline.arrRef spec1 w) :=
  (B4_arr m c w).symm
/-- and every other buffer what it held at entry. -/
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

set_option backward.isDefEq.respectTransparency.types false in
def reg1 : Pipeline.RegionSeg (pcfgs (F := F)) adm (pdats m) () defs₀ VAR0 Lz lvz 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lz lvz 1 fun _ _ => rfl
  pre c := iprop(StableHlo.held (c : Thread nD τ) (Pipeline.ucRefs τ sig) (B3 m c) ∗ Rst c)
  post c := iprop(StableHlo.held (c : Thread nD τ) (Pipeline.ucRefs τ sig) (B4 m c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of @main (the second dense product): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF2 (c : Dev nD) (w : Fin cfg2.W) : (dat2 (E4 m) c).arrAt w cfg2.N = E5 m c (Pipeline.arrRef spec2 w) :=
  (B5_arr m c w).symm
/-- and every other buffer what it held at entry. -/
theorem hrest2 (c : Dev nD) : ∀ b, b ∉ Finset.univ.image (Pipeline.arrRef spec2) → E5 m c b = E4 m c b :=
  fun b hb => B5_of_ne m c b fun w e => hb (Finset.mem_image.mpr ⟨w, Finset.mem_univ _, e⟩)

set_option backward.isDefEq.respectTransparency.types false in
def reg2 : Pipeline.RegionSeg (pcfgs (F := F)) adm (pdats m) () defs₀ VAR0 Lz lvz 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ Lz lvz 2 fun _ _ => rfl
  pre c := iprop(StableHlo.held (c : Thread nD τ) (Pipeline.ucRefs τ sig) (B4 m c) ∗ Rst c)
  post c := iprop(StableHlo.held (c : Thread nD τ) (Pipeline.ucRefs τ sig) (B5 m c) ∗ Rst c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of @main (bias, normalisation and rectifier of the second layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF3 (c : Dev nD) (w : Fin cfg3.W) : (dat3 (E6 m) c).arrAt w cfg3.N = E7 m c (Pipeline.arrRef spec3 w) :=
  (B7_arr m c w).symm
/-- and every other buffer what it held at entry. -/
theorem hrest3 (c : Dev nD) : ∀ b, b ∉ Finset.univ.image (Pipeline.arrRef spec3) → E7 m c b = E6 m c b :=
  fun b hb => B7_of_ne m c b fun w e => hb (Finset.mem_image.mpr ⟨w, Finset.mem_univ _, e⟩)

set_option backward.isDefEq.respectTransparency.types false in
def reg3 : Pipeline.RegionSeg (pcfgs (F := F)) adm (pdats m) () defs₀ VAR0 Lz lvz 3 where
  win := launch3.win.to₀
  block_pos := launch3.block_pos
  stage_whole := launch3.stage_whole
  K := PEmpty
  osem k := k.elim
  ho := Pipeline.OwnSemFacts.none _
  hbody c := (body_obligation3 (E6 m) c).loose
  hwaits := Pipeline.hwaits_of_owed_zero _ _ _ _ Lz lvz 3 fun _ _ => rfl
  pre c := iprop(StableHlo.held (c : Thread nD τ) (Pipeline.ucRefs τ sig) (B6 m c) ∗ Rst c)
  post c := iprop(StableHlo.held (c : Thread nD τ) (Pipeline.ucRefs τ sig) (B7 m c) ∗ Rst c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E6 m c) (E7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of @main (the third dense product): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF4 (c : Dev nD) (w : Fin cfg4.W) : (dat4 (E7 m) c).arrAt w cfg4.N = E8 m c (Pipeline.arrRef spec4 w) :=
  (B8_arr m c w).symm
/-- and every other buffer what it held at entry. -/
theorem hrest4 (c : Dev nD) : ∀ b, b ∉ Finset.univ.image (Pipeline.arrRef spec4) → E8 m c b = E7 m c b :=
  fun b hb => B8_of_ne m c b fun w e => hb (Finset.mem_image.mpr ⟨w, Finset.mem_univ _, e⟩)

set_option backward.isDefEq.respectTransparency.types false in
def reg4 : Pipeline.RegionSeg (pcfgs (F := F)) adm (pdats m) () defs₀ VAR0 Lz lvz 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ Lz lvz 4 fun _ _ => rfl
  pre c := iprop(StableHlo.held (c : Thread nD τ) (Pipeline.ucRefs τ sig) (B7 m c) ∗ Rst c)
  post c := iprop(StableHlo.held (c : Thread nD τ) (Pipeline.ucRefs τ sig) (B8 m c) ∗ Rst c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E7 m c) (E8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 as a segment of @main (the bias of the last layer): entered with every unscoped buffer at the contents the item before it leaves, left with the arrays of the region at what the pipeline wrote back and every other buffer as it was. As for region 0: the arrays split out of the unscoped buffers at entry and put back at exit, the generator register into the invariant and back, nothing owed, no semaphore of the kernel.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF5 (c : Dev nD) (w : Fin cfg5.W) : (dat5 (E9 m) c).arrAt w cfg5.N = E10 m c (Pipeline.arrRef spec5 w) :=
  (B10_arr m c w).symm
/-- and every other buffer what it held at entry. -/
theorem hrest5 (c : Dev nD) : ∀ b, b ∉ Finset.univ.image (Pipeline.arrRef spec5) → E10 m c b = E9 m c b :=
  fun b hb => B10_of_ne m c b fun w e => hb (Finset.mem_image.mpr ⟨w, Finset.mem_univ _, e⟩)

set_option backward.isDefEq.respectTransparency.types false in
def reg5 : Pipeline.RegionSeg (pcfgs (F := F)) adm (pdats m) () defs₀ VAR0 Lz lvz 5 where
  win := launch5.win.to₀
  block_pos := launch5.block_pos
  stage_whole := launch5.stage_whole
  K := PEmpty
  osem k := k.elim
  ho := Pipeline.OwnSemFacts.none _
  hbody c := (body_obligation5 (E9 m) c).loose
  hwaits := Pipeline.hwaits_of_owed_zero _ _ _ _ Lz lvz 5 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E9 m c) (E10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 (the pooled sums) as a segment of @main: entered with every unscoped buffer at the contents the
  two stretches before it leave (the one-hot membership matrix, the graph sizes), left with the region's arrays at what the pipeline wrote back and every other
  buffer as it was. The region's arrays are split out of the unscoped buffers at entry and put back at
  exit; the generator register goes into the region's invariant (which, between points, holds the running sum in
  the kernel's scratch) and comes back; nothing is owed; the
  kernel has no semaphore of its own.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves, -/
theorem hF6 (c : Dev nD) (w : Fin cfg6.W) : (dat6 (E12 m) c).arrAt w cfg6.N = E13 m c (Pipeline.arrRef spec6 w) :=
  (B13_arr m c w).symm
/-- and every other buffer what it held at entry. -/
theorem hrest6 (c : Dev nD) : ∀ b, b ∉ Finset.univ.image (Pipeline.arrRef spec6) → E13 m c b = E12 m c b :=
  fun b hb => B13_of_ne m c b fun w e => hb (Finset.mem_image.mpr ⟨w, Finset.mem_univ _, e⟩)

set_option backward.isDefEq.respectTransparency.types false in
def reg6 : Pipeline.RegionSeg (pcfgs (F := F)) adm (pdats m) () defs₀ VAR0 Lz lvz 6 where
  win := launch6.win.to₀
  block_pos := launch6.block_pos
  stage_whole := launch6.stage_whole
  K := PEmpty
  osem k := k.elim
  ho := Pipeline.OwnSemFacts.none _
  hbody c := (body_obligation6 (E12 m) c).loose
  hwaits := Pipeline.hwaits_of_owed_zero _ _ _ _ Lz lvz 6 fun _ _ => rfl
  pre c := iprop(StableHlo.held (c : Thread nD τ) (Pipeline.ucRefs τ sig) (B12 m c) ∗ Rst c)
  post c := iprop(StableHlo.held (c : Thread nD τ) (Pipeline.ucRefs τ sig) (B13 m c) ∗ Rst c)
  X c := iprop(∃ r, prngReg c r)
  Y c := iprop(∃ r, prngReg c r)
  Z c := Pipeline.unscopedRest (Ix := Unit) (Name := ℕ) (U := UR sig nD τ) (Lvl := ℕ) spec6 c (E12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (E12 m) c).Φ 0 from rfl]
    have h : iprop((∃ r, prngReg c r) ∗ Pipeline.prefHeld (pcfgs (F := F) 6).pre c (fun _ => fullShare) (adm (F := F) 6).1
        ∗ Pipeline.scopedRest (Ix := Unit) (Name := ℕ) (U := UR sig nD τ) (Lvl := ℕ) (Val := Elt F) spec6 c) ⊢ (Pipeline.ΦA spec6 c : sProp 𝕄) := by
      unfold Pipeline.ΦA
      iintro ⟨Hp, -, Hr⟩
      isplitl [Hr]; · iexact Hr
      iexact Hp
    exact h.trans (hin6 (E12 m) c)
  hout c := by
    rw [Pipeline.ownSems0_none, show (pdats m 6 c).Φ (Fin.last _) = (dat6 (E12 m) c).Φ (Fin.last cfg6.N) from rfl]
    have h : (Pipeline.ΦA spec6 c : sProp 𝕄) ⊢ iprop((∃ r, prngReg c r) ∗ BI.emp
        ∗ Pipeline.scopedRest (Ix := Unit) (Name := ℕ) (U := UR sig nD τ) (Lvl := ℕ) (Val := Elt F) spec6 c) := by
      unfold Pipeline.ΦA
      iintro ⟨Hr, Hp⟩
      isplitl [Hp]; · iexact Hp
      isplitr; · iempintro
      iexact Hr
    exact (hout6 (E12 m) c).trans h
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E12 m c) (E13 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the kernel program, at any float instance: @main is fourteen segments - eight stretches of host
  operations and the seven pipelined regions - whose thread states chain (each stretch or region is entered
  with every unscoped buffer at the contents the one before it left), so from any launch memory with zero
  counters every weakly fair execution terminates without a fault, and every unscoped buffer ends at the
  last valuation of the fold. The frame claim and the value of the result are both read off this one fact.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Seg0
import proofs.«425873_j26182120636599_1_alg».proof.Proof.KI.Seg1
import proofs.«425873_j26182120636599_1_alg».proof.Proof.KI.Seg2
import proofs.«425873_j26182120636599_1_alg».proof.Proof.KI.Seg3
import proofs.«425873_j26182120636599_1_alg».proof.Proof.KI.Seg4
import proofs.«425873_j26182120636599_1_alg».proof.Proof.KI.Seg5
import proofs.«425873_j26182120636599_1_alg».proof.Proof.KI.Seg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev mainSegs : List (Pipeline.Seg (pcfgs (F := F)) adm (pdats m) () defs₀ VAR0 Lz lvz) :=
  [ .host (hseg hostOps0 hostOps0_sub hostOps0_fresh (B0 m)),
    .region (reg0 m),
    .host (hseg hostOps1 hostOps1_sub hostOps1_fresh (B2 m)),
    .region (reg1 m),
    .region (reg2 m),
    .host (hseg hostOps3 hostOps3_sub hostOps3_fresh (B5 m)),
    .region (reg3 m),
    .region (reg4 m),
    .host (hseg hostOps5 hostOps5_sub hostOps5_fresh (B8 m)),
    .region (reg5 m),
    .host (hseg hostOps6 hostOps6_sub hostOps6_fresh (B10 m)),
    .host (hseg hostOps6_1 hostOps6_1_sub hostOps6_1_fresh (B11 m)),
    .region (reg6 m),
    .host (hseg hostOps7 hostOps7_sub hostOps7_fresh (B13 m)) ]

/-- The last thread state without what is owed: every unscoped buffer at the last contents, the generator
    register at some state. -/
abbrev Tn (c : Dev nD) : sProp 𝕄 := iprop(StableHlo.held (c : Thread nD τ) (Pipeline.ucRefs τ sig) (B14 m c) ∗ ∃ r, prngReg c r)

set_option backward.isDefEq.respectTransparency.types false in
/-- Every weakly fair execution of @main terminates, nothing faulting, with every unscoped buffer of every
    core at the last valuation of the fold through @main. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pdats m) () cellOf_inj emb₁ defs₀ VAR0 Lz lvz m ρ main (mainSegs m)
    (fun c Q => by
      rewrite [main_chain c, Pipeline.Seg.run_eq_chain,
        show (mainSegs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          Prog.lift (.customCall (Pipeline.entry 6) ()),
          StableHlo.seq hostOps7 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tn m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (B14 m c) ∗ Rst c) ⊢ _
        iintro ⟨Hh, Hp, Ho⟩
        isplitl [Hh Hp]
        · isplitl [Hh]; · iexact Hh
          iexact Hp
        iexact Ho⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

end Cert.KernelIdeal.Hand

end
-- ==== Proof.KI.Frames.lean ====
/-
  The frame of the kernel program, at any float instance: no stretch of host operations writes an argument
  of @main and no region changes one (a region changes only its output array, which is never an argument), so
  the fold of the buffers' contents through @main, read at an argument, walks back to the launch memory; with
  the run this is the frame claim: every execution ends with every argument array as launched.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes no buffer but its output array `main_v35`. -/
theorem out_only0 : ∀ w : Fin cfg0.W, (cfg0.win w).isOut = true → Pipeline.arrRef spec0 w = main_v35 := by decide
theorem B2_keep (c : Dev nD) (b : Ref sig .tc) (h : b ≠ main_v35) : B2 m c (Proc.devRef .tc b) = B1 m c (Proc.devRef .tc b) := by
  by_cases hb : ∃ w, Pipeline.arrRef spec0 w = b
  · obtain ⟨w, rfl⟩ := hb
    have hw : (cfg0.win w).isOut = false := by
      cases hio : (cfg0.win w).isOut
      · rfl
      · exact absurd (out_only0 w hio) h
    rw [B2_arr]
    exact ((dat0 (E1 m) c).arrAt_in w hw _).trans (A_eq0 (E1 m) c w)
  · exact B2_of_ne m c b (fun w e => hb ⟨w, e⟩)

/-- Region 1 changes no buffer but its output array `main_v58`. -/
theorem out_only1 : ∀ w : Fin cfg1.W, (cfg1.win w).isOut = true → Pipeline.arrRef spec1 w = main_v58 := by decide
theorem B4_keep (c : Dev nD) (b : Ref sig .tc) (h : b ≠ main_v58) : B4 m c (Proc.devRef .tc b) = B3 m c (Proc.devRef .tc b) := by
  by_cases hb : ∃ w, Pipeline.arrRef spec1 w = b
  · obtain ⟨w, rfl⟩ := hb
    have hw : (cfg1.win w).isOut = false := by
      cases hio : (cfg1.win w).isOut
      · rfl
      · exact absurd (out_only1 w hio) h
    rw [B4_arr]
    exact ((dat1 (E3 m) c).arrAt_in w hw _).trans (A_eq1 (E3 m) c w)
  · exact B4_of_ne m c b (fun w e => hb ⟨w, e⟩)

/-- Region 2 changes no buffer but its output array `main_v59`. -/
theorem out_only2 : ∀ w : Fin cfg2.W, (cfg2.win w).isOut = true → Pipeline.arrRef spec2 w = main_v59 := by decide
theorem B5_keep (c : Dev nD) (b : Ref sig .tc) (h : b ≠ main_v59) : B5 m c (Proc.devRef .tc b) = B4 m c (Proc.devRef .tc b) := by
  by_cases hb : ∃ w, Pipeline.arrRef spec2 w = b
  · obtain ⟨w, rfl⟩ := hb
    have hw : (cfg2.win w).isOut = false := by
      cases hio : (cfg2.win w).isOut
      · rfl
      · exact absurd (out_only2 w hio) h
    rw [B5_arr]
    exact ((dat2 (E4 m) c).arrAt_in w hw _).trans (A_eq2 (E4 m) c w)
  · exact B5_of_ne m c b (fun w e => hb ⟨w, e⟩)

/-- Region 3 changes no buffer but its output array `main_v82`. -/
theorem out_only3 : ∀ w : Fin cfg3.W, (cfg3.win w).isOut = true → Pipeline.arrRef spec3 w = main_v82 := by decide
theorem B7_keep (c : Dev nD) (b : Ref sig .tc) (h : b ≠ main_v82) : B7 m c (Proc.devRef .tc b) = B6 m c (Proc.devRef .tc b) := by
  by_cases hb : ∃ w, Pipeline.arrRef spec3 w = b
  · obtain ⟨w, rfl⟩ := hb
    have hw : (cfg3.win w).isOut = false := by
      cases hio : (cfg3.win w).isOut
      · rfl
      · exact absurd (out_only3 w hio) h
    rw [B7_arr]
    exact ((dat3 (E6 m) c).arrAt_in w hw _).trans (A_eq3 (E6 m) c w)
  · exact B7_of_ne m c b (fun w e => hb ⟨w, e⟩)

/-- Region 4 changes no buffer but its output array `main_v83`. -/
theorem out_only4 : ∀ w : Fin cfg4.W, (cfg4.win w).isOut = true → Pipeline.arrRef spec4 w = main_v83 := by decide
theorem B8_keep (c : Dev nD) (b : Ref sig .tc) (h : b ≠ main_v83) : B8 m c (Proc.devRef .tc b) = B7 m c (Proc.devRef .tc b) := by
  by_cases hb : ∃ w, Pipeline.arrRef spec4 w = b
  · obtain ⟨w, rfl⟩ := hb
    have hw : (cfg4.win w).isOut = false := by
      cases hio : (cfg4.win w).isOut
      · rfl
      · exact absurd (out_only4 w hio) h
    rw [B8_arr]
    exact ((dat4 (E7 m) c).arrAt_in w hw _).trans (A_eq4 (E7 m) c w)
  · exact B8_of_ne m c b (fun w e => hb ⟨w, e⟩)

/-- Region 5 changes no buffer but its output array `main_v102`. -/
theorem out_only5 : ∀ w : Fin cfg5.W, (cfg5.win w).isOut = true → Pipeline.arrRef spec5 w = main_v102 := by decide
theorem B10_keep (c : Dev nD) (b : Ref sig .tc) (h : b ≠ main_v102) : B10 m c (Proc.devRef .tc b) = B9 m c (Proc.devRef .tc b) := by
  by_cases hb : ∃ w, Pipeline.arrRef spec5 w = b
  · obtain ⟨w, rfl⟩ := hb
    have hw : (cfg5.win w).isOut = false := by
      cases hio : (cfg5.win w).isOut
      · rfl
      · exact absurd (out_only5 w hio) h
    rw [B10_arr]
    exact ((dat5 (E9 m) c).arrAt_in w hw _).trans (A_eq5 (E9 m) c w)
  · exact B10_of_ne m c b (fun w e => hb ⟨w, e⟩)

/-- Region 6 changes no buffer but its output array `main_v108`. -/
theorem out_only6 : ∀ w : Fin cfg6.W, (cfg6.win w).isOut = true → Pipeline.arrRef spec6 w = main_v108 := by decide
theorem B13_keep (c : Dev nD) (b : Ref sig .tc) (h : b ≠ main_v108) : B13 m c (Proc.devRef .tc b) = B12 m c (Proc.devRef .tc b) := by
  by_cases hb : ∃ w, Pipeline.arrRef spec6 w = b
  · obtain ⟨w, rfl⟩ := hb
    have hw : (cfg6.win w).isOut = false := by
      cases hio : (cfg6.win w).isOut
      · rfl
      · exact absurd (out_only6 w hio) h
    rw [B13_arr]
    exact ((dat6 (E12 m) c).arrAt_in w hw _).trans (A_eq6 (E12 m) c w)
  · exact B13_of_ne m c b (fun w e => hb ⟨w, e⟩)

/-- A buffer that no stretch writes and that is no region's output array ends as launched. -/
theorem B14_keep (c : Dev nD) (b : Ref sig .tc)
    (h0 : b ∉ hostOps0_W) (h1 : b ∉ hostOps1_W) (h3 : b ∉ hostOps3_W) (h5 : b ∉ hostOps5_W) (h6 : b ∉ hostOps6_W)
    (h61 : b ∉ hostOps6_1_W) (h7 : b ∉ hostOps7_W)
    (ho : b ∉ ([main_v35, main_v58, main_v59, main_v82, main_v83, main_v102, main_v108] : List (Ref sig .tc))) :
    B14 m c (Proc.devRef .tc b) = m (c, Proc.devRef .tc b) := by
  have n35 : b ≠ main_v35 := fun e => ho (by subst e; decide)
  have n58 : b ≠ main_v58 := fun e => ho (by subst e; decide)
  have n59 : b ≠ main_v59 := fun e => ho (by subst e; decide)
  have n82 : b ≠ main_v82 := fun e => ho (by subst e; decide)
  have n83 : b ≠ main_v83 := fun e => ho (by subst e; decide)
  have n102 : b ≠ main_v102 := fun e => ho (by subst e; decide)
  have n108 : b ≠ main_v108 := fun e => ho (by subst e; decide)
  calc B14 m c (Proc.devRef .tc b)
      = B13 m c (Proc.devRef .tc b) := StableHlo.after_of_writes_sub hostOps7 _ hostOps7_writes h7
    _ = B12 m c (Proc.devRef .tc b) := B13_keep m c b n108
    _ = B11 m c (Proc.devRef .tc b) := StableHlo.after_of_writes_sub hostOps6_1 _ hostOps6_1_writes h61
    _ = B10 m c (Proc.devRef .tc b) := StableHlo.after_of_writes_sub hostOps6 _ hostOps6_writes h6
    _ = B9 m c (Proc.devRef .tc b) := B10_keep m c b n102
    _ = B8 m c (Proc.devRef .tc b) := StableHlo.after_of_writes_sub hostOps5 _ hostOps5_writes h5
    _ = B7 m c (Proc.devRef .tc b) := B8_keep m c b n83
    _ = B6 m c (Proc.devRef .tc b) := B7_keep m c b n82
    _ = B5 m c (Proc.devRef .tc b) := StableHlo.after_of_writes_sub hostOps3 _ hostOps3_writes h3
    _ = B4 m c (Proc.devRef .tc b) := B5_keep m c b n59
    _ = B3 m c (Proc.devRef .tc b) := B4_keep m c b n58
    _ = B2 m c (Proc.devRef .tc b) := StableHlo.after_of_writes_sub hostOps1 _ hostOps1_writes h1
    _ = B1 m c (Proc.devRef .tc b) := B2_keep m c b n35
    _ = B0 m c (Proc.devRef .tc b) := StableHlo.after_of_writes_sub hostOps0 _ hostOps0_writes h0
    _ = m (c, Proc.devRef .tc b) := rfl

/-- @main's seventeen arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- Every argument ends as launched. -/
theorem args_kept (c : Dev nD) (b : Ref sig .tc) (hb : b ∈ argRefs) : B14 m c (Proc.devRef .tc b) = m (c, Proc.devRef .tc b) :=
  B14_keep m c b ((by decide : ∀ b ∈ argRefs, b ∉ hostOps0_W) b hb) ((by decide : ∀ b ∈ argRefs, b ∉ hostOps1_W) b hb)
    ((by decide : ∀ b ∈ argRefs, b ∉ hostOps3_W) b hb) ((by decide : ∀ b ∈ argRefs, b ∉ hostOps5_W) b hb)
    ((by decide : ∀ b ∈ argRefs, b ∉ hostOps6_W) b hb) ((by decide : ∀ b ∈ argRefs, b ∉ hostOps6_1_W) b hb)
    ((by decide : ∀ b ∈ argRefs, b ∉ hostOps7_W) b hb)
    ((by decide : ∀ b ∈ argRefs, b ∉ ([main_v35, main_v58, main_v59, main_v82, main_v83, main_v102, main_v108] : List (Ref sig .tc))) b hb)

/-- An argument's buffer in a final state of the run is the launch memory's. -/
theorem arg_end (c : Dev nD) (b : Ref sig .tc) (hb : b ∈ argRefs) (hs : ¬ (Proc.devRef .tc b : DevRef τ sig).isScoped)
    (s : MemSt nD τ sig (Elt F)) (h : ∀ b' ∈ Pipeline.ucRefs τ sig, s.mem (((c : Thread nD τ)).1, b') = B14 m c b') :
    s.mem ((c.tc : Thread nD τ).loc b) = m ((c.tc : Thread nD τ).loc b) :=
  (h _ (mem_uc b hs)).trans (args_kept m c b hb)

/-- THE FRAME, at any float instance: every weakly fair execution of @main from memory `m` with zero counters
    terminates, nothing faulting, and every final memory holds each argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨arg_end m c main_arg0 (by decide) (by decide) r.2 (h c), arg_end m c main_arg1 (by decide) (by decide) r.2 (h c),
     arg_end m c main_arg2 (by decide) (by decide) r.2 (h c), arg_end m c main_arg3 (by decide) (by decide) r.2 (h c),
     arg_end m c main_arg4 (by decide) (by decide) r.2 (h c), arg_end m c main_arg5 (by decide) (by decide) r.2 (h c),
     arg_end m c main_arg6 (by decide) (by decide) r.2 (h c), arg_end m c main_arg7 (by decide) (by decide) r.2 (h c),
     arg_end m c main_arg8 (by decide) (by decide) r.2 (h c), arg_end m c main_arg9 (by decide) (by decide) r.2 (h c),
     arg_end m c main_arg10 (by decide) (by decide) r.2 (h c), arg_end m c main_arg11 (by decide) (by decide) r.2 (h c),
     arg_end m c main_arg12 (by decide) (by decide) r.2 (h c), arg_end m c main_arg13 (by decide) (by decide) r.2 (h c),
     arg_end m c main_arg14 (by decide) (by decide) r.2 (h c), arg_end m c main_arg15 (by decide) (by decide) r.2 (h c),
     arg_end m c main_arg16 (by decide) (by decide) r.2 (h c)⟩) (run_all m ρ)

end Cert.KernelIdeal.Hand

end
-- ==== Proof.Val.ScatterMath.lean ====
/-
  Two facts about sums of extended reals that the value comparison of the two programs rests on, both read at the
  ideal instance (a float is an extended real, every operation the textbook one).

  (A) The degree vector. One program scatters ones onto zeros and then adds one everywhere; the other scatters the
  same ones onto ones. Element by element this is (0 + Σ) + 1 = 1 + Σ in a commutative monoid.

  (B) The pooled sums. One program multiplies by a one-hot matrix (entry (n, g) is 1 when the 32-bit word batch n
  is the word g, else 0) and sums over the rows; the other scatters row n of the operand onto row (batch n, read
  signed) of a zero array, dropping rows that land outside. Since g < 64, the signed reading of batch n equals g
  exactly when the word batch n is the word g, and 0 * x = 0, 1 * x = x for every extended real, so both are the sum
  of h (n, o) over the rows n with batch n = g.
-/
import proofs.«425873_j26182120636599_1_alg».proof.KernelIdeal
import proofs.«425873_j26182120636599_1_alg».proof.ReferenceIdeal
import Idealize.ShloMosaic.PureOps.Ideal
import Idealize.ShloMosaic.PureOps.Ideal.Laws
import Idealize.ShloMosaic.Lib.ValueIdx

set_option maxRecDepth 16384

noncomputable section

namespace Cert.ScatterMath

open Idealize.ShloMosaic Idealize.ShloMosaic.ValueIdx
open scoped BigOperators

variable [hK : Cert.KernelIdeal.Facts₀] [hR : Cert.ReferenceIdeal.Facts₀]

/-- The reference program's scatter record for the pooling: rows of the updates go to rows of the operand, the row
    read off the start indices, the column kept. -/
abbrev poolDims := Cert.ReferenceIdeal.scatter_S64x128_S50000x1_S50000x128_1_0_0_1

/-- The scatter with an add body read at an element: the operand's element plus the sum of the updates landing there. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ Finset.univ.filter (fun j => d.resultIdx? j idx = some i), upd j := rfl

/-- The window of row n starts, on the row axis, at the start index of row n read signed. -/
theorem start0 (n : Fin 50000) (o' : Fin 128) (idx : IVec Cert.ReferenceIdeal.S50000x1 32) :
    poolDims.start (ix2 n o') idx 0 = (idx (ix2 n (0 : Fin 1))).toInt := by
  have h0 : (0 : Fin Cert.ReferenceIdeal.S64x128.rank) ∈ poolDims.scatterDimsToOperandDims := List.mem_singleton.mpr rfl
  unfold ScatterDims.start
  rw [dif_pos h0]
  congr 2
  funext b
  match b with
  | ⟨0, _⟩ => rfl
  | ⟨1, _⟩ => rfl

/-- On the column axis the window starts at 0: the start indices do not name that axis. -/
theorem start1 (j : Cert.ReferenceIdeal.S50000x128.Idx) (idx : IVec Cert.ReferenceIdeal.S50000x1 32) :
    poolDims.start j idx 1 = 0 := by
  have h1 : (1 : Fin Cert.ReferenceIdeal.S64x128.rank) ∉ poolDims.scatterDimsToOperandDims :=
    show (1 : Fin 2) ∉ [(0 : Fin 2)] from by decide
  unfold ScatterDims.start
  rw [dif_neg h1]

/-- The row axis is an inserted axis: the window coordinate there is 0. -/
theorem window0 (j : Cert.ReferenceIdeal.S50000x128.Idx) : poolDims.window j 0 = 0 := by
  have h0 : (0 : Fin Cert.ReferenceIdeal.S64x128.rank) ∉ poolDims.sKept :=
    show (0 : Fin 2) ∉ (⟨2, ![64, 128]⟩ : Shape).kept [(0 : Fin 2)] from by decide
  unfold ScatterDims.window
  rw [dif_neg h0]

/-- The column axis carries the update's column as window coordinate. -/
theorem window1 (n : Fin 50000) (o' : Fin 128) : poolDims.window (ix2 n o') 1 = o'.val := by
  have h1 : (1 : Fin Cert.ReferenceIdeal.S64x128.rank) ∈ poolDims.sKept :=
    show (1 : Fin 2) ∈ (⟨2, ![64, 128]⟩ : Shape).kept [(0 : Fin 2)] from by decide
  unfold ScatterDims.window
  rw [dif_pos h1]
  rfl

/-- A 32-bit word reads g signed, g below 64, exactly when it is the word g. -/
theorem toInt_eq_iff (b : BitVec 32) (g : Fin 64) : b.toInt = (g.val : Int) ↔ b = BitVec.ofNat 32 g.val := by
  have hg := g.isLt
  have hb := b.isLt
  rw [← BitVec.toNat_inj, BitVec.toNat_ofNat, BitVec.toInt_eq_toNat_cond]
  constructor
  · intro h; split at h <;> omega
  · intro h; split <;> omega

/-- The one-hot matrix as the kernel program's host code makes it: entry (n, g) compares the word batch n with the
    word g and converts the one-bit answer to a float. -/
abbrev oneHot (batch : IVec Cert.KernelIdeal.S50000 32) : FVec Ideal Cert.KernelIdeal.S50000x64 .bf16 :=
  uitofp .bf16 (cmpi .eq
    (broadcastInDim Cert.KernelIdeal.S50000x64 ![0, 1] Cert.KernelIdeal.Facts₀.bcast_S50000x1_S50000x64_0_1
      (broadcastInDim Cert.KernelIdeal.S50000x1 ![0] Cert.KernelIdeal.Facts₀.bcast_S50000_S50000x1_0 batch))
    (broadcastInDim Cert.KernelIdeal.S50000x64 ![0, 1] Cert.KernelIdeal.Facts₀.bcast_S1x64_S50000x64_0_1
      (iotaInDim Cert.KernelIdeal.S1x64 32 1)))

/-- Start plus window coordinate on the row axis. -/
theorem sw0 (n : Fin 50000) (o' : Fin 128) (idx : IVec Cert.ReferenceIdeal.S50000x1 32) :
    poolDims.start (ix2 n o') idx 0 + (poolDims.window (ix2 n o') 0 : Int) = (idx (ix2 n (0 : Fin 1))).toInt := by
  rw [start0, window0]; simp

/-- Start plus window coordinate on the column axis. -/
theorem sw1 (n : Fin 50000) (o' : Fin 128) (idx : IVec Cert.ReferenceIdeal.S50000x1 32) :
    poolDims.start (ix2 n o') idx 1 + (poolDims.window (ix2 n o') 1 : Int) = (o'.val : Int) := by
  rw [start1, window1]; simp

/-- Where row n, column o' of the updates lands: at (g, o) exactly when the start index read signed is g and the
    columns agree. -/
theorem resultIdx_pool (idx : IVec Cert.ReferenceIdeal.S50000x1 32) (n : Fin 50000) (o' : Fin 128) (g : Fin 64) (o : Fin 128) :
    poolDims.resultIdx? (ix2 n o') idx = some (ix2 g o) ↔ (idx (ix2 n (0 : Fin 1))).toInt = (g.val : Int) ∧ o' = o := by
  have hg := g.isLt
  have ho' := o'.isLt
  have h64 : ((Cert.ReferenceIdeal.S64x128.size 0 : Nat) : Int) = 64 := rfl
  have h128 : ((Cert.ReferenceIdeal.S64x128.size 1 : Nat) : Int) = 128 := rfl
  unfold ScatterDims.resultIdx?
  split
  · rename_i hin
    have hin0 := hin 0
    rw [sw0, h64] at hin0
    constructor
    · intro hf
      have hf' := Option.some.inj hf
      have e0 : (poolDims.start (ix2 n o') idx 0 + (poolDims.window (ix2 n o') 0 : Int)).toNat = g.val :=
        congrArg Fin.val (congrFun hf' 0)
      have e1 : (poolDims.start (ix2 n o') idx 1 + (poolDims.window (ix2 n o') 1 : Int)).toNat = o.val :=
        congrArg Fin.val (congrFun hf' 1)
      rw [sw0] at e0
      rw [sw1] at e1
      exact ⟨by omega, Fin.ext (by omega)⟩
    · rintro ⟨ht, rfl⟩
      congr 1
      funext a
      refine Fin.ext ?_
      match a with
      | ⟨0, _⟩ =>
        show (poolDims.start (ix2 n o') idx 0 + (poolDims.window (ix2 n o') 0 : Int)).toNat = g.val
        rw [sw0]; omega
      | ⟨1, _⟩ =>
        show (poolDims.start (ix2 n o') idx 1 + (poolDims.window (ix2 n o') 1 : Int)).toNat = o'.val
        rw [sw1]; omega
  · rename_i hin
    constructor
    · intro hf; exact absurd hf (by simp)
    · rintro ⟨ht, rfl⟩
      exfalso
      apply hin
      intro a
      match a with
      | ⟨0, _⟩ =>
        show 0 ≤ poolDims.start (ix2 n o') idx 0 + (poolDims.window (ix2 n o') 0 : Int) ∧ poolDims.start (ix2 n o') idx 0 + (poolDims.window (ix2 n o') 0 : Int) < ((Cert.ReferenceIdeal.S64x128.size 0 : Nat) : Int)
        rw [sw0, h64]; omega
      | ⟨1, _⟩ =>
        show 0 ≤ poolDims.start (ix2 n o') idx 1 + (poolDims.window (ix2 n o') 1 : Int) ∧ poolDims.start (ix2 n o') idx 1 + (poolDims.window (ix2 n o') 1 : Int) < ((Cert.ReferenceIdeal.S64x128.size 1 : Nat) : Int)
        rw [sw1, h128]; omega

/-- The broadcast column of start indices read at row n is batch n. -/
theorem idxCol_apply (batch : IVec Cert.KernelIdeal.S50000 32) (n : Fin 50000) :
    (broadcastInDim Cert.ReferenceIdeal.S50000x1 ![0] Cert.ReferenceIdeal.Facts₀.bcast_S50000_S50000x1_0 batch) (ix2 n (0 : Fin 1)) = batch (ix1 n) := by
  show batch _ = batch _
  congr 1
  funext a
  match a with
  | ⟨0, _⟩ => rfl

/-- The one-hot matrix read at (n, g): 1 when batch n is the word g, else 0. -/
theorem oneHot_apply (batch : IVec Cert.KernelIdeal.S50000 32) (n : Fin 50000) (g : Fin 64) :
    oneHot batch (ix2 n g) = if batch (ix1 n) = BitVec.ofNat 32 g.val then (1 : EReal) else 0 := by
  have hA : (broadcastInDim Cert.KernelIdeal.S50000x64 ![0, 1] Cert.KernelIdeal.Facts₀.bcast_S50000x1_S50000x64_0_1
      (broadcastInDim Cert.KernelIdeal.S50000x1 ![0] Cert.KernelIdeal.Facts₀.bcast_S50000_S50000x1_0 batch)) (ix2 n g) = batch (ix1 n) := by
    show batch _ = batch _
    congr 1
    funext a
    match a with
    | ⟨0, _⟩ => rfl
  have hB : (broadcastInDim Cert.KernelIdeal.S50000x64 ![0, 1] Cert.KernelIdeal.Facts₀.bcast_S1x64_S50000x64_0_1
      (iotaInDim Cert.KernelIdeal.S1x64 32 1)) (ix2 n g) = BitVec.ofNat 32 g.val := rfl
  show (((BitVec.ofBool (_ == _)).toNat : ℝ) : EReal) = _
  rw [hA, hB]
  by_cases hb : batch (ix1 n) = BitVec.ofNat 32 g.val
  · rw [if_pos hb, hb]; simp
  · rw [if_neg hb]
    have : (batch (ix1 n) == BitVec.ofNat 32 g.val) = false := by simpa using hb
    rw [this]; simp

/-- The same with the start indices the broadcast column of batch, and the signed reading turned into equality of
    words (g is below 64, so the word g reads g signed). -/
theorem resultIdx_pool_batch (batch : IVec Cert.KernelIdeal.S50000 32) (n : Fin 50000) (o' : Fin 128) (g : Fin 64) (o : Fin 128) :
    poolDims.resultIdx? (ix2 n o')
        (broadcastInDim Cert.ReferenceIdeal.S50000x1 ![0] Cert.ReferenceIdeal.Facts₀.bcast_S50000_S50000x1_0 batch) = some (ix2 g o)
      ↔ batch (ix1 n) = BitVec.ofNat 32 g.val ∧ o' = o := by
  rw [resultIdx_pool, idxCol_apply, toInt_eq_iff]

/-- The two programs' scatter records for the degree vector have the same fields. -/
theorem degDims_eq :
    Cert.KernelIdeal.scatter_S50000_S800000x1_S800000_n_0_0_1 = Cert.ReferenceIdeal.scatter_S50000_S800000x1_S800000_n_0_0_1 := rfl

/-- (A) The degree vector two ways: ones scattered onto zeros, then one added everywhere, against the same ones
    scattered onto ones. At each element, (0 + Σ) + 1 = 1 + Σ. -/
theorem degree_two_ways (idx : IVec Cert.KernelIdeal.S800000x1 32) :
    addf (Host.scatterAdd (F := Ideal) Cert.KernelIdeal.scatter_S50000_S800000x1_S800000_n_0_0_1
        (broadcastInDim Cert.KernelIdeal.S50000 ![] Cert.KernelIdeal.Facts₀.bcast_S_S50000 (constant (F := Ideal) Cert.KernelIdeal.S_ .f32 0x00000000#32))
        idx
        (broadcastInDim Cert.KernelIdeal.S800000 ![] Cert.KernelIdeal.Facts₀.bcast_S_S800000 (constant (F := Ideal) Cert.KernelIdeal.S_ .f32 0x3F800000#32)))
      (broadcastInDim Cert.KernelIdeal.S50000 ![] Cert.KernelIdeal.Facts₀.bcast_S_S50000 (constant (F := Ideal) Cert.KernelIdeal.S_ .f32 0x3F800000#32))
    = Host.scatterAdd (F := Ideal) Cert.ReferenceIdeal.scatter_S50000_S800000x1_S800000_n_0_0_1
        (broadcastInDim Cert.ReferenceIdeal.S50000 ![] Cert.ReferenceIdeal.Facts₀.bcast_S_S50000 (constant (F := Ideal) Cert.ReferenceIdeal.S_ .f32 0x3F800000#32))
        idx
        (broadcastInDim Cert.ReferenceIdeal.S800000 ![] Cert.ReferenceIdeal.Facts₀.bcast_S_S800000 (constant (F := Ideal) Cert.ReferenceIdeal.S_ .f32 0x3F800000#32)) := by
  funext i
  rw [addf_apply, scatterAdd_apply, scatterAdd_apply]
  have hz : (broadcastInDim Cert.KernelIdeal.S50000 ![] Cert.KernelIdeal.Facts₀.bcast_S_S50000
      (constant (F := Ideal) Cert.KernelIdeal.S_ .f32 0x00000000#32)) i = (0 : EReal) := Ideal.ofBits_zero_f32
  rw [hz, zero_add, add_comm]
  rfl

/-- (B) The pooled sums two ways, at row g and column o. -/
theorem pooled_two_ways_at (batch : IVec Cert.KernelIdeal.S50000 32) (h : Cert.ReferenceIdeal.S50000x128.Idx → EReal)
    (g : Fin 64) (o : Fin 128) :
    (∑ n : Fin 50000, oneHot batch (ix2 n g) * h (ix2 n o))
    = Host.scatterAdd (F := Ideal) (φ := .f32) Cert.ReferenceIdeal.scatter_S64x128_S50000x1_S50000x128_1_0_0_1
        (broadcastInDim Cert.ReferenceIdeal.S64x128 ![] Cert.ReferenceIdeal.Facts₀.bcast_S_S64x128 (constant (F := Ideal) Cert.ReferenceIdeal.S_ .f32 0x00000000#32))
        (broadcastInDim Cert.ReferenceIdeal.S50000x1 ![0] Cert.ReferenceIdeal.Facts₀.bcast_S50000_S50000x1_0 batch)
        h (ix2 g o) := by
  rw [scatterAdd_apply]
  have hz : (broadcastInDim Cert.ReferenceIdeal.S64x128 ![] Cert.ReferenceIdeal.Facts₀.bcast_S_S64x128
      (constant (F := Ideal) Cert.ReferenceIdeal.S_ .f32 0x00000000#32)) (ix2 g o) = (0 : EReal) := Ideal.ofBits_zero_f32
  rw [hz, zero_add, Finset.sum_filter, sum_idx2]
  refine Finset.sum_congr rfl fun n _ => ?_
  rw [oneHot_apply]
  refine Eq.trans ?_ (Finset.sum_congr rfl fun x _ => if_congr (resultIdx_pool_batch batch n x g o).symm rfl rfl)
  by_cases hb : batch (ix1 n) = BitVec.ofNat 32 g.val
  · simp [hb]
  · simp [hb]

/-- (B) The pooled sums two ways, at any index of the pooled array. -/
theorem pooled_two_ways (batch : IVec Cert.KernelIdeal.S50000 32) (h : Cert.ReferenceIdeal.S50000x128.Idx → EReal)
    (i : Cert.ReferenceIdeal.S64x128.Idx) :
    (∑ n : Fin 50000, oneHot batch (ix2 n (i 0)) * h (ix2 n (i 1)))
    = Host.scatterAdd (F := Ideal) (φ := .f32) Cert.ReferenceIdeal.scatter_S64x128_S50000x1_S50000x128_1_0_0_1
        (broadcastInDim Cert.ReferenceIdeal.S64x128 ![] Cert.ReferenceIdeal.Facts₀.bcast_S_S64x128 (constant (F := Ideal) Cert.ReferenceIdeal.S_ .f32 0x00000000#32))
        (broadcastInDim Cert.ReferenceIdeal.S50000x1 ![0] Cert.ReferenceIdeal.Facts₀.bcast_S50000_S50000x1_0 batch)
        h i :=
  (pooled_two_ways_at batch h (i 0) (i 1)).trans (congrArg _ (eq_ix2 i).symm)

end Cert.ScatterMath
-- ==== Proof.Val.Stage0.lean ====
/-
  What the first stretch of host operations of the kernel program leaves, at the ideal instance, named by the
  reference program's own stages: the edge sources and targets, the product of the two normalising
  coefficients per edge, the squared coefficient per node, and the three weight matrices (rounding a weight
  to a narrower format changes nothing over the extended reals). The one place where the two programs differ
  here is the degree vector: the kernel program scatters ones onto zeros and then adds one, the reference
  scatters ones onto ones; over the extended reals these are the same vector.
-/
import proofs.«425873_j26182120636599_1_alg».proof.Proof.KI.Chain
import proofs.«425873_j26182120636599_1_alg».proof.Proof.Gen.ReferenceIdeal.Read
import proofs.«425873_j26182120636599_1_alg».proof.Proof.Val.ScatterMath
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- A buffer the first stretch does not write is as launched. -/
theorem B1_of (b : Ref sig .tc) (h : b ∉ hostOps0_W) : B1 m c (Proc.devRef .tc b) = m (c, Proc.devRef .tc b) :=
  StableHlo.after_of_writes_sub hostOps0 _ hostOps0_writes h

/-- The edge sources. -/
theorem src1 : B1 m c (Proc.devRef .tc main_v1) = Cert.ReferenceIdeal.Read.val_main_v1 (F := Ideal) (m ((c.tc : Thread nD τ).loc main_arg1)) := by
  show StableHlo.after hostOps0 (fun b => m (c, b)) (Proc.devRef .tc main_v1) = _
  after_results_simp
  rfl

/-- The edge targets. -/
theorem dst1 : B1 m c (Proc.devRef .tc main_v3) = Cert.ReferenceIdeal.Read.val_main_v3 (F := Ideal) (m ((c.tc : Thread nD τ).loc main_arg1)) := by
  show StableHlo.after hostOps0 (fun b => m (c, b)) (Proc.devRef .tc main_v3) = _
  after_results_simp
  rfl

/-- The coefficient of an edge: the inverse square roots of the degrees of its two ends, multiplied. -/
theorem coef1 : B1 m c (Proc.devRef .tc main_v30) = Cert.ReferenceIdeal.Read.val_main_v29 (F := Ideal) (m ((c.tc : Thread nD τ).loc main_arg1)) := by
  show StableHlo.after hostOps0 (fun b => m (c, b)) (Proc.devRef .tc main_v30) = _
  after_results_simp
  rw [Cert.ScatterMath.degree_two_ways]
  rfl

/-- The coefficient of a node's own message: the inverse of its degree. -/
theorem self1 : B1 m c (Proc.devRef .tc main_v31) = Cert.ReferenceIdeal.Read.val_main_v43 (F := Ideal) (m ((c.tc : Thread nD τ).loc main_arg1)) := by
  show StableHlo.after hostOps0 (fun b => m (c, b)) (Proc.devRef .tc main_v31) = _
  after_results_simp
  rw [Cert.ScatterMath.degree_two_ways]
  rfl

/-- The three weight matrices, rounded: over the extended reals, themselves. -/
theorem w1b : (B1 m c (Proc.devRef .tc main_v32) : S768x256.Idx → EReal) = (m ((c.tc : Thread nD τ).loc main_arg3)) := by
  show StableHlo.after hostOps0 (fun b => m (c, b)) (Proc.devRef .tc main_v32) = _
  after_results_simp
  rfl
theorem w2b : (B1 m c (Proc.devRef .tc main_v33) : S256x256.Idx → EReal) = (m ((c.tc : Thread nD τ).loc main_arg9)) := by
  show StableHlo.after hostOps0 (fun b => m (c, b)) (Proc.devRef .tc main_v33) = _
  after_results_simp
  rfl
theorem w3b : (B1 m c (Proc.devRef .tc main_v34) : S256x128.Idx → EReal) = (m ((c.tc : Thread nD τ).loc main_arg15)) := by
  show StableHlo.after hostOps0 (fun b => m (c, b)) (Proc.devRef .tc main_v34) = _
  after_results_simp
  rfl

/-- The reference recomputes the degrees and coefficients in every layer; the recomputed ones are the first. -/
theorem ref_coef2 (x1 : (⟨Cert.ReferenceIdeal.S2x800000, .i32⟩ : BufTy).Contents (Elt Ideal)) :
    Cert.ReferenceIdeal.Read.val_main_v92 (F := Ideal) x1 = Cert.ReferenceIdeal.Read.val_main_v29 (F := Ideal) x1 := rfl
theorem ref_self2 (x1 : (⟨Cert.ReferenceIdeal.S2x800000, .i32⟩ : BufTy).Contents (Elt Ideal)) :
    Cert.ReferenceIdeal.Read.val_main_v106 (F := Ideal) x1 = Cert.ReferenceIdeal.Read.val_main_v43 (F := Ideal) x1 := rfl
theorem ref_coef3 (x1 : (⟨Cert.ReferenceIdeal.S2x800000, .i32⟩ : BufTy).Contents (Elt Ideal)) :
    Cert.ReferenceIdeal.Read.val_main_v155 (F := Ideal) x1 = Cert.ReferenceIdeal.Read.val_main_v29 (F := Ideal) x1 := rfl
theorem ref_self3 (x1 : (⟨Cert.ReferenceIdeal.S2x800000, .i32⟩ : BufTy).Contents (Elt Ideal)) :
    Cert.ReferenceIdeal.Read.val_main_v169 (F := Ideal) x1 = Cert.ReferenceIdeal.Read.val_main_v43 (F := Ideal) x1 := rfl

end Cert.KernelIdeal.Hand

end
-- ==== Proof.Val.Keep.lean ====
/-
  Buffers that live across several items of @main, at the ideal instance: a stretch of host operations leaves
  every buffer it does not write, a region every buffer but its output array. So the edge sources and targets,
  the per-edge and per-node coefficients and the rounded weights, all made by the first stretch, are still what
  the first stretch left when the later stretches and regions read them, and an argument of @main is still the
  launch memory's wherever it is read.
-/
import proofs.«425873_j26182120636599_1_alg».proof.Proof.KI.Frames
import proofs.«425873_j26182120636599_1_alg».proof.Proof.Val.Stage0
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

theorem B3_of_B2 (b : Ref sig .tc) (h : b ∉ hostOps1_W) : B3 m c (Proc.devRef .tc b) = B2 m c (Proc.devRef .tc b) :=
  StableHlo.after_of_writes_sub hostOps1 _ hostOps1_writes h
theorem B6_of_B5 (b : Ref sig .tc) (h : b ∉ hostOps3_W) : B6 m c (Proc.devRef .tc b) = B5 m c (Proc.devRef .tc b) :=
  StableHlo.after_of_writes_sub hostOps3 _ hostOps3_writes h
theorem B9_of_B8 (b : Ref sig .tc) (h : b ∉ hostOps5_W) : B9 m c (Proc.devRef .tc b) = B8 m c (Proc.devRef .tc b) :=
  StableHlo.after_of_writes_sub hostOps5 _ hostOps5_writes h
theorem B11_of_B10 (b : Ref sig .tc) (h : b ∉ hostOps6_W) : B11 m c (Proc.devRef .tc b) = B10 m c (Proc.devRef .tc b) :=
  StableHlo.after_of_writes_sub hostOps6 _ hostOps6_writes h
theorem B12_of_B11 (b : Ref sig .tc) (h : b ∉ hostOps6_1_W) : B12 m c (Proc.devRef .tc b) = B11 m c (Proc.devRef .tc b) :=
  StableHlo.after_of_writes_sub hostOps6_1 _ hostOps6_1_writes h
theorem B14_of_B13 (b : Ref sig .tc) (h : b ∉ hostOps7_W) : B14 m c (Proc.devRef .tc b) = B13 m c (Proc.devRef .tc b) :=
  StableHlo.after_of_writes_sub hostOps7 _ hostOps7_writes h

/-- From the first stretch to the first aggregation stretch, -/
theorem B2_of_B1 (b : Ref sig .tc) (h35 : b ≠ main_v35) : B2 m c (Proc.devRef .tc b) = B1 m c (Proc.devRef .tc b) := B2_keep m c b h35
/-- to the second dense product's entry, -/
theorem B4_of_B2 (b : Ref sig .tc) (h1 : b ∉ hostOps1_W) (h58 : b ≠ main_v58) : B4 m c (Proc.devRef .tc b) = B2 m c (Proc.devRef .tc b) :=
  (B4_keep m c b h58).trans (B3_of_B2 m c b h1)
/-- to the second aggregation stretch, -/
theorem B5_of_B2 (b : Ref sig .tc) (h1 : b ∉ hostOps1_W) (h58 : b ≠ main_v58) (h59 : b ≠ main_v59) : B5 m c (Proc.devRef .tc b) = B2 m c (Proc.devRef .tc b) :=
  (B5_keep m c b h59).trans (B4_of_B2 m c b h1 h58)
/-- to the third dense product's entry, -/
theorem B7_of_B5 (b : Ref sig .tc) (h3 : b ∉ hostOps3_W) (h82 : b ≠ main_v82) : B7 m c (Proc.devRef .tc b) = B5 m c (Proc.devRef .tc b) :=
  (B7_keep m c b h82).trans (B6_of_B5 m c b h3)
/-- to the third aggregation stretch, -/
theorem B8_of_B5 (b : Ref sig .tc) (h3 : b ∉ hostOps3_W) (h82 : b ≠ main_v82) (h83 : b ≠ main_v83) : B8 m c (Proc.devRef .tc b) = B5 m c (Proc.devRef .tc b) :=
  (B8_keep m c b h83).trans (B7_of_B5 m c b h3 h82)
/-- and to the pooling region's entry. -/
theorem B12_of_B8 (b : Ref sig .tc) (h5 : b ∉ hostOps5_W) (h102 : b ≠ main_v102) (h6 : b ∉ hostOps6_W) (h61 : b ∉ hostOps6_1_W) :
    B12 m c (Proc.devRef .tc b) = B8 m c (Proc.devRef .tc b) :=
  (B12_of_B11 m c b h61).trans <| (B11_of_B10 m c b h6).trans <| (B10_keep m c b h102).trans (B9_of_B8 m c b h5)

/-! ## What the first stretch made, where the aggregation stretches read it -/

theorem B2_src : B2 m c (Proc.devRef .tc main_v1) = Cert.ReferenceIdeal.Read.val_main_v1 (F := Ideal) (m ((c.tc : Thread nD τ).loc main_arg1)) := (B2_of_B1 m c main_v1 (by decide)).trans (src1 m c)
theorem B2_dst : B2 m c (Proc.devRef .tc main_v3) = Cert.ReferenceIdeal.Read.val_main_v3 (F := Ideal) (m ((c.tc : Thread nD τ).loc main_arg1)) := (B2_of_B1 m c main_v3 (by decide)).trans (dst1 m c)
theorem B2_coef : B2 m c (Proc.devRef .tc main_v30) = Cert.ReferenceIdeal.Read.val_main_v29 (F := Ideal) (m ((c.tc : Thread nD τ).loc main_arg1)) := (B2_of_B1 m c main_v30 (by decide)).trans (coef1 m c)
theorem B2_self : B2 m c (Proc.devRef .tc main_v31) = Cert.ReferenceIdeal.Read.val_main_v43 (F := Ideal) (m ((c.tc : Thread nD τ).loc main_arg1)) := (B2_of_B1 m c main_v31 (by decide)).trans (self1 m c)
theorem B5_src : B5 m c (Proc.devRef .tc main_v1) = Cert.ReferenceIdeal.Read.val_main_v1 (F := Ideal) (m ((c.tc : Thread nD τ).loc main_arg1)) := (B5_of_B2 m c main_v1 (by decide) (by decide) (by decide)).trans (B2_src m c)
theorem B5_dst : B5 m c (Proc.devRef .tc main_v3) = Cert.ReferenceIdeal.Read.val_main_v3 (F := Ideal) (m ((c.tc : Thread nD τ).loc main_arg1)) := (B5_of_B2 m c main_v3 (by decide) (by decide) (by decide)).trans (B2_dst m c)
theorem B5_coef : B5 m c (Proc.devRef .tc main_v30) = Cert.ReferenceIdeal.Read.val_main_v29 (F := Ideal) (m ((c.tc : Thread nD τ).loc main_arg1)) := (B5_of_B2 m c main_v30 (by decide) (by decide) (by decide)).trans (B2_coef m c)
theorem B5_self : B5 m c (Proc.devRef .tc main_v31) = Cert.ReferenceIdeal.Read.val_main_v43 (F := Ideal) (m ((c.tc : Thread nD τ).loc main_arg1)) := (B5_of_B2 m c main_v31 (by decide) (by decide) (by decide)).trans (B2_self m c)
theorem B8_src : B8 m c (Proc.devRef .tc main_v1) = Cert.ReferenceIdeal.Read.val_main_v1 (F := Ideal) (m ((c.tc : Thread nD τ).loc main_arg1)) := (B8_of_B5 m c main_v1 (by decide) (by decide) (by decide)).trans (B5_src m c)
theorem B8_dst : B8 m c (Proc.devRef .tc main_v3) = Cert.ReferenceIdeal.Read.val_main_v3 (F := Ideal) (m ((c.tc : Thread nD τ).loc main_arg1)) := (B8_of_B5 m c main_v3 (by decide) (by decide) (by decide)).trans (B5_dst m c)
theorem B8_coef : B8 m c (Proc.devRef .tc main_v30) = Cert.ReferenceIdeal.Read.val_main_v29 (F := Ideal) (m ((c.tc : Thread nD τ).loc main_arg1)) := (B8_of_B5 m c main_v30 (by decide) (by decide) (by decide)).trans (B5_coef m c)
theorem B8_self : B8 m c (Proc.devRef .tc main_v31) = Cert.ReferenceIdeal.Read.val_main_v43 (F := Ideal) (m ((c.tc : Thread nD τ).loc main_arg1)) := (B8_of_B5 m c main_v31 (by decide) (by decide) (by decide)).trans (B5_self m c)

/-- The second and third weight matrices where their products read them. -/
theorem B4_w2 : (B4 m c (Proc.devRef .tc main_v33) : S256x256.Idx → EReal) = (m ((c.tc : Thread nD τ).loc main_arg9)) :=
  ((B4_of_B2 m c main_v33 (by decide) (by decide)).trans (B2_of_B1 m c main_v33 (by decide))).trans (w2b m c)
theorem B7_w3 : (B7 m c (Proc.devRef .tc main_v34) : S256x128.Idx → EReal) = (m ((c.tc : Thread nD τ).loc main_arg15)) :=
  ((B7_of_B5 m c main_v34 (by decide) (by decide)).trans ((B5_of_B2 m c main_v34 (by decide) (by decide) (by decide)).trans (B2_of_B1 m c main_v34 (by decide)))).trans (w3b m c)

/-! ## An argument of @main where a later item reads it -/

theorem B2_arg (b : Ref sig .tc) (h0 : b ∉ hostOps0_W) (h35 : b ≠ main_v35) : B2 m c (Proc.devRef .tc b) = m (c, (Proc.devRef .tc b)) :=
  (B2_of_B1 m c b h35).trans (B1_of m c b h0)
theorem B5_arg (b : Ref sig .tc) (h0 : b ∉ hostOps0_W) (h35 : b ≠ main_v35) (h1 : b ∉ hostOps1_W) (h58 : b ≠ main_v58) (h59 : b ≠ main_v59) :
    B5 m c (Proc.devRef .tc b) = m (c, (Proc.devRef .tc b)) := (B5_of_B2 m c b h1 h58 h59).trans (B2_arg m c b h0 h35)
theorem B8_arg (b : Ref sig .tc) (h0 : b ∉ hostOps0_W) (h35 : b ≠ main_v35) (h1 : b ∉ hostOps1_W) (h58 : b ≠ main_v58) (h59 : b ≠ main_v59)
    (h3 : b ∉ hostOps3_W) (h82 : b ≠ main_v82) (h83 : b ≠ main_v83) : B8 m c (Proc.devRef .tc b) = m (c, (Proc.devRef .tc b)) :=
  (B8_of_B5 m c b h3 h82 h83).trans (B5_arg m c b h0 h35 h1 h58 h59)
theorem B10_arg (b : Ref sig .tc) (h0 : b ∉ hostOps0_W) (h35 : b ≠ main_v35) (h1 : b ∉ hostOps1_W) (h58 : b ≠ main_v58) (h59 : b ≠ main_v59)
    (h3 : b ∉ hostOps3_W) (h82 : b ≠ main_v82) (h83 : b ≠ main_v83) (h5 : b ∉ hostOps5_W) (h102 : b ≠ main_v102) : B10 m c (Proc.devRef .tc b) = m (c, (Proc.devRef .tc b)) :=
  (B10_keep m c b h102).trans <| (B9_of_B8 m c b h5).trans (B8_arg m c b h0 h35 h1 h58 h59 h3 h82 h83)

end Cert.KernelIdeal.Hand

end
-- ==== Proof.Val.Mm0.lean ====
/-
  The value of region 0 of the kernel program at the ideal instance, where a float is an extended real, every
  operation is exact and a change of float format is the identity. Each grid point multiplies one block of 2000
  rows of the left array by the whole weight array into a zero accumulator, so the block it writes back is
  rows 2000 t … 2000 t + 1999 of the product of the two whole arrays: the sum over the contracted axis at an
  index of the block is the same sum at the index of the array it sits at. The 25 blocks tile the output array
  (row r is in the block of point r / 2000), so the array the region leaves is the product of the two arrays it
  is entered with, which is the host's dot_general on them.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import proofs.«425873_j26182120636599_1_alg».proof.Proof.KI.Reg0
import proofs.«425873_j26182120636599_1_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Mm0

open Idealize.ShloMosaic.ValueIdx

/-- The zero offsets, however they are spelt. -/
theorem hz : (![0, 0] : Fin 2 → Nat) = fun _ => 0 := funext fun a => by fin_cases a <;> rfl

/-! ## The block product at an index: the sum over the contracted axis -/

theorem lhs_blk_0 (i : S2000x256.Idx) (q : dot_S2000x768_S768x256_S2000x256_1_0_0_1_n_n.contr.Idx) :
    (dot_S2000x768_S768x256_S2000x256_1_0_0_1_n_n.lhsIdx i q 0).val = (i 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl
theorem lhs_blk_1 (i : S2000x256.Idx) (q : dot_S2000x768_S768x256_S2000x256_1_0_0_1_n_n.contr.Idx) :
    (dot_S2000x768_S768x256_S2000x256_1_0_0_1_n_n.lhsIdx i q 1).val = (q ⟨0, by decide⟩).val :=
  dot_S2000x768_S768x256_S2000x256_1_0_0_1_n_n.lhsIdx_val_of_single rfl i q
theorem rhs_blk_0 (i : S2000x256.Idx) (q : dot_S2000x768_S768x256_S2000x256_1_0_0_1_n_n.contr.Idx) :
    (dot_S2000x768_S768x256_S2000x256_1_0_0_1_n_n.rhsIdx i q 0).val = (q ⟨0, by decide⟩).val :=
  dot_S2000x768_S768x256_S2000x256_1_0_0_1_n_n.rhsIdx_val_of_single rfl i q
theorem rhs_blk_1 (i : S2000x256.Idx) (q : dot_S2000x768_S768x256_S2000x256_1_0_0_1_n_n.contr.Idx) :
    (dot_S2000x768_S768x256_S2000x256_1_0_0_1_n_n.rhsIdx i q 1).val = (i 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-- Row `i 0` of the row block, at the contracted coordinate `k`. -/
abbrev lblk (i : S2000x256.Idx) (k : Fin 768) : S2000x768.Idx := fun a => match a with
  | ⟨0, _⟩ => ⟨(i 0).val, (i 0).isLt⟩
  | ⟨1, _⟩ => ⟨k.val, k.isLt⟩
/-- Column `i 1` of the weights, at the contracted coordinate `k`. -/
abbrev rblk (i : S2000x256.Idx) (k : Fin 768) : S768x256.Idx := fun a => match a with
  | ⟨0, _⟩ => ⟨k.val, k.isLt⟩
  | ⟨1, _⟩ => ⟨(i 1).val, (i 1).isLt⟩

/-- The block's product into a zero accumulator, at an index: the sum over the contracted axis. -/
theorem matmul_blk (x : FVec Ideal S2000x768 .bf16) (w : FVec Ideal S768x256 .bf16) (i : S2000x256.Idx) :
    matmul (F := Ideal) dot_S2000x768_S768x256_S2000x256_1_0_0_1_n_n none x w (constant (F := Ideal) S2000x256 .f32 0x00000000#32) i
      = ∑ k : Fin 768, x (lblk i k) * w (rblk i k) := by
  show FloatOps.matmul dot_S2000x768_S768x256_S2000x256_1_0_0_1_n_n none x w (constant (F := Ideal) S2000x256 .f32 0x00000000#32) i = _
  rw [Ideal.matmul_constant_zero_apply, ← Equiv.sum_comp (ValueIdx.contrEquiv1 dot_S2000x768_S768x256_S2000x256_1_0_0_1_n_n 768 rfl rfl).symm]
  refine Finset.sum_congr rfl fun k _ => ?_
  have hk := ValueIdx.contrEquiv1_symm_val dot_S2000x768_S768x256_S2000x256_1_0_0_1_n_n 768 rfl rfl k
  have el : dot_S2000x768_S768x256_S2000x256_1_0_0_1_n_n.lhsIdx i ((ValueIdx.contrEquiv1 dot_S2000x768_S768x256_S2000x256_1_0_0_1_n_n 768 rfl rfl).symm k) = lblk i k := funext fun a => Fin.ext (by
    match a with
    | ⟨0, _⟩ => exact lhs_blk_0 _ _
    | ⟨1, _⟩ => exact (lhs_blk_1 _ _).trans hk)
  have er : dot_S2000x768_S768x256_S2000x256_1_0_0_1_n_n.rhsIdx i ((ValueIdx.contrEquiv1 dot_S2000x768_S768x256_S2000x256_1_0_0_1_n_n 768 rfl rfl).symm k) = rblk i k := funext fun a => Fin.ext (by
    match a with
    | ⟨0, _⟩ => exact (rhs_blk_0 _ _).trans hk
    | ⟨1, _⟩ => exact rhs_blk_1 _ _)
  rw [el, er]

/-- The body's payload at an index: the rounding to the narrow format is the identity on extended reals, a cast to
    the same shape is the identity, and the product is the sum. -/
theorem pay_apply (x : Vec Ideal S2000x768 .f32) (w : Vec Ideal S768x256 .bf16) (i : S2000x256.Idx) :
    (k0_pay1 (F := Ideal) x w) i = ∑ k : Fin 768, x (lblk i k) * w (rblk i k) := by
  unfold k0_pay1
  simp only [shapeCast_self]
  exact matmul_blk _ _ i

end Mm0

namespace Mm0

/-! ## The whole-array product at an index -/

theorem lhs_arr_0 (i : S50000x256.Idx) (q : Cert.ReferenceIdeal.dot_S50000x768_S768x256_S50000x256_1_0_0_1_n_n.contr.Idx) :
    (Cert.ReferenceIdeal.dot_S50000x768_S768x256_S50000x256_1_0_0_1_n_n.lhsIdx i q 0).val = (i 0).val := by
  unfold DotDims.lhsIdx
  rw [dif_neg (show ¬(0 : Fin S50000x768.rank) ∈ Cert.ReferenceIdeal.dot_S50000x768_S768x256_S50000x256_1_0_0_1_n_n.lhsBatch by decide), dif_pos (show (0 : Fin S50000x768.rank) ∈ Cert.ReferenceIdeal.dot_S50000x768_S768x256_S50000x256_1_0_0_1_n_n.lhsNonContracting by decide)]
  rfl
theorem lhs_arr_1 (i : S50000x256.Idx) (q : Cert.ReferenceIdeal.dot_S50000x768_S768x256_S50000x256_1_0_0_1_n_n.contr.Idx) :
    (Cert.ReferenceIdeal.dot_S50000x768_S768x256_S50000x256_1_0_0_1_n_n.lhsIdx i q 1).val = (q ⟨0, by decide⟩).val :=
  Cert.ReferenceIdeal.dot_S50000x768_S768x256_S50000x256_1_0_0_1_n_n.lhsIdx_val_of_single rfl i q
theorem rhs_arr_0 (i : S50000x256.Idx) (q : Cert.ReferenceIdeal.dot_S50000x768_S768x256_S50000x256_1_0_0_1_n_n.contr.Idx) :
    (Cert.ReferenceIdeal.dot_S50000x768_S768x256_S50000x256_1_0_0_1_n_n.rhsIdx i q 0).val = (q ⟨0, by decide⟩).val :=
  Cert.ReferenceIdeal.dot_S50000x768_S768x256_S50000x256_1_0_0_1_n_n.rhsIdx_val_of_single rfl i q
theorem rhs_arr_1 (i : S50000x256.Idx) (q : Cert.ReferenceIdeal.dot_S50000x768_S768x256_S50000x256_1_0_0_1_n_n.contr.Idx) :
    (Cert.ReferenceIdeal.dot_S50000x768_S768x256_S50000x256_1_0_0_1_n_n.rhsIdx i q 1).val = (i 1).val := by
  unfold DotDims.rhsIdx
  rw [dif_neg (show ¬(1 : Fin S768x256.rank) ∈ Cert.ReferenceIdeal.dot_S50000x768_S768x256_S50000x256_1_0_0_1_n_n.rhsBatch by decide), dif_pos (show (1 : Fin S768x256.rank) ∈ Cert.ReferenceIdeal.dot_S50000x768_S768x256_S50000x256_1_0_0_1_n_n.rhsNonContracting by decide)]
  rfl

/-- Row `i 0` of the whole left array, at the contracted coordinate `k`. -/
abbrev larr (i : S50000x256.Idx) (k : Fin 768) : S50000x768.Idx := fun a => match a with
  | ⟨0, _⟩ => ⟨(i 0).val, (i 0).isLt⟩
  | ⟨1, _⟩ => ⟨k.val, k.isLt⟩
/-- Column `i 1` of the weights, at the contracted coordinate `k`. -/
abbrev rarr (i : S50000x256.Idx) (k : Fin 768) : S768x256.Idx := fun a => match a with
  | ⟨0, _⟩ => ⟨k.val, k.isLt⟩
  | ⟨1, _⟩ => ⟨(i 1).val, (i 1).isLt⟩

/-- The host's product of the whole arrays. -/
abbrev prod (a : FVec Ideal S50000x768 .f32) (w : FVec Ideal S768x256 .bf16) : FVec Ideal S50000x256 .f32 :=
  Host.dotGeneral (F := Ideal) Cert.ReferenceIdeal.dot_S50000x768_S768x256_S50000x256_1_0_0_1_n_n none a w

/-- It is, at an index, the sum over the contracted axis. -/
theorem prod_apply (a : FVec Ideal S50000x768 .f32) (w : FVec Ideal S768x256 .bf16) (i : S50000x256.Idx) :
    prod a w i = ∑ k : Fin 768, a (larr i k) * w (rarr i k) := by
  unfold prod
  simp only [Host.dotGeneral]
  rw [Ideal.dotGeneral_apply, ← Equiv.sum_comp (ValueIdx.contrEquiv1 Cert.ReferenceIdeal.dot_S50000x768_S768x256_S50000x256_1_0_0_1_n_n 768 rfl rfl).symm]
  refine Finset.sum_congr rfl fun k _ => ?_
  have hk := ValueIdx.contrEquiv1_symm_val Cert.ReferenceIdeal.dot_S50000x768_S768x256_S50000x256_1_0_0_1_n_n 768 rfl rfl k
  have el : Cert.ReferenceIdeal.dot_S50000x768_S768x256_S50000x256_1_0_0_1_n_n.lhsIdx i ((ValueIdx.contrEquiv1 Cert.ReferenceIdeal.dot_S50000x768_S768x256_S50000x256_1_0_0_1_n_n 768 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S50000x768_S768x256_S50000x256_1_0_0_1_n_n.rhsIdx i ((ValueIdx.contrEquiv1 Cert.ReferenceIdeal.dot_S50000x768_S768x256_S50000x256_1_0_0_1_n_n 768 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

/-- The printed index maps, decided over the grid: the row block and the output block move together down the rows,
    one block a point; the weights' block never moves; no block moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

end Mm0

namespace Mm0

variable (V : Vals Ideal)

/-- WHAT POINT `t` WRITES BACK is block `t` of the product of the whole arrays: its rows are the rows of the
    point's row block, and the weights' block is the whole weight array. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0
  rw [View.canon_unit_zero hz]
  simp only [View.ld_unit_zero (S := S2000x768) hz, View.ld_unit_zero (S := S768x256) hz]
  obtain ⟨e0, e1, e2, e3, e4, e5⟩ := idx_facts t
  funext j
  show k0_pay1 (F := Ideal) (iblk0 V c 0 t) (iblk0 V c 1 t) j
    = prod (V c (Pipeline.arrRef spec0 0)) (V c (Pipeline.arrRef spec0 1)) (((cfg0.win 2).blk t).view.emb j)
  refine (pay_apply (iblk0 V c 0 t) (iblk0 V c 1 t) j).trans (Eq.trans ?_ (prod_apply _ _ _).symm)
  refine Finset.sum_congr rfl fun k _ => ?_
  have h0 : ((cfg0.win 0).blk t).view.emb (lblk j k) = larr (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 768 + 1 * k.val = k.val; omega
  have h1 : ((cfg0.win 1).blk t).view.emb (rblk j k) = rarr (((cfg0.win 2).blk t).view.emb j) k := by
    funext a; apply Fin.ext
    match a with
    | ⟨0, _⟩ => show win0_1.index t (0 : Fin 2) * 768 + 1 * k.val = k.val; omega
    | ⟨1, _⟩ => show win0_1.index t (1 : Fin 2) * 256 + 1 * (j 1).val = win0_2.index t (1 : Fin 2) * 256 + 1 * (j 1).val; omega
  have p0 : iblk0 V c 0 t (lblk j k) = V c (Pipeline.arrRef spec0 0) (larr (((cfg0.win 2).blk t).view.emb j) k) := by
    show V c (Pipeline.arrRef spec0 0) (((cfg0.win 0).blk t).view.emb (lblk j k)) = _
    rw [h0]
  have p1 : iblk0 V c 1 t (rblk j k) = V c (Pipeline.arrRef spec0 1) (rarr (((cfg0.win 2).blk t).view.emb j) k) := by
    show V c (Pipeline.arrRef spec0 1) (((cfg0.win 1).blk t).view.emb (rblk j k)) = _
    rw [h1]
  rw [p0, p1]

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole (Pipeline.arrRef spec0 2)).slice (win0_2.rect t)).set ↔ _
  rw [View.set_slice_whole, Rect.mem_set_unit]
  exact Iff.rfl

/-- Every index of the array is in some point's block: row `r` is in the block of point `r / 2000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  obtain ⟨t, ht⟩ : ∃ t : Fin cfg0.N, t.val = (i 0).val / 2000 :=
    ⟨⟨(i 0).val / 2000, by show (i 0).val / 2000 < grid0.N; rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

end Mm0

/-- THE ARRAY the region leaves in its output window: the host's product of the two arrays it is entered with. -/
theorem arr0_eq (V : Vals Ideal) (c : Dev nD) :
    (dat0 V c).arrAt 2 cfg0.N = Host.dotGeneral (F := Ideal) (φ₁ := .f32) (φ₂ := .bf16) Cert.ReferenceIdeal.dot_S50000x768_S768x256_S50000x256_1_0_0_1_n_n none
      (V c (Pipeline.arrRef spec0 0) : FVec Ideal S50000x768 .f32) (V c (Pipeline.arrRef spec0 1) : FVec Ideal S768x256 .bf16) :=
  (dat0 V c).arrAt_eq_of_cover 2 (Mm0.prod (V c (Pipeline.arrRef spec0 0)) (V c (Pipeline.arrRef spec0 1)))
    (fun t _ => Mm0.flushed_eq V c t) Mm0.covered

end Cert.KernelIdeal.Hand

end
-- ==== Proof.Val.RefOps.lean ====
/-
  The two host computations of the reference program that the kernel program's pointwise regions are
  compared with, each spelt once as a function of its operands with the reference program's own operations,
  shape records and literals. `bnRelu`: to an array of 50000 rows of 256 a bias vector is added, a mean
  vector subtracted, the result scaled by the reciprocal square root of a variance vector plus a small
  constant and by a gain vector, shifted by an offset vector, and cut below at zero; a vector of 256 acts on
  every row alike (it is first made a single row, then repeated down the rows). `biasRows`: to an array of
  50000 rows of 128 a vector of 128 is added, row by row. Both hold at any float instance.
-/
import proofs.«425873_j26182120636599_1_alg».proof.ReferenceIdeal

noncomputable section

namespace Cert.RefOps

open Cert.ReferenceIdeal Idealize.ShloMosaic

variable {F : FTy → Type} [FloatOps F]

/-! ## The shape relations the broadcasts take (each decided from the literal shapes) -/

theorem bcast_S256_S1x256_1 : S256.BroadcastsInDim S1x256 (![1] : Fin 1 → Fin S1x256.rank) := by decide
theorem bcast_S1x256_S50000x256_0_1 : S1x256.BroadcastsInDim S50000x256 (![0, 1] : Fin 2 → Fin S50000x256.rank) := by decide
theorem bcast_S_S256 : S_.BroadcastsInDim S256 (![] : Fin 0 → Fin S256.rank) := by decide
theorem bcast_S_S50000x256 : S_.BroadcastsInDim S50000x256 (![] : Fin 0 → Fin S50000x256.rank) := by decide
theorem bcast_S128_S1x128_1 : S128.BroadcastsInDim S1x128 (![1] : Fin 1 → Fin S1x128.rank) := by decide
theorem bcast_S1x128_S50000x128_0_1 : S1x128.BroadcastsInDim S50000x128 (![0, 1] : Fin 2 → Fin S50000x128.rank) := by decide

/-- A vector of 256 as 50000 equal rows: first a single row, then that row repeated. -/
def rows256 (v : FVec F S256 .f32) : FVec F S50000x256 .f32 :=
  broadcastInDim S50000x256 ![0, 1] bcast_S1x256_S50000x256_0_1 (broadcastInDim S1x256 ![1] bcast_S256_S1x256_1 v)

/-- A vector of 128 as 50000 equal rows. -/
def rows128 (v : FVec F S128 .f32) : FVec F S50000x128 .f32 :=
  broadcastInDim S50000x128 ![0, 1] bcast_S1x128_S50000x128_0_1 (broadcastInDim S1x128 ![1] bcast_S128_S1x128_1 v)

/-- Bias, normalization with fixed statistics, and the cut at zero, on an array of 50000 rows of 256:
    `max (((a + b) - rm) * rsqrt (rv + ε) * g + be) 0`, the five vectors acting on every row alike and
    `ε` the single-precision constant nearest 1e-5. -/
def bnRelu (a : FVec F S50000x256 .f32) (b g be rm rv : FVec F S256 .f32) : FVec F S50000x256 .f32 :=
  maximumf
    (addf
      (mulf
        (mulf (subf (addf a (rows256 b)) (rows256 rm))
          (rows256 (Host.rsqrt (addf rv (broadcastInDim S256 ![] bcast_S_S256 (constant (F := F) S_ .f32 0x3727C5AC#32))))))
        (rows256 g))
      (rows256 be))
    (broadcastInDim S50000x256 ![] bcast_S_S50000x256 (constant (F := F) S_ .f32 0x00000000#32))

/-- A bias vector of 128 added to every row of an array of 50000 rows of 128. -/
def biasRows (a : FVec F S50000x128 .f32) (b : FVec F S128 .f32) : FVec F S50000x128 .f32 :=
  addf a (rows128 b)

end Cert.RefOps

end
-- ==== Proof.Val.BnRows.lean ====
/-
  Shared by the two normalization regions' value modules: the reference program's computation `bnRelu` read at
  an index (a vector of 256 repeated down the rows reads the vector at the column; the computation at row `r`,
  column `q` is one expression of the array's element there and the five vectors at `q`), and an array that
  is a vector of 256 laid out as a single row read at a column. The first two hold at any float instance.
-/
import proofs.«425873_j26182120636599_1_alg».proof.Proof.KI.Basic
import proofs.«425873_j26182120636599_1_alg».proof.Proof.Val.RefOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A vector of 256 repeated down 50000 rows reads, at row `r` and column `q`, the vector at `q`. -/
theorem rows256_apply {F : FTy → Type} [FloatOps F] (v : FVec F Cert.ReferenceIdeal.S256 .f32) (r : Fin 50000) (q : Fin 256) :
    Cert.RefOps.rows256 v (ix2 r q) = v (ix1 q) := by
  unfold Cert.RefOps.rows256
  rw [broadcastInDim_apply _ Cert.RefOps.bcast_S1x256_S50000x256_0_1 _ (ix2 r q) (ix2 (0 : Fin 1) q) (fun a => match a with
    | ⟨0, _⟩ => by show (0 : Nat) = if (1 : Nat) = 1 then 0 else r.val; rw [if_pos rfl]
    | ⟨1, _⟩ => by show q.val = if (256 : Nat) = 1 then 0 else q.val; rw [if_neg (by decide)])]
  exact broadcastInDim_apply _ Cert.RefOps.bcast_S256_S1x256_1 v (ix2 (0 : Fin 1) q) (ix1 q) (fun a => match a with
    | ⟨0, _⟩ => by show q.val = if (256 : Nat) = 1 then 0 else q.val; rw [if_neg (by decide)])

/-- The reference's computation at row `r`, column `q`:
    `max ((((a + b) - rm) * rsqrt (rv + ε)) * g + be) 0` of the array there and the five vectors at `q`, with the
    host's reciprocal square root. -/
theorem bnRelu_apply {F : FTy → Type} [FloatOps F] (a : FVec F Cert.ReferenceIdeal.S50000x256 .f32)
    (b g be rm rv : FVec F Cert.ReferenceIdeal.S256 .f32) (r : Fin 50000) (q : Fin 256) :
    Cert.RefOps.bnRelu a b g be rm rv (ix2 r q) =
      FloatOps.maximumf
        (FloatOps.addf
          (FloatOps.mulf
            (FloatOps.mulf
              (FloatOps.subf (FloatOps.addf (a (ix2 r q)) (b (ix1 q))) (rm (ix1 q)))
              (FloatOps.hostUnary .rsqrt (FloatOps.addf (rv (ix1 q)) (FloatOps.ofBits .f32 0x3727C5AC#32))))
            (g (ix1 q)))
          (be (ix1 q)))
        (FloatOps.ofBits .f32 0x00000000#32) := by
  unfold Cert.RefOps.bnRelu
  simp only [maximumf, addf, mulf, subf, Host.rsqrt, rows256_apply]
  rfl

/-- An array that is a vector of 256 laid out as one row reads, through an index map that keeps the row's
    indices, the vector at the column. -/
theorem row_of_vec (A : S1x256.Idx → EReal) (v : S256.Idx → EReal) (hA : A = shapeCast S1x256 v shapeCasts_S256_S1x256)
    (e : S1x256.Idx → S1x256.Idx) (he : ∀ q : Fin 256, e (ix2 (0 : Fin 1) q) = ix2 (0 : Fin 1) q) (q : Fin 256) :
    A (e (ix2 (0 : Fin 1) q)) = v (ix1 q) := by
  rw [he, hA]
  exact shapeCast_a_1a_apply v _ 0 q

/-- The offsets of a whole two-axis block are zero on both axes. -/
theorem offs00 : (![0, 0] : Fin 2 → Nat) = fun _ => 0 := funext fun a => by fin_cases a <;> rfl

end Cert.KernelIdeal.Hand

end
-- ==== Proof.Val.Bn1.lean ====
/-
  The array region 1 of the kernel program leaves, at the ideal instance: the array of 50000 rows of 256 it is
  entered with, put through bias, normalization with fixed statistics and the cut at zero, the five parameter
  vectors of 256 acting on every row alike. The body does this, at each grid point, to a block of 2000 rows
  with the five vectors held as single rows; read index by index the block written back at point `t` is block
  `t` of the whole array's computation, the blocks tile the array (row `r` lies in the block of point
  `r / 2000`), and so the array ends holding the reference program's own computation on the arrays the region
  finds.
-/
import proofs.«425873_j26182120636599_1_alg».proof.Proof.KI.Reg1
import proofs.«425873_j26182120636599_1_alg».proof.Proof.Val.BnRows
import proofs.«425873_j26182120636599_1_alg».proof.Proof.Val.RefOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The body's stored value at an index -/

/-- The body's stored value at row `r`, column `q` of the block, from the row block `x` and the five rows (bias,
    mean, variance, gain, offset, in the order the body reads them):
    `max ((((x + b) - rm) * rsqrt (rv + ε)) * g + be) 0`, each row read at column `q`. -/
theorem bn1_pay_apply {F : FTy → Type} [FloatOps F] (x : Vec F S2000x256 .f32) (b rm rv g be : Vec F S1x256 .f32)
    (r : Fin 2000) (q : Fin 256) :
    k1_pay1 x b rm rv g be (ix2 r q) =
      FloatOps.maximumf
        (FloatOps.addf
          (FloatOps.mulf
            (FloatOps.mulf
              (FloatOps.subf (FloatOps.addf (x (ix2 r q)) (b (ix2 (0 : Fin 1) q))) (rm (ix2 (0 : Fin 1) q)))
              (FloatOps.rsqrt (FloatOps.addf (rv (ix2 (0 : Fin 1) q)) (FloatOps.ofBits .f32 0x3727C5AC#32))))
            (g (ix2 (0 : Fin 1) q)))
          (be (ix2 (0 : Fin 1) q)))
        (FloatOps.ofBits .f32 0x00000000#32) := by
  unfold k1_pay1
  simp only [shapeCast_self]
  simp only [maximumf, addf, mulf, subf, rsqrt, broadcast, broadcastTo_1b_ab_apply]

/-- One element of a block against one element of the array, at the ideal instance: if the row block's element
    is the array's there, the columns agree, and each parameter row is its vector laid out as one row, the
    body's stored value is the reference's (the kernel's and the host's reciprocal square root are the same
    function of an extended real). -/
theorem bn1_point (a : FVec Ideal Cert.ReferenceIdeal.S50000x256 .f32) (b g be rm rv : FVec Ideal Cert.ReferenceIdeal.S256 .f32)
    (x0 : Vec Ideal S2000x256 .f32) (x1 x2 x3 x4 x5 : Vec Ideal S1x256 .f32) (j : S2000x256.Idx) (i : S50000x256.Idx)
    (hq : (i 1).val = (j 1).val) (hx : x0 j = a i)
    (h1 : ∀ q : Fin 256, x1 (ix2 (0 : Fin 1) q) = b (ix1 q)) (h2 : ∀ q : Fin 256, x2 (ix2 (0 : Fin 1) q) = g (ix1 q))
    (h3 : ∀ q : Fin 256, x3 (ix2 (0 : Fin 1) q) = be (ix1 q)) (h4 : ∀ q : Fin 256, x4 (ix2 (0 : Fin 1) q) = rm (ix1 q))
    (h5 : ∀ q : Fin 256, x5 (ix2 (0 : Fin 1) q) = rv (ix1 q)) :
    k1_pay1 x0 x1 x4 x5 x2 x3 j = Cert.RefOps.bnRelu a b g be rm rv i := by
  obtain ⟨r, q, rfl⟩ : ∃ (r : Fin 2000) (q : Fin 256), j = ix2 r q := ⟨j 0, j 1, eq_ix2 j⟩
  obtain ⟨r', q', rfl⟩ : ∃ (r' : Fin 50000) (q' : Fin 256), i = ix2 r' q' := ⟨i 0, i 1, eq_ix2 i⟩
  obtain rfl : q' = q := Fin.ext hq
  rw [bn1_pay_apply, bnRelu_apply, hx, h1, h2, h3, h4, h5]
  rfl

/-! ## From the blocks to the array -/

/-- The printed index maps, decided over the grid: the row block and the output block are block `t` of their
    arrays at point `t`; each parameter row is its whole array at every point. -/
theorem bn1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of rows is some point's. -/
theorem bn1_idx_onto : ∀ q0 : Fin 25, ∃ t : Fin cfg1.N, win1_6.index t = ![q0.val, 0] :=
  (by decide +kernel : ∀ q0 : Fin 25, ∃ t : Fin grid1.N, win1_6.index t = ![q0.val, 0])

/-- The row block at point `t`, at an index of the block, is the array it is cut from at the index the output
    block's place gives: input and output blocks sit at the same rows. -/
theorem bn1_blk0 (V : Vals Ideal) (c : Dev nD) (t : Fin cfg1.N) (j : S2000x256.Idx) :
    (iblk1 V c 0 t : Vec Ideal S2000x256 .f32) j = V c (Pipeline.arrRef spec1 0) (((cfg1.win 6).blk t).view.emb j) := by
  obtain ⟨e00, e01, e10, e11, e20, e21, e30, e31, e40, e41, e50, e51, e60, e61⟩ := bn1_idx_facts t
  show V c (Pipeline.arrRef spec1 0) (((cfg1.win 0).blk t).view.emb j) = V c (Pipeline.arrRef spec1 0) (((cfg1.win 6).blk t).view.emb j)
  refine congrArg _ (funext fun a => Fin.ext ?_)
  match a with
  | ⟨0, _⟩ => show win1_0.index t (0 : Fin 2) * 2000 + 1 * (j 0).val = win1_6.index t (0 : Fin 2) * 2000 + 1 * (j 0).val; omega
  | ⟨1, _⟩ => show win1_0.index t (1 : Fin 2) * 256 + 1 * (j 1).val = win1_6.index t (1 : Fin 2) * 256 + 1 * (j 1).val; omega

/-- The output block's place keeps the column. -/
theorem bn1_col (t : Fin cfg1.N) (j : S2000x256.Idx) : ((((cfg1.win 6).blk t).view.emb j) 1).val = (j 1).val := by
  obtain ⟨e00, e01, e10, e11, e20, e21, e30, e31, e40, e41, e50, e51, e60, e61⟩ := bn1_idx_facts t
  show win1_6.index t (1 : Fin 2) * 256 + 1 * (j 1).val = (j 1).val
  omega

/-- The second window's block at any point is its whole array: if that is a vector laid out as one row, the block
    reads the vector at the column. -/
theorem bn1_row1 (V : Vals Ideal) (c : Dev nD) (v : S256.Idx → EReal)
    (h : V c (Pipeline.arrRef spec1 1) = shapeCast S1x256 v shapeCasts_S256_S1x256) (t : Fin cfg1.N) (q : Fin 256) :
    (iblk1 V c 1 t : Vec Ideal S1x256 .f32) (ix2 (0 : Fin 1) q) = v (ix1 q) := by
  obtain ⟨e00, e01, e10, e11, e20, e21, e30, e31, e40, e41, e50, e51, e60, e61⟩ := bn1_idx_facts t
  refine row_of_vec _ v h (fun y => ((cfg1.win 1).blk t).view.emb y) (fun q => ?_) q
  funext a; apply Fin.ext
  match a with
  | ⟨0, _⟩ => show win1_1.index t (0 : Fin 2) * 1 + 1 * 0 = 0; omega
  | ⟨1, _⟩ => show win1_1.index t (1 : Fin 2) * 256 + 1 * q.val = q.val; omega

/-- The third window's block at any point is its whole array: if that is a vector laid out as one row, the block
    reads the vector at the column. -/
theorem bn1_row2 (V : Vals Ideal) (c : Dev nD) (v : S256.Idx → EReal)
    (h : V c (Pipeline.arrRef spec1 2) = shapeCast S1x256 v shapeCasts_S256_S1x256) (t : Fin cfg1.N) (q : Fin 256) :
    (iblk1 V c 2 t : Vec Ideal S1x256 .f32) (ix2 (0 : Fin 1) q) = v (ix1 q) := by
  obtain ⟨e00, e01, e10, e11, e20, e21, e30, e31, e40, e41, e50, e51, e60, e61⟩ := bn1_idx_facts t
  refine row_of_vec _ v h (fun y => ((cfg1.win 2).blk t).view.emb y) (fun q => ?_) q
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- The fourth window's block at any point is its whole array: if that is a vector laid out as one row, the block
    reads the vector at the column. -/
theorem bn1_row3 (V : Vals Ideal) (c : Dev nD) (v : S256.Idx → EReal)
    (h : V c (Pipeline.arrRef spec1 3) = shapeCast S1x256 v shapeCasts_S256_S1x256) (t : Fin cfg1.N) (q : Fin 256) :
    (iblk1 V c 3 t : Vec Ideal S1x256 .f32) (ix2 (0 : Fin 1) q) = v (ix1 q) := by
  obtain ⟨e00, e01, e10, e11, e20, e21, e30, e31, e40, e41, e50, e51, e60, e61⟩ := bn1_idx_facts t
  refine row_of_vec _ v h (fun y => ((cfg1.win 3).blk t).view.emb y) (fun q => ?_) q
  funext a; apply Fin.ext
  match a with
  | ⟨0, _⟩ => show win1_3.index t (0 : Fin 2) * 1 + 1 * 0 = 0; omega
  | ⟨1, _⟩ => show win1_3.index t (1 : Fin 2) * 256 + 1 * q.val = q.val; omega

/-- The fifth window's block at any point is its whole array: if that is a vector laid out as one row, the block
    reads the vector at the column. -/
theorem bn1_row4 (V : Vals Ideal) (c : Dev nD) (v : S256.Idx → EReal)
    (h : V c (Pipeline.arrRef spec1 4) = shapeCast S1x256 v shapeCasts_S256_S1x256) (t : Fin cfg1.N) (q : Fin 256) :
    (iblk1 V c 4 t : Vec Ideal S1x256 .f32) (ix2 (0 : Fin 1) q) = v (ix1 q) := by
  obtain ⟨e00, e01, e10, e11, e20, e21, e30, e31, e40, e41, e50, e51, e60, e61⟩ := bn1_idx_facts t
  refine row_of_vec _ v h (fun y => ((cfg1.win 4).blk t).view.emb y) (fun q => ?_) q
  funext a; apply Fin.ext
  match a with
  | ⟨0, _⟩ => show win1_4.index t (0 : Fin 2) * 1 + 1 * 0 = 0; omega
  | ⟨1, _⟩ => show win1_4.index t (1 : Fin 2) * 256 + 1 * q.val = q.val; omega

/-- The sixth window's block at any point is its whole array: if that is a vector laid out as one row, the block
    reads the vector at the column. -/
theorem bn1_row5 (V : Vals Ideal) (c : Dev nD) (v : S256.Idx → EReal)
    (h : V c (Pipeline.arrRef spec1 5) = shapeCast S1x256 v shapeCasts_S256_S1x256) (t : Fin cfg1.N) (q : Fin 256) :
    (iblk1 V c 5 t : Vec Ideal S1x256 .f32) (ix2 (0 : Fin 1) q) = v (ix1 q) := by
  obtain ⟨e00, e01, e10, e11, e20, e21, e30, e31, e40, e41, e50, e51, e60, e61⟩ := bn1_idx_facts t
  refine row_of_vec _ v h (fun y => ((cfg1.win 5).blk t).view.emb y) (fun q => ?_) q
  funext a; apply Fin.ext
  match a with
  | ⟨0, _⟩ => show win1_5.index t (0 : Fin 2) * 1 + 1 * 0 = 0; omega
  | ⟨1, _⟩ => show win1_5.index t (1 : Fin 2) * 256 + 1 * q.val = q.val; omega

/-- What point `t` writes back is block `t` of the reference's computation on the arrays the region finds. -/
theorem bn1_flushed_eq (V : Vals Ideal) (c : Dev nD) (b g be rm rv : S256.Idx → EReal)
    (hb : V c (Pipeline.arrRef spec1 1) = shapeCast S1x256 b shapeCasts_S256_S1x256) (hg : V c (Pipeline.arrRef spec1 2) = shapeCast S1x256 g shapeCasts_S256_S1x256)
    (hbe : V c (Pipeline.arrRef spec1 3) = shapeCast S1x256 be shapeCasts_S256_S1x256) (hrm : V c (Pipeline.arrRef spec1 4) = shapeCast S1x256 rm shapeCasts_S256_S1x256)
    (hrv : V c (Pipeline.arrRef spec1 5) = shapeCast S1x256 rv shapeCasts_S256_S1x256) (t : Fin cfg1.N) :
    (dat1 V c).flushed 6 t = ((cfg1.win 6).blk t).view.read (Elt Ideal)
      (Cert.RefOps.bnRelu (F := Ideal) (V c (Pipeline.arrRef spec1 0)) b g be rm rv) := by
  show (cfg1.win 6).cut (grid1.coords t) ((dat1 V c).after 6 t) = _
  rw [after1_6]
  unfold out1
  rw [View.canon_unit_zero offs00]
  simp only [View.ld_unit_zero (S := S2000x256) offs00, View.ld_unit_zero (S := S1x256) offs00]
  funext j
  exact bn1_point (V c (Pipeline.arrRef spec1 0)) b g be rm rv _ _ _ _ _ _ j (((cfg1.win 6).blk t).view.emb j)
    (bn1_col t j) (bn1_blk0 V c t j) (bn1_row1 V c b hb t) (bn1_row2 V c g hg t) (bn1_row3 V c be hbe t)
    (bn1_row4 V c rm hrm t) (bn1_row5 V c rv hrv t)

/-- An index of the array is in point `t`'s block iff each coordinate is in the block's range on its axis. -/
theorem bn1_mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v58).slice (win1_6.rect t)).set ↔ _
  rw [View.set_slice_whole, Rect.mem_set_unit]
  exact Iff.rfl

/-- Every row of the array is in the block of some point that writes back: row `r` in that of point `r / 2000`. -/
theorem bn1_cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := bn1_idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [bn1_mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The array the region leaves: the reference's computation on the arrays the region is entered with, the
    five parameter rows being the five vectors laid out as single rows. -/
theorem arr1_eq (V : Vals Ideal) (c : Dev nD) (b g be rm rv : S256.Idx → EReal)
    (hb : V c (Pipeline.arrRef spec1 1) = shapeCast S1x256 b shapeCasts_S256_S1x256) (hg : V c (Pipeline.arrRef spec1 2) = shapeCast S1x256 g shapeCasts_S256_S1x256)
    (hbe : V c (Pipeline.arrRef spec1 3) = shapeCast S1x256 be shapeCasts_S256_S1x256) (hrm : V c (Pipeline.arrRef spec1 4) = shapeCast S1x256 rm shapeCasts_S256_S1x256)
    (hrv : V c (Pipeline.arrRef spec1 5) = shapeCast S1x256 rv shapeCasts_S256_S1x256) :
    (dat1 V c).arrAt 6 cfg1.N = Cert.RefOps.bnRelu (F := Ideal) (V c (Pipeline.arrRef spec1 0)) b g be rm rv :=
  (dat1 V c).arrAt_eq_of_cover 6 _ (fun t _ => bn1_flushed_eq V c b g be rm rv hb hg hbe hrm hrv t) bn1_cover

end Cert.KernelIdeal.Hand

end
-- ==== Proof.Val.Stage1.lean ====
/-
  The first layer of the kernel program is the first layer of the reference, at the ideal instance, stage by
  stage: the dense product the first region leaves is the reference's product of the features with the first
  weight matrix; the aggregation stretch applies to it the same gather, scale, scatter-add and self term as the
  reference, with the same edge coefficients; the second region's bias, normalisation and rectifier is the
  reference's chain of elementwise operations with the parameter vectors broadcast along the rows.
-/
import proofs.«425873_j26182120636599_1_alg».proof.Proof.Val.Keep
import proofs.«425873_j26182120636599_1_alg».proof.Proof.Val.Mm0
import proofs.«425873_j26182120636599_1_alg».proof.Proof.Val.Bn1
import proofs.«425873_j26182120636599_1_alg».proof.Proof.Val.RefOps
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The first dense product. -/
theorem h1_eq : B2 m c (Proc.devRef .tc main_v35) = Cert.ReferenceIdeal.Read.val_main_v4 (F := Ideal) (m ((c.tc : Thread nD τ).loc main_arg0)) (m ((c.tc : Thread nD τ).loc main_arg3)) := by
  refine (B2_arr m c 2).trans ((arr0_eq (E1 m) c).trans ?_)
  show Host.dotGeneral (F := Ideal) (φ₁ := .f32) (φ₂ := .bf16) Cert.ReferenceIdeal.dot_S50000x768_S768x256_S50000x256_1_0_0_1_n_n none
      (B1 m c (Proc.devRef .tc main_arg0)) (B1 m c (Proc.devRef .tc main_v32)) = _
  rw [B1_of m c main_arg0 (by decide), w1b m c]
  rfl

/-- The first aggregation: per edge the source's row scaled by the edge's coefficient, summed into the target's
    row, plus each node's own row scaled by the inverse of its degree. -/
theorem agg1_eq : B3 m c (Proc.devRef .tc main_v52) = Cert.ReferenceIdeal.Read.val_main_v47 (F := Ideal) (m ((c.tc : Thread nD τ).loc main_arg0)) (m ((c.tc : Thread nD τ).loc main_arg1)) (m ((c.tc : Thread nD τ).loc main_arg3)) := by
  show StableHlo.after hostOps1 (B2 m c) (Proc.devRef .tc main_v52) = _
  after_results_simp
  rw [B2_src m c, B2_dst m c, B2_coef m c, B2_self m c, h1_eq m c]
  rfl

/-- The five parameter vectors of the first normalisation, each as a single row. -/
theorem p1_b : E3 m c (Pipeline.arrRef spec1 1) = shapeCast S1x256 (m ((c.tc : Thread nD τ).loc main_arg4)) shapeCasts_S256_S1x256 := by
  show StableHlo.after hostOps1 (B2 m c) (Proc.devRef .tc main_v53) = _
  after_results_simp
  rw [B2_arg m c main_arg4 (by decide) (by decide)]
  rfl
theorem p1_g : E3 m c (Pipeline.arrRef spec1 2) = shapeCast S1x256 (m ((c.tc : Thread nD τ).loc main_arg5)) shapeCasts_S256_S1x256 := by
  show StableHlo.after hostOps1 (B2 m c) (Proc.devRef .tc main_v54) = _
  after_results_simp
  rw [B2_arg m c main_arg5 (by decide) (by decide)]
  rfl
theorem p1_be : E3 m c (Pipeline.arrRef spec1 3) = shapeCast S1x256 (m ((c.tc : Thread nD τ).loc main_arg6)) shapeCasts_S256_S1x256 := by
  show StableHlo.after hostOps1 (B2 m c) (Proc.devRef .tc main_v55) = _
  after_results_simp
  rw [B2_arg m c main_arg6 (by decide) (by decide)]
  rfl
theorem p1_rm : E3 m c (Pipeline.arrRef spec1 4) = shapeCast S1x256 (m ((c.tc : Thread nD τ).loc main_arg7)) shapeCasts_S256_S1x256 := by
  show StableHlo.after hostOps1 (B2 m c) (Proc.devRef .tc main_v56) = _
  after_results_simp
  rw [B2_arg m c main_arg7 (by decide) (by decide)]
  rfl
theorem p1_rv : E3 m c (Pipeline.arrRef spec1 5) = shapeCast S1x256 (m ((c.tc : Thread nD τ).loc main_arg8)) shapeCasts_S256_S1x256 := by
  show StableHlo.after hostOps1 (B2 m c) (Proc.devRef .tc main_v57) = _
  after_results_simp
  rw [B2_arg m c main_arg8 (by decide) (by decide)]
  rfl

/-- The first layer's output: bias, normalisation with fixed statistics, cut at zero. -/
theorem out1_eq : B4 m c (Proc.devRef .tc main_v58) = Cert.ReferenceIdeal.Read.val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (B4_arr m c 6).trans ((arr1_eq (E3 m) c _ _ _ _ _ (p1_b m c) (p1_g m c) (p1_be m c) (p1_rm m c) (p1_rv m c)).trans ?_)
  show Cert.RefOps.bnRelu (F := Ideal) (B3 m c (Proc.devRef .tc main_v52)) _ _ _ _ _ = _
  rw [agg1_eq m c]
  rfl

end Cert.KernelIdeal.Hand

end
-- ==== Proof.Val.Mm2.lean ====
/-
  The value of region 2 of the kernel program at the ideal instance, where a float is an extended real, every operation is exact and a change of float format is the identity. Each grid point multiplies one block of 2000 rows of the first hidden activations by the whole second weight array into a zero accumulator, so the block it writes back is the same rows of the product of the two whole arrays; the 25 blocks tile the output array (row r is in the block of point r / 2000), so the array the region leaves is the product of the two arrays it is entered with, which is dot_general of the host program on them. As for region 0, with the sizes of this layer.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import proofs.«425873_j26182120636599_1_alg».proof.Proof.KI.Reg2
import proofs.«425873_j26182120636599_1_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Mm2

open Idealize.ShloMosaic.ValueIdx

/-- The zero offsets, however they are spelt. -/
theorem hz : (![0, 0] : Fin 2 → Nat) = fun _ => 0 := funext fun a => by fin_cases a <;> rfl

/-! ## The block product at an index: the sum over the contracted axis -/

theorem lhs_blk_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blk_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blk_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blk_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Row `i 0` of the row block, at the contracted coordinate `k`. -/
abbrev lblk (i : S2000x256.Idx) (k : Fin 256) : S2000x256.Idx := fun a => match a with
  | ⟨0, _⟩ => ⟨(i 0).val, (i 0).isLt⟩
  | ⟨1, _⟩ => ⟨k.val, k.isLt⟩
/-- Column `i 1` of the weights, at the contracted coordinate `k`. -/
abbrev rblk (i : S2000x256.Idx) (k : Fin 256) : S256x256.Idx := fun a => match a with
  | ⟨0, _⟩ => ⟨k.val, k.isLt⟩
  | ⟨1, _⟩ => ⟨(i 1).val, (i 1).isLt⟩

/-- The block's product into a zero accumulator, at an index: the sum over the contracted axis. -/
theorem matmul_blk (x : FVec Ideal S2000x256 .bf16) (w : FVec Ideal S256x256 .bf16) (i : S2000x256.Idx) :
    matmul (F := Ideal) dot_S2000x256_S256x256_S2000x256_1_0_0_1_n_n none x w (constant (F := Ideal) S2000x256 .f32 0x00000000#32) i
      = ∑ k : Fin 256, x (lblk i k) * w (rblk i k) := by
  show FloatOps.matmul dot_S2000x256_S256x256_S2000x256_1_0_0_1_n_n none x w (constant (F := Ideal) S2000x256 .f32 0x00000000#32) i = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx i ((ValueIdx.contrEquiv1 dot_S2000x256_S256x256_S2000x256_1_0_0_1_n_n 256 rfl rfl).symm k) = lblk i k := funext fun a => Fin.ext (by
    match a with
    | ⟨0, _⟩ => exact lhs_blk_0 _ _
    | ⟨1, _⟩ => exact (lhs_blk_1 _ _).trans hk)
  have er : dot_S2000x256_S256x256_S2000x256_1_0_0_1_n_n.rhsIdx i ((ValueIdx.contrEquiv1 dot_S2000x256_S256x256_S2000x256_1_0_0_1_n_n 256 rfl rfl).symm k) = rblk i k := funext fun a => Fin.ext (by
    match a with
    | ⟨0, _⟩ => exact (rhs_blk_0 _ _).trans hk
    | ⟨1, _⟩ => exact rhs_blk_1 _ _)
  rw [el, er]

/-- The body's payload at an index: the rounding to the narrow format is the identity on extended reals, a cast to
    the same shape is the identity, and the product is the sum. -/
theorem pay_apply (x : Vec Ideal S2000x256 .f32) (w : Vec Ideal S256x256 .bf16) (i : S2000x256.Idx) :
    (k2_pay1 (F := Ideal) x w) i = ∑ k : Fin 256, x (lblk i k) * w (rblk i k) := by
  unfold k2_pay1
  simp only [shapeCast_self]
  exact matmul_blk _ _ i

end Mm2

namespace Mm2

/-! ## The whole-array product at an index -/

theorem lhs_arr_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arr_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arr_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arr_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Row `i 0` of the whole left array, at the contracted coordinate `k`. -/
abbrev larr (i : S50000x256.Idx) (k : Fin 256) : S50000x256.Idx := fun a => match a with
  | ⟨0, _⟩ => ⟨(i 0).val, (i 0).isLt⟩
  | ⟨1, _⟩ => ⟨k.val, k.isLt⟩
/-- Column `i 1` of the weights, at the contracted coordinate `k`. -/
abbrev rarr (i : S50000x256.Idx) (k : Fin 256) : S256x256.Idx := fun a => match a with
  | ⟨0, _⟩ => ⟨k.val, k.isLt⟩
  | ⟨1, _⟩ => ⟨(i 1).val, (i 1).isLt⟩

/-- The host's product of the whole arrays. -/
abbrev prod (a : FVec Ideal S50000x256 .f32) (w : FVec Ideal S256x256 .bf16) : FVec Ideal S50000x256 .f32 :=
  Host.dotGeneral (F := Ideal) Cert.ReferenceIdeal.dot_S50000x256_S256x256_S50000x256_1_0_0_1_n_n none a w

/-- It is, at an index, the sum over the contracted axis. -/
theorem prod_apply (a : FVec Ideal S50000x256 .f32) (w : FVec Ideal S256x256 .bf16) (i : S50000x256.Idx) :
    prod a w i = ∑ k : Fin 256, a (larr i k) * w (rarr i k) := by
  unfold prod
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx i ((ValueIdx.contrEquiv1 Cert.ReferenceIdeal.dot_S50000x256_S256x256_S50000x256_1_0_0_1_n_n 256 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S50000x256_S256x256_S50000x256_1_0_0_1_n_n.rhsIdx i ((ValueIdx.contrEquiv1 Cert.ReferenceIdeal.dot_S50000x256_S256x256_S50000x256_1_0_0_1_n_n 256 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

/-- The printed index maps, decided over the grid: the row block and the output block move together down the rows,
    one block a point; the weights' block never moves; no block moves along the columns. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

end Mm2

namespace Mm2

variable (V : Vals Ideal)

/-- WHAT POINT `t` WRITES BACK is block `t` of the product of the whole arrays: its rows are the rows of the
    point's row block, and the weights' block is the whole weight array. -/
theorem flushed_eq (c : Dev nD) (t : Fin cfg2.N) :
    (dat2 V c).flushed 2 t = ((cfg2.win 2).blk t).view.read (Elt Ideal)
      (prod (V c (Pipeline.arrRef spec2 0)) (V c (Pipeline.arrRef spec2 1))) := by
  show (cfg2.win 2).cut (grid2.coords t) ((dat2 V c).after 2 t) = _
  rw [after2_2]
  unfold out2
  rw [View.canon_unit_zero hz]
  simp only [View.ld_unit_zero (S := S2000x256) hz, View.ld_unit_zero (S := S256x256) hz]
  obtain ⟨e0, e1, e2, e3, e4, e5⟩ := idx_facts t
  funext j
  show k2_pay1 (F := Ideal) (iblk2 V c 0 t) (iblk2 V c 1 t) j
    = prod (V c (Pipeline.arrRef spec2 0)) (V c (Pipeline.arrRef spec2 1)) (((cfg2.win 2).blk t).view.emb j)
  refine (pay_apply (iblk2 V c 0 t) (iblk2 V c 1 t) j).trans (Eq.trans ?_ (prod_apply _ _ _).symm)
  refine Finset.sum_congr rfl fun k _ => ?_
  have h0 : ((cfg2.win 0).blk t).view.emb (lblk j k) = larr (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have h1 : ((cfg2.win 1).blk t).view.emb (rblk j k) = rarr (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  have p0 : iblk2 V c 0 t (lblk j k) = V c (Pipeline.arrRef spec2 0) (larr (((cfg2.win 2).blk t).view.emb j) k) := by
    show V c (Pipeline.arrRef spec2 0) (((cfg2.win 0).blk t).view.emb (lblk j k)) = _
    rw [h0]
  have p1 : iblk2 V c 1 t (rblk j k) = V c (Pipeline.arrRef spec2 1) (rarr (((cfg2.win 2).blk t).view.emb j) k) := by
    show V c (Pipeline.arrRef spec2 1) (((cfg2.win 1).blk t).view.emb (rblk j k)) = _
    rw [h1]
  rw [p0, p1]

/-- An index of the array is in point `t`'s block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole (Pipeline.arrRef spec2 2)).slice (win2_2.rect t)).set ↔ _
  rw [View.set_slice_whole, Rect.mem_set_unit]
  exact Iff.rfl

/-- Every index of the array is in some point's block: row `r` is in the block of point `r / 2000`. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 25 := N_2
  obtain ⟨t, ht⟩ : ∃ t : Fin cfg2.N, t.val = (i 0).val / 2000 :=
    ⟨⟨(i 0).val / 2000, by show (i 0).val / 2000 < grid2.N; rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

end Mm2

/-- THE ARRAY the region leaves in its output window: the host's product of the two arrays it is entered with. -/
theorem arr2_eq (V : Vals Ideal) (c : Dev nD) :
    (dat2 V c).arrAt 2 cfg2.N = Host.dotGeneral (F := Ideal) (φ₁ := .f32) (φ₂ := .bf16) Cert.ReferenceIdeal.dot_S50000x256_S256x256_S50000x256_1_0_0_1_n_n none
      (V c (Pipeline.arrRef spec2 0) : FVec Ideal S50000x256 .f32) (V c (Pipeline.arrRef spec2 1) : FVec Ideal S256x256 .bf16) :=
  (dat2 V c).arrAt_eq_of_cover 2 (Mm2.prod (V c (Pipeline.arrRef spec2 0)) (V c (Pipeline.arrRef spec2 1)))
    (fun t _ => Mm2.flushed_eq V c t) Mm2.covered

end Cert.KernelIdeal.Hand

end
-- ==== Proof.Val.Bn3.lean ====
/-
  The array region 3 of the kernel program leaves, at the ideal instance: the array of 50000 rows of 256 it is entered with (the aggregated second-layer features), put through bias, normalization with fixed statistics and the cut at zero, the five parameter vectors of 256 acting on every row alike. The body does this, at each grid point, to a block of 2000 rows with the five vectors held as single rows; read index by index the block written back at point t is block t of the computation on the whole array, the blocks tile the array (row r lies in the block of point r / 2000), and so the array ends holding the computation of the reference program on the arrays the region finds.
-/
import proofs.«425873_j26182120636599_1_alg».proof.Proof.KI.Reg3
import proofs.«425873_j26182120636599_1_alg».proof.Proof.Val.BnRows
import proofs.«425873_j26182120636599_1_alg».proof.Proof.Val.RefOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The body's stored value at an index -/

/-- The body's stored value at row `r`, column `q` of the block, from the row block `x` and the five rows (bias,
    mean, variance, gain, offset, in the order the body reads them):
    `max ((((x + b) - rm) * rsqrt (rv + ε)) * g + be) 0`, each row read at column `q`. -/
theorem bn3_pay_apply {F : FTy → Type} [FloatOps F] (x : Vec F S2000x256 .f32) (b rm rv g be : Vec F S1x256 .f32)
    (r : Fin 2000) (q : Fin 256) :
    k3_pay1 x b rm rv g be (ix2 r q) =
      FloatOps.maximumf
        (FloatOps.addf
          (FloatOps.mulf
            (FloatOps.mulf
              (FloatOps.subf (FloatOps.addf (x (ix2 r q)) (b (ix2 (0 : Fin 1) q))) (rm (ix2 (0 : Fin 1) q)))
              (FloatOps.rsqrt (FloatOps.addf (rv (ix2 (0 : Fin 1) q)) (FloatOps.ofBits .f32 0x3727C5AC#32))))
            (g (ix2 (0 : Fin 1) q)))
          (be (ix2 (0 : Fin 1) q)))
        (FloatOps.ofBits .f32 0x00000000#32) := by
  unfold k3_pay1
  simp only [shapeCast_self]
  simp only [maximumf, addf, mulf, subf, rsqrt, broadcast, broadcastTo_1b_ab_apply]

/-- One element of a block against one element of the array, at the ideal instance: if the row block's element
    is the array's there, the columns agree, and each parameter row is its vector laid out as one row, the
    body's stored value is the reference's (the kernel's and the host's reciprocal square root are the same
    function of an extended real). -/
theorem bn3_point (a : FVec Ideal Cert.ReferenceIdeal.S50000x256 .f32) (b g be rm rv : FVec Ideal Cert.ReferenceIdeal.S256 .f32)
    (x0 : Vec Ideal S2000x256 .f32) (x1 x2 x3 x4 x5 : Vec Ideal S1x256 .f32) (j : S2000x256.Idx) (i : S50000x256.Idx)
    (hq : (i 1).val = (j 1).val) (hx : x0 j = a i)
    (h1 : ∀ q : Fin 256, x1 (ix2 (0 : Fin 1) q) = b (ix1 q)) (h2 : ∀ q : Fin 256, x2 (ix2 (0 : Fin 1) q) = g (ix1 q))
    (h3 : ∀ q : Fin 256, x3 (ix2 (0 : Fin 1) q) = be (ix1 q)) (h4 : ∀ q : Fin 256, x4 (ix2 (0 : Fin 1) q) = rm (ix1 q))
    (h5 : ∀ q : Fin 256, x5 (ix2 (0 : Fin 1) q) = rv (ix1 q)) :
    k3_pay1 x0 x1 x4 x5 x2 x3 j = Cert.RefOps.bnRelu a b g be rm rv i := by
  obtain ⟨r, q, rfl⟩ : ∃ (r : Fin 2000) (q : Fin 256), j = ix2 r q := ⟨j 0, j 1, eq_ix2 j⟩
  obtain ⟨r', q', rfl⟩ : ∃ (r' : Fin 50000) (q' : Fin 256), i = ix2 r' q' := ⟨i 0, i 1, eq_ix2 i⟩
  obtain rfl : q' = q := Fin.ext hq
  rw [bn3_pay_apply, bnRelu_apply, hx, h1, h2, h3, h4, h5]
  rfl

/-! ## From the blocks to the array -/

/-- The printed index maps, decided over the grid: the row block and the output block are block `t` of their
    arrays at point `t`; each parameter row is its whole array at every point. -/
theorem bn3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Every block of rows is some point's. -/
theorem bn3_idx_onto : ∀ q0 : Fin 25, ∃ t : Fin cfg3.N, win3_6.index t = ![q0.val, 0] :=
  (by decide +kernel : ∀ q0 : Fin 25, ∃ t : Fin grid3.N, win3_6.index t = ![q0.val, 0])

/-- The row block at point `t`, at an index of the block, is the array it is cut from at the index the output
    block's place gives: input and output blocks sit at the same rows. -/
theorem bn3_blk0 (V : Vals Ideal) (c : Dev nD) (t : Fin cfg3.N) (j : S2000x256.Idx) :
    (iblk3 V c 0 t : Vec Ideal S2000x256 .f32) j = V c (Pipeline.arrRef spec3 0) (((cfg3.win 6).blk t).view.emb j) := by
  obtain ⟨e00, e01, e10, e11, e20, e21, e30, e31, e40, e41, e50, e51, e60, e61⟩ := bn3_idx_facts t
  show V c (Pipeline.arrRef spec3 0) (((cfg3.win 0).blk t).view.emb j) = V c (Pipeline.arrRef spec3 0) (((cfg3.win 6).blk t).view.emb j)
  refine congrArg _ (funext fun a => Fin.ext ?_)
  match a with
  | ⟨0, _⟩ => show win3_0.index t (0 : Fin 2) * 2000 + 1 * (j 0).val = win3_6.index t (0 : Fin 2) * 2000 + 1 * (j 0).val; omega
  | ⟨1, _⟩ => show win3_0.index t (1 : Fin 2) * 256 + 1 * (j 1).val = win3_6.index t (1 : Fin 2) * 256 + 1 * (j 1).val; omega

/-- The output block's place keeps the column. -/
theorem bn3_col (t : Fin cfg3.N) (j : S2000x256.Idx) : ((((cfg3.win 6).blk t).view.emb j) 1).val = (j 1).val := by
  obtain ⟨e00, e01, e10, e11, e20, e21, e30, e31, e40, e41, e50, e51, e60, e61⟩ := bn3_idx_facts t
  show win3_6.index t (1 : Fin 2) * 256 + 1 * (j 1).val = (j 1).val
  omega

/-- The second window's block at any point is its whole array: if that is a vector laid out as one row, the block
    reads the vector at the column. -/
theorem bn3_row1 (V : Vals Ideal) (c : Dev nD) (v : S256.Idx → EReal)
    (h : V c (Pipeline.arrRef spec3 1) = shapeCast S1x256 v shapeCasts_S256_S1x256) (t : Fin cfg3.N) (q : Fin 256) :
    (iblk3 V c 1 t : Vec Ideal S1x256 .f32) (ix2 (0 : Fin 1) q) = v (ix1 q) := by
  obtain ⟨e00, e01, e10, e11, e20, e21, e30, e31, e40, e41, e50, e51, e60, e61⟩ := bn3_idx_facts t
  refine row_of_vec _ v h (fun y => ((cfg3.win 1).blk t).view.emb y) (fun q => ?_) q
  funext a; apply Fin.ext
  match a with
  | ⟨0, _⟩ => show win3_1.index t (0 : Fin 2) * 1 + 1 * 0 = 0; omega
  | ⟨1, _⟩ => show win3_1.index t (1 : Fin 2) * 256 + 1 * q.val = q.val; omega

/-- The third window's block at any point is its whole array: if that is a vector laid out as one row, the block
    reads the vector at the column. -/
theorem bn3_row2 (V : Vals Ideal) (c : Dev nD) (v : S256.Idx → EReal)
    (h : V c (Pipeline.arrRef spec3 2) = shapeCast S1x256 v shapeCasts_S256_S1x256) (t : Fin cfg3.N) (q : Fin 256) :
    (iblk3 V c 2 t : Vec Ideal S1x256 .f32) (ix2 (0 : Fin 1) q) = v (ix1 q) := by
  obtain ⟨e00, e01, e10, e11, e20, e21, e30, e31, e40, e41, e50, e51, e60, e61⟩ := bn3_idx_facts t
  refine row_of_vec _ v h (fun y => ((cfg3.win 2).blk t).view.emb y) (fun q => ?_) q
  funext a; apply Fin.ext
  match a with
  | ⟨0, _⟩ => show win3_2.index t (0 : Fin 2) * 1 + 1 * 0 = 0; omega
  | ⟨1, _⟩ => show win3_2.index t (1 : Fin 2) * 256 + 1 * q.val = q.val; omega

/-- The fourth window's block at any point is its whole array: if that is a vector laid out as one row, the block
    reads the vector at the column. -/
theorem bn3_row3 (V : Vals Ideal) (c : Dev nD) (v : S256.Idx → EReal)
    (h : V c (Pipeline.arrRef spec3 3) = shapeCast S1x256 v shapeCasts_S256_S1x256) (t : Fin cfg3.N) (q : Fin 256) :
    (iblk3 V c 3 t : Vec Ideal S1x256 .f32) (ix2 (0 : Fin 1) q) = v (ix1 q) := by
  obtain ⟨e00, e01, e10, e11, e20, e21, e30, e31, e40, e41, e50, e51, e60, e61⟩ := bn3_idx_facts t
  refine row_of_vec _ v h (fun y => ((cfg3.win 3).blk t).view.emb y) (fun q => ?_) q
  funext a; apply Fin.ext
  match a with
  | ⟨0, _⟩ => show win3_3.index t (0 : Fin 2) * 1 + 1 * 0 = 0; omega
  | ⟨1, _⟩ => show win3_3.index t (1 : Fin 2) * 256 + 1 * q.val = q.val; omega

/-- The fifth window's block at any point is its whole array: if that is a vector laid out as one row, the block
    reads the vector at the column. -/
theorem bn3_row4 (V : Vals Ideal) (c : Dev nD) (v : S256.Idx → EReal)
    (h : V c (Pipeline.arrRef spec3 4) = shapeCast S1x256 v shapeCasts_S256_S1x256) (t : Fin cfg3.N) (q : Fin 256) :
    (iblk3 V c 4 t : Vec Ideal S1x256 .f32) (ix2 (0 : Fin 1) q) = v (ix1 q) := by
  obtain ⟨e00, e01, e10, e11, e20, e21, e30, e31, e40, e41, e50, e51, e60, e61⟩ := bn3_idx_facts t
  refine row_of_vec _ v h (fun y => ((cfg3.win 4).blk t).view.emb y) (fun q => ?_) q
  funext a; apply Fin.ext
  match a with
  | ⟨0, _⟩ => show win3_4.index t (0 : Fin 2) * 1 + 1 * 0 = 0; omega
  | ⟨1, _⟩ => show win3_4.index t (1 : Fin 2) * 256 + 1 * q.val = q.val; omega

/-- The sixth window's block at any point is its whole array: if that is a vector laid out as one row, the block
    reads the vector at the column. -/
theorem bn3_row5 (V : Vals Ideal) (c : Dev nD) (v : S256.Idx → EReal)
    (h : V c (Pipeline.arrRef spec3 5) = shapeCast S1x256 v shapeCasts_S256_S1x256) (t : Fin cfg3.N) (q : Fin 256) :
    (iblk3 V c 5 t : Vec Ideal S1x256 .f32) (ix2 (0 : Fin 1) q) = v (ix1 q) := by
  obtain ⟨e00, e01, e10, e11, e20, e21, e30, e31, e40, e41, e50, e51, e60, e61⟩ := bn3_idx_facts t
  refine row_of_vec _ v h (fun y => ((cfg3.win 5).blk t).view.emb y) (fun q => ?_) q
  funext a; apply Fin.ext
  match a with
  | ⟨0, _⟩ => show win3_5.index t (0 : Fin 2) * 1 + 1 * 0 = 0; omega
  | ⟨1, _⟩ => show win3_5.index t (1 : Fin 2) * 256 + 1 * q.val = q.val; omega

/-- What point `t` writes back is block `t` of the reference's computation on the arrays the region finds. -/
theorem bn3_flushed_eq (V : Vals Ideal) (c : Dev nD) (b g be rm rv : S256.Idx → EReal)
    (hb : V c (Pipeline.arrRef spec3 1) = shapeCast S1x256 b shapeCasts_S256_S1x256) (hg : V c (Pipeline.arrRef spec3 2) = shapeCast S1x256 g shapeCasts_S256_S1x256)
    (hbe : V c (Pipeline.arrRef spec3 3) = shapeCast S1x256 be shapeCasts_S256_S1x256) (hrm : V c (Pipeline.arrRef spec3 4) = shapeCast S1x256 rm shapeCasts_S256_S1x256)
    (hrv : V c (Pipeline.arrRef spec3 5) = shapeCast S1x256 rv shapeCasts_S256_S1x256) (t : Fin cfg3.N) :
    (dat3 V c).flushed 6 t = ((cfg3.win 6).blk t).view.read (Elt Ideal)
      (Cert.RefOps.bnRelu (F := Ideal) (V c (Pipeline.arrRef spec3 0)) b g be rm rv) := by
  show (cfg3.win 6).cut (grid3.coords t) ((dat3 V c).after 6 t) = _
  rw [after3_6]
  unfold out3
  rw [View.canon_unit_zero offs00]
  simp only [View.ld_unit_zero (S := S2000x256) offs00, View.ld_unit_zero (S := S1x256) offs00]
  funext j
  exact bn3_point (V c (Pipeline.arrRef spec3 0)) b g be rm rv _ _ _ _ _ _ j (((cfg3.win 6).blk t).view.emb j)
    (bn3_col t j) (bn3_blk0 V c t j) (bn3_row1 V c b hb t) (bn3_row2 V c g hg t) (bn3_row3 V c be hbe t)
    (bn3_row4 V c rm hrm t) (bn3_row5 V c rv hrv t)

/-- An index of the array is in point `t`'s block iff each coordinate is in the block's range on its axis. -/
theorem bn3_mem_blk (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v82).slice (win3_6.rect t)).set ↔ _
  rw [View.set_slice_whole, Rect.mem_set_unit]
  exact Iff.rfl

/-- Every row of the array is in the block of some point that writes back: row `r` in that of point `r / 2000`. -/
theorem bn3_cover (i : S50000x256.Idx) : ∃ t : Fin cfg3.N, (cfg3.win 6).flush t = true ∧ i ∈ ((cfg3.win 6).blk t).view.set := by
  have hi0 : (i 0).val < 50000 := (i 0).isLt
  have hi1 : (i 1).val < 256 := (i 1).isLt
  obtain ⟨t, ht⟩ := bn3_idx_onto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [bn3_mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- The array the region leaves: the reference's computation on the arrays the region is entered with, the
    five parameter rows being the five vectors laid out as single rows. -/
theorem arr3_eq (V : Vals Ideal) (c : Dev nD) (b g be rm rv : S256.Idx → EReal)
    (hb : V c (Pipeline.arrRef spec3 1) = shapeCast S1x256 b shapeCasts_S256_S1x256) (hg : V c (Pipeline.arrRef spec3 2) = shapeCast S1x256 g shapeCasts_S256_S1x256)
    (hbe : V c (Pipeline.arrRef spec3 3) = shapeCast S1x256 be shapeCasts_S256_S1x256) (hrm : V c (Pipeline.arrRef spec3 4) = shapeCast S1x256 rm shapeCasts_S256_S1x256)
    (hrv : V c (Pipeline.arrRef spec3 5) = shapeCast S1x256 rv shapeCasts_S256_S1x256) :
    (dat3 V c).arrAt 6 cfg3.N = Cert.RefOps.bnRelu (F := Ideal) (V c (Pipeline.arrRef spec3 0)) b g be rm rv :=
  (dat3 V c).arrAt_eq_of_cover 6 _ (fun t _ => bn3_flushed_eq V c b g be rm rv hb hg hbe hrm hrv t) bn3_cover

end Cert.KernelIdeal.Hand

end
-- ==== Proof.Val.Stage2.lean ====
/-
  The second layer of the kernel program is the second layer of the reference, at the ideal instance: the dense
  product of the first layer's output with the second weight matrix, the aggregation with the same edge
  coefficients (the reference computes them again from the same edge list; they are the same vectors), and the
  bias, normalisation and rectifier with the second layer's parameter vectors.
-/
import proofs.«425873_j26182120636599_1_alg».proof.Proof.Val.Stage1
import proofs.«425873_j26182120636599_1_alg».proof.Proof.Val.Mm2
import proofs.«425873_j26182120636599_1_alg».proof.Proof.Val.Bn3
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The second dense product. -/
theorem h2_eq : B5 m c (Proc.devRef .tc main_v59) = Cert.ReferenceIdeal.Read.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (B5_arr m c 2).trans ((arr2_eq (E4 m) c).trans ?_)
  show Host.dotGeneral (F := Ideal) (φ₁ := .f32) (φ₂ := .bf16) Cert.ReferenceIdeal.dot_S50000x256_S256x256_S50000x256_1_0_0_1_n_n none
      (B4 m c (Proc.devRef .tc main_v58)) (B4 m c (Proc.devRef .tc main_v33)) = _
  rw [out1_eq m c, B4_w2 m c]
  rfl

/-- The second aggregation. -/
theorem agg2_eq : B6 m c (Proc.devRef .tc main_v76) = Cert.ReferenceIdeal.Read.val_main_v110 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps3 (B5 m c) (Proc.devRef .tc main_v76) = _
  after_results_simp
  rw [B5_src m c, B5_dst m c, B5_coef m c, B5_self m c, h2_eq m c]
  rfl

/-- The five parameter vectors of the second normalisation, each as a single row. -/
theorem p2_b : E6 m c (Pipeline.arrRef spec3 1) = shapeCast S1x256 (m ((c.tc : Thread nD τ).loc main_arg10)) shapeCasts_S256_S1x256 := by
  show StableHlo.after hostOps3 (B5 m c) (Proc.devRef .tc main_v77) = _
  after_results_simp
  rw [B5_arg m c main_arg10 (by decide) (by decide) (by decide) (by decide) (by decide)]
  rfl
theorem p2_g : E6 m c (Pipeline.arrRef spec3 2) = shapeCast S1x256 (m ((c.tc : Thread nD τ).loc main_arg11)) shapeCasts_S256_S1x256 := by
  show StableHlo.after hostOps3 (B5 m c) (Proc.devRef .tc main_v78) = _
  after_results_simp
  rw [B5_arg m c main_arg11 (by decide) (by decide) (by decide) (by decide) (by decide)]
  rfl
theorem p2_be : E6 m c (Pipeline.arrRef spec3 3) = shapeCast S1x256 (m ((c.tc : Thread nD τ).loc main_arg12)) shapeCasts_S256_S1x256 := by
  show StableHlo.after hostOps3 (B5 m c) (Proc.devRef .tc main_v79) = _
  after_results_simp
  rw [B5_arg m c main_arg12 (by decide) (by decide) (by decide) (by decide) (by decide)]
  rfl
theorem p2_rm : E6 m c (Pipeline.arrRef spec3 4) = shapeCast S1x256 (m ((c.tc : Thread nD τ).loc main_arg13)) shapeCasts_S256_S1x256 := by
  show StableHlo.after hostOps3 (B5 m c) (Proc.devRef .tc main_v80) = _
  after_results_simp
  rw [B5_arg m c main_arg13 (by decide) (by decide) (by decide) (by decide) (by decide)]
  rfl
theorem p2_rv : E6 m c (Pipeline.arrRef spec3 5) = shapeCast S1x256 (m ((c.tc : Thread nD τ).loc main_arg14)) shapeCasts_S256_S1x256 := by
  show StableHlo.after hostOps3 (B5 m c) (Proc.devRef .tc main_v81) = _
  after_results_simp
  rw [B5_arg m c main_arg14 (by decide) (by decide) (by decide) (by decide) (by decide)]
  rfl

/-- The second layer's output. -/
theorem out2_eq : B7 m c (Proc.devRef .tc main_v82) = Cert.ReferenceIdeal.Read.val_main_v129 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (B7_arr m c 6).trans ((arr3_eq (E6 m) c _ _ _ _ _ (p2_b m c) (p2_g m c) (p2_be m c) (p2_rm m c) (p2_rv m c)).trans ?_)
  show Cert.RefOps.bnRelu (F := Ideal) (B6 m c (Proc.devRef .tc main_v76)) _ _ _ _ _ = _
  rw [agg2_eq m c]
  rfl

end Cert.KernelIdeal.Hand

end
-- ==== Proof.Val.Mm4.lean ====
/-
  The value of region 4 of the kernel program at the ideal instance, where a float is an extended real, every operation is exact and a change of float format is the identity. Each grid point multiplies one block of 2000 rows of the second hidden activations by the whole third weight array into a zero accumulator, so the block it writes back is the same rows of the product of the two whole arrays; the 25 blocks tile the output array (row r is in the block of point r / 2000), so the array the region leaves is the product of the two arrays it is entered with, which is dot_general of the host program on them. As for region 0, with the sizes of this layer.
-/
import proofs.«425873_j26182120636599_1_alg».proof.Proof.Gen.KernelIdeal.Launch
import proofs.«425873_j26182120636599_1_alg».proof.Proof.Gen.KernelIdeal.Skeleton
import proofs.«425873_j26182120636599_1_alg».proof.Proof.Gen.KernelIdeal.Points
import proofs.«425873_j26182120636599_1_alg».proof.Proof.KI.Basic
import proofs.«425873_j26182120636599_1_alg».proof.Proof.KI.Reg4
import proofs.«425873_j26182120636599_1_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Mm4

open Idealize.ShloMosaic.ValueIdx

/-- The zero offsets, however they are spelt. -/
theorem hz : (![0, 0] : Fin 2 → Nat) = fun _ => 0 := funext fun a => by fin_cases a <;> rfl

/-! ## The block product at an index: the sum over the contracted axis -/

theorem lhs_blk_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_blk_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_blk_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_blk_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Row `i 0` of the row block, at the contracted coordinate `k`. -/
abbrev lblk (i : S2000x128.Idx) (k : Fin 256) : S2000x256.Idx := fun a => match a with
  | ⟨0, _⟩ => ⟨(i 0).val, (i 0).isLt⟩
  | ⟨1, _⟩ => ⟨k.val, k.isLt⟩
/-- Column `i 1` of the weights, at the contracted coordinate `k`. -/
abbrev rblk (i : S2000x128.Idx) (k : Fin 256) : S256x128.Idx := fun a => match a with
  | ⟨0, _⟩ => ⟨k.val, k.isLt⟩
  | ⟨1, _⟩ => ⟨(i 1).val, (i 1).isLt⟩

/-- The block's product into a zero accumulator, at an index: the sum over the contracted axis. -/
theorem matmul_blk (x : FVec Ideal S2000x256 .bf16) (w : FVec Ideal S256x128 .bf16) (i : S2000x128.Idx) :
    matmul (F := Ideal) dot_S2000x256_S256x128_S2000x128_1_0_0_1_n_n none x w (constant (F := Ideal) S2000x128 .f32 0x00000000#32) i
      = ∑ k : Fin 256, x (lblk i k) * w (rblk i k) := by
  show FloatOps.matmul dot_S2000x256_S256x128_S2000x128_1_0_0_1_n_n none x w (constant (F := Ideal) S2000x128 .f32 0x00000000#32) i = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx i ((ValueIdx.contrEquiv1 dot_S2000x256_S256x128_S2000x128_1_0_0_1_n_n 256 rfl rfl).symm k) = lblk i k := funext fun a => Fin.ext (by
    match a with
    | ⟨0, _⟩ => exact lhs_blk_0 _ _
    | ⟨1, _⟩ => exact (lhs_blk_1 _ _).trans hk)
  have er : dot_S2000x256_S256x128_S2000x128_1_0_0_1_n_n.rhsIdx i ((ValueIdx.contrEquiv1 dot_S2000x256_S256x128_S2000x128_1_0_0_1_n_n 256 rfl rfl).symm k) = rblk i k := funext fun a => Fin.ext (by
    match a with
    | ⟨0, _⟩ => exact (rhs_blk_0 _ _).trans hk
    | ⟨1, _⟩ => exact rhs_blk_1 _ _)
  rw [el, er]

/-- The body's payload at an index: the rounding to the narrow format is the identity on extended reals, a cast to
    the same shape is the identity, and the product is the sum. -/
theorem pay_apply (x : Vec Ideal S2000x256 .f32) (w : Vec Ideal S256x128 .bf16) (i : S2000x128.Idx) :
    (k4_pay1 (F := Ideal) x w) i = ∑ k : Fin 256, x (lblk i k) * w (rblk i k) := by
  unfold k4_pay1
  simp only [shapeCast_self]
  exact matmul_blk _ _ i

end Mm4

namespace Mm4

/-! ## The whole-array product at an index -/

theorem lhs_arr_0 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem lhs_arr_1 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rhs_arr_0 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rhs_arr_1 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- Row `i 0` of the whole left array, at the contracted coordinate `k`. -/
abbrev larr (i : S50000x128.Idx) (k : Fin 256) : S50000x256.Idx := fun a => match a with
  | ⟨0, _⟩ => ⟨(i 0).val, (i 0).isLt⟩
  | ⟨1, _⟩ => ⟨k.val, k.isLt⟩
/-- Column `i 1` of the weights, at the contracted coordinate `k`. -/
abbrev rarr (i : S50000x128.Idx) (k : Fin 256) : S256x128.Idx := fun a => match a with
  | ⟨0, _⟩ => ⟨k.val, k.isLt⟩
  | ⟨1, _⟩ => ⟨(i 1).val, (i 1).isLt⟩

/-- The host's product of the whole arrays. -/
abbrev prod (a : FVec Ideal S50000x256 .f32) (w : FVec Ideal S256x128 .bf16) : FVec Ideal S50000x128 .f32 :=
  Host.dotGeneral (F := Ideal) Cert.ReferenceIdeal.dot_S50000x256_S256x128_S50000x128_1_0_0_1_n_n none a w

/-- It is, at an index, the sum over the contracted axis. -/
theorem prod_apply (a : FVec Ideal S50000x256 .f32) (w : FVec Ideal S256x128 .bf16) (i : S50000x128.Idx) :
    prod a w i = ∑ k : Fin 256, a (larr i k) * w (rarr i k) := by
  unfold prod
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

/-- The printed index maps, decided over the grid: the row block and the output block move together down the rows,
    one block a point; the weights' block never moves; no block moves along the columns. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

end Mm4

namespace Mm4

variable (V : Vals Ideal)

/-- WHAT POINT `t` WRITES BACK is block `t` of the product of the whole arrays: its rows are the rows of the
    point's row block, and the weights' block is the whole weight array. -/
theorem flushed_eq (c : Dev nD) (t : Fin cfg4.N) :
    (dat4 V c).flushed 2 t = ((cfg4.win 2).blk t).view.read (Elt Ideal)
      (prod (V c (Pipeline.arrRef spec4 0)) (V c (Pipeline.arrRef spec4 1))) := by
  show (cfg4.win 2).cut (grid4.coords t) ((dat4 V c).after 2 t) = _
  rw [after4_2]
  unfold out4
  rw [View.canon_unit_zero hz]
  simp only [View.ld_unit_zero (S := S2000x256) hz, View.ld_unit_zero (S := S256x128) hz]
  obtain ⟨e0, e1, e2, e3, e4, e5⟩ := idx_facts t
  funext j
  show k4_pay1 (F := Ideal) (iblk4 V c 0 t) (iblk4 V c 1 t) j
    = prod (V c (Pipeline.arrRef spec4 0)) (V c (Pipeline.arrRef spec4 1)) (((cfg4.win 2).blk t).view.emb j)
  refine (pay_apply (iblk4 V c 0 t) (iblk4 V c 1 t) j).trans (Eq.trans ?_ (prod_apply _ _ _).symm)
  refine Finset.sum_congr rfl fun k _ => ?_
  have h0 : ((cfg4.win 0).blk t).view.emb (lblk j k) = larr (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  have h1 : ((cfg4.win 1).blk t).view.emb (rblk j k) = rarr (((cfg4.win 2).blk t).view.emb j) k := by
    funext a; apply Fin.ext
    match a with
    | ⟨0, _⟩ => show win4_1.index t (0 : Fin 2) * 256 + 1 * k.val = k.val; omega
    | ⟨1, _⟩ => show win4_1.index t (1 : Fin 2) * 128 + 1 * (j 1).val = win4_2.index t (1 : Fin 2) * 128 + 1 * (j 1).val; omega
  have p0 : iblk4 V c 0 t (lblk j k) = V c (Pipeline.arrRef spec4 0) (larr (((cfg4.win 2).blk t).view.emb j) k) := by
    show V c (Pipeline.arrRef spec4 0) (((cfg4.win 0).blk t).view.emb (lblk j k)) = _
    rw [h0]
  have p1 : iblk4 V c 1 t (rblk j k) = V c (Pipeline.arrRef spec4 1) (rarr (((cfg4.win 2).blk t).view.emb j) k) := by
    show V c (Pipeline.arrRef spec4 1) (((cfg4.win 1).blk t).view.emb (rblk j k)) = _
    rw [h1]
  rw [p0, p1]

/-- An index of the array is in point `t`'s block iff each coordinate is in the block's range on its axis. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- Every index of the array is in some point's block: row `r` is in the block of point `r / 2000`. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 25 := N_4
  obtain ⟨t, ht⟩ : ∃ t : Fin cfg4.N, t.val = (i 0).val / 2000 :=
    ⟨⟨(i 0).val / 2000, by show (i 0).val / 2000 < grid4.N; rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

end Mm4

/-- THE ARRAY the region leaves in its output window: the host's product of the two arrays it is entered with. -/
theorem arr4_eq (V : Vals Ideal) (c : Dev nD) :
    (dat4 V c).arrAt 2 cfg4.N = Host.dotGeneral (F := Ideal) (φ₁ := .f32) (φ₂ := .bf16) Cert.ReferenceIdeal.dot_S50000x256_S256x128_S50000x128_1_0_0_1_n_n none
      (V c (Pipeline.arrRef spec4 0) : FVec Ideal S50000x256 .f32) (V c (Pipeline.arrRef spec4 1) : FVec Ideal S256x128 .bf16) :=
  (dat4 V c).arrAt_eq_of_cover 2 (Mm4.prod (V c (Pipeline.arrRef spec4 0)) (V c (Pipeline.arrRef spec4 1)))
    (fun t _ => Mm4.flushed_eq V c t) Mm4.covered

end Cert.KernelIdeal.Hand

end
-- ==== Proof.Val.Bias5.lean ====
/-
  The array region 5 of the kernel program leaves, at the ideal instance: the array of 50000 rows of 128 it is
  entered with, with the bias vector of 128 added to every row. The body adds, at each grid point, the bias row
  to a block of 2000 rows; read index by index the block written back at point `t` is block `t` of the whole
  array's bias addition, the blocks tile the array (row `r` lies in the block of point `r / 2000`), and so the
  array ends holding the reference program's own bias addition of the arrays the region finds.
-/
import proofs.«425873_j26182120636599_1_alg».proof.Proof.KI.Reg5
import proofs.«425873_j26182120636599_1_alg».proof.Proof.Val.RefOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The two sides at an index -/

/-- The body's stored value at row `r`, column `q` of the block: the row block there plus the bias row at column `q`. -/
theorem k5_pay1_apply {F : FTy → Type} [FloatOps F] (x : Vec F S2000x128 .f32) (w : Vec F S1x128 .f32) (r : Fin 2000) (q : Fin 128) :
    k5_pay1 x w (ix2 r q) = FloatOps.addf (x (ix2 r q)) (w (ix2 (0 : Fin 1) q)) := by
  unfold k5_pay1
  simp only [shapeCast_self]
  show FloatOps.addf (x (ix2 r q)) (broadcastTo S2000x128 w _ (ix2 r q)) = _
  rw [broadcastTo_1b_ab_apply]

/-- A vector of 128 repeated down 50000 rows reads, at row `r` and column `q`, the vector at `q`. -/
theorem rows128_apply {F : FTy → Type} [FloatOps F] (v : FVec F Cert.ReferenceIdeal.S128 .f32) (r : Fin 50000) (q : Fin 128) :
    Cert.RefOps.rows128 v (ix2 r q) = v (ix1 q) := by
  unfold Cert.RefOps.rows128
  rw [broadcastInDim_apply _ Cert.RefOps.bcast_S1x128_S50000x128_0_1 _ (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])]
  exact broadcastInDim_apply _ Cert.RefOps.bcast_S128_S1x128_1 v (ix2 (0 : Fin 1) q) (ix1 q) (fun a => match a with
    | ⟨0, _⟩ => by show q.val = if (128 : Nat) = 1 then 0 else q.val; rw [if_neg (by decide)])

/-- The reference's bias addition at row `r`, column `q`. -/
theorem biasRows_apply {F : FTy → Type} [FloatOps F] (a : FVec F Cert.ReferenceIdeal.S50000x128 .f32) (b : FVec F Cert.ReferenceIdeal.S128 .f32)
    (r : Fin 50000) (q : Fin 128) :
    Cert.RefOps.biasRows a b (ix2 r q) = FloatOps.addf (a (ix2 r q)) (b (ix1 q)) := by
  unfold Cert.RefOps.biasRows
  show FloatOps.addf (a (ix2 r q)) (Cert.RefOps.rows128 b (ix2 r q)) = _
  rw [rows128_apply]

/-- One element of a block against one element of the array: if the row block's element is the array's there, the
    columns agree, and the bias row is the bias vector laid out as one row, the body's stored value is the
    reference's. -/
theorem blk5_point {F : FTy → Type} [FloatOps F] (a : FVec F Cert.ReferenceIdeal.S50000x128 .f32) (b : FVec F Cert.ReferenceIdeal.S128 .f32)
    (x : Vec F S2000x128 .f32) (w : Vec F S1x128 .f32) (j : S2000x128.Idx) (i : S50000x128.Idx)
    (hq : (i 1).val = (j 1).val) (hx : x j = a i) (hw : ∀ q : Fin 128, w (ix2 (0 : Fin 1) q) = b (ix1 q)) :
    k5_pay1 x w j = Cert.RefOps.biasRows a b i := by
  obtain ⟨r, q, rfl⟩ : ∃ (r : Fin 2000) (q : Fin 128), j = ix2 r q := ⟨j 0, j 1, eq_ix2 j⟩
  obtain ⟨r', q', rfl⟩ : ∃ (r' : Fin 50000) (q' : Fin 128), i = ix2 r' q' := ⟨i 0, i 1, eq_ix2 i⟩
  obtain rfl : q' = q := Fin.ext hq
  rw [k5_pay1_apply, biasRows_apply, hx, hw]

/-! ## From the blocks to the array -/

theorem hz5 : (![0, 0] : Fin 2 → Nat) = fun _ => 0 := funext fun a => by fin_cases a <;> rfl

/-- The printed index maps, decided over the grid: the row block and the output block are block `t` of their
    arrays at point `t`; the bias row is its whole array at every point. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every block of rows is some point's. -/
theorem idx_onto5 : ∀ q0 : Fin 25, ∃ t : Fin cfg5.N, win5_2.index t = ![q0.val, 0] :=
  (by decide +kernel : ∀ q0 : Fin 25, ∃ t : Fin grid5.N, win5_2.index t = ![q0.val, 0])

/-- What point `t` writes back is block `t` of the reference's bias addition on the arrays the region finds. -/
theorem flushed5_eq (V : Vals Ideal) (c : Dev nD) (b : S128.Idx → EReal)
    (hb : V c (Pipeline.arrRef spec5 1) = shapeCast S1x128 b shapeCasts_S128_S1x128) (t : Fin cfg5.N) :
    (dat5 V c).flushed 2 t = ((cfg5.win 2).blk t).view.read (Elt Ideal)
      (Cert.RefOps.biasRows (F := Ideal) (V c (Pipeline.arrRef spec5 0)) b) := by
  show (cfg5.win 2).cut (grid5.coords t) ((dat5 V c).after 2 t) = _
  rw [after5_2]
  unfold out5
  rw [View.canon_unit_zero hz5]
  simp only [View.ld_unit_zero (S := S2000x128) hz5, View.ld_unit_zero (S := S1x128) hz5]
  obtain ⟨e0, e1, e2, e3, e4, e5⟩ := idx_facts5 t
  funext j
  refine blk5_point (F := Ideal) (V c (Pipeline.arrRef spec5 0)) b _ _ j (((cfg5.win 2).blk t).view.emb j) ?_ ?_ ?_
  · show win5_2.index t (1 : Fin 2) * 128 + 1 * (j 1).val = (j 1).val
    omega
  · show V c (Pipeline.arrRef spec5 0) (((cfg5.win 0).blk t).view.emb j) = V c (Pipeline.arrRef spec5 0) (((cfg5.win 2).blk t).view.emb j)
    refine congrArg _ (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * (j 1).val = win5_2.index t (1 : Fin 2) * 128 + 1 * (j 1).val; omega
  · intro q
    show V c (Pipeline.arrRef spec5 1) (((cfg5.win 1).blk t).view.emb (ix2 (0 : Fin 1) q)) = b (ix1 q)
    rw [hb]
    have he : ((cfg5.win 1).blk t).view.emb (ix2 (0 : Fin 1) q) = ix2 (0 : Fin 1) q := by
      funext a; apply Fin.ext
      match a with
      | ⟨0, _⟩ => show win5_1.index t (0 : Fin 2) * 1 + 1 * 0 = 0; omega
      | ⟨1, _⟩ => show win5_1.index t (1 : Fin 2) * 128 + 1 * q.val = q.val; omega
    rw [he]
    exact shapeCast_a_1a_apply b _ 0 q

/-- An index of the array is in point `t`'s block iff each coordinate is in the block's range on its axis. -/
theorem mem_blk5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v102).slice (win5_2.rect t)).set ↔ _
  rw [View.set_slice_whole, Rect.mem_set_unit]
  exact Iff.rfl

/-- Every row of the array is in the block of some point that writes back: row `r` in that of point `r / 2000`. -/
theorem cover5_arr (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The array the region leaves: the reference's bias addition on the arrays the region is entered with. -/
theorem arr5_eq (V : Vals Ideal) (c : Dev nD) (b : S128.Idx → EReal)
    (hb : V c (Pipeline.arrRef spec5 1) = shapeCast S1x128 b shapeCasts_S128_S1x128) :
    (dat5 V c).arrAt 2 cfg5.N = Cert.RefOps.biasRows (F := Ideal) (V c (Pipeline.arrRef spec5 0)) b :=
  (dat5 V c).arrAt_eq_of_cover 2 _ (fun t _ => flushed5_eq V c b hb t) cover5_arr

end Cert.KernelIdeal.Hand

end
-- ==== Proof.Val.Stage3.lean ====
/-
  The third layer of the kernel program is the third layer of the reference, at the ideal instance: the dense
  product of the second layer's output with the third weight matrix (256 to 128 columns), the aggregation with
  the same edge coefficients, and the bias vector added to every row.
-/
import proofs.«425873_j26182120636599_1_alg».proof.Proof.Val.Stage2
import proofs.«425873_j26182120636599_1_alg».proof.Proof.Val.Mm4
import proofs.«425873_j26182120636599_1_alg».proof.Proof.Val.Bias5
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The third dense product. -/
theorem h3_eq : B8 m c (Proc.devRef .tc main_v83) = Cert.ReferenceIdeal.Read.val_main_v130 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (B8_arr m c 2).trans ((arr4_eq (E7 m) c).trans ?_)
  show Host.dotGeneral (F := Ideal) (φ₁ := .f32) (φ₂ := .bf16) Cert.ReferenceIdeal.dot_S50000x256_S256x128_S50000x128_1_0_0_1_n_n none
      (B7 m c (Proc.devRef .tc main_v82)) (B7 m c (Proc.devRef .tc main_v34)) = _
  rw [out2_eq m c, B7_w3 m c]
  rfl

/-- The third aggregation. -/
theorem agg3_eq : B9 m c (Proc.devRef .tc main_v100) = Cert.ReferenceIdeal.Read.val_main_v173 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show StableHlo.after hostOps5 (B8 m c) (Proc.devRef .tc main_v100) = _
  after_results_simp
  rw [B8_src m c, B8_dst m c, B8_coef m c, B8_self m c, h3_eq m c]
  rfl

/-- The last bias vector as a single row. -/
theorem p3_b : E9 m c (Pipeline.arrRef spec5 1) = shapeCast S1x128 (m ((c.tc : Thread nD τ).loc main_arg16)) shapeCasts_S128_S1x128 := by
  show StableHlo.after hostOps5 (B8 m c) (Proc.devRef .tc main_v101) = _
  after_results_simp
  rw [B8_arg m c main_arg16 (by decide) (by decide) (by decide) (by decide) (by decide) (by decide) (by decide) (by decide)]
  rfl

/-- The third layer's output: the node features the pooling reads. -/
theorem out3_eq : B10 m c (Proc.devRef .tc main_v102) = Cert.ReferenceIdeal.Read.val_main_v176 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (B10_arr m c 2).trans ((arr5_eq (E9 m) c _ (p3_b m c)).trans ?_)
  show Cert.RefOps.biasRows (F := Ideal) (B9 m c (Proc.devRef .tc main_v100)) _ = _
  rw [agg3_eq m c]
  rfl

end Cert.KernelIdeal.Hand

end
-- ==== Proof.Val.SumBlocks.lean ====
/-
  A sum over the first 50000 naturals, cut into 25 consecutive blocks of 2000: the sum over all rows is the sum over
  the blocks of the sum over each block's rows. Stated for any commutative additive monoid first (a * b terms as a
  blocks of b), then for the extended reals at the sizes used.
-/
import Mathlib.Algebra.BigOperators.Fin
import Mathlib.Data.EReal.Basic

namespace Cert.ScatterMath

open scoped BigOperators

/-- The first b * a terms, as a consecutive blocks of b terms each. -/
theorem sum_range_mul_eq_blocks {M : Type*} [AddCommMonoid M] (f : ℕ → M) (b a : ℕ) :
    (∑ i ∈ Finset.range (b * a), f i) = ∑ t ∈ Finset.range a, ∑ r ∈ Finset.range b, f (b * t + r) := by
  induction a with
  | zero => simp
  | succ a ih => rw [Nat.mul_succ, Finset.sum_range_add, ih, Finset.sum_range_succ]

/-- The sum over 50000 rows is the sum over 25 blocks of 2000 rows. -/
theorem sum_rows_eq_blocks (f : ℕ → EReal) :
    (∑ n : Fin 50000, f n.val) = ∑ t ∈ Finset.range 25, ∑ r : Fin 2000, f (2000 * t + r.val) := by
  rw [Fin.sum_univ_eq_sum_range f 50000, show (50000 : ℕ) = 2000 * 25 from rfl, sum_range_mul_eq_blocks]
  refine Finset.sum_congr rfl fun t _ => ?_
  exact (Fin.sum_univ_eq_sum_range (fun r => f (2000 * t + r)) 2000).symm

end Cert.ScatterMath
-- ==== Proof.Val.Pool6.lean ====
/-
  The array region 6 of the kernel program leaves, at the ideal instance, where a float is an extended real, every
  operation is exact and a change of float format is the identity. The body keeps a running sum of 64 x 128
  entries: at each of the 25 grid points it adds, at (g, o), the sum over the block's 2000 rows of the one-hot
  block's entry (row, g) times the node block's entry (row, o), starting from zero at the first point. Row r of
  the block at point t is row 2000 t + r of its array, so after point n the running sum is the sum over the rows
  of blocks 0 … n, and after the last point the sum over all 50000 rows. The output array has one block, written
  back once, at the last point, so that is what the region leaves; when the first array is the one-hot matrix of
  the graph indices it is the reference program's scatter of the node rows onto a zero array.
-/
import proofs.«425873_j26182120636599_1_alg».proof.Proof.KI.Reg6
import proofs.«425873_j26182120636599_1_alg».proof.Proof.Val.ScatterMath
import proofs.«425873_j26182120636599_1_alg».proof.Proof.Val.SumBlocks
import proofs.«425873_j26182120636599_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The body's two stored values at an index -/

/-- The zero block is zero at every index. -/
theorem k6_pay1_apply (i : S64x128.Idx) : k6_pay1 (F := Ideal) i = 0 := by
  unfold k6_pay1
  simp only [shapeCast_self]
  exact Ideal.ofBits_zero_f32

/-- The product's left operand index: on its contracted row axis the contraction position. -/
theorem lhs_pool_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
/-- On its column axis the result's row. -/
theorem lhs_pool_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
/-- The right operand index: on its contracted row axis the contraction position. -/
theorem rhs_pool_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
/-- On its column axis the result's column. -/
theorem rhs_pool_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The updated sum at row g, column o: the sum so far there plus, over the block's 2000 rows, the one-hot
    block's entry at (row, g) times the node block's entry at (row, o). -/
theorem k6_pay2_apply (v3 : Vec Ideal S2000x128 .f32) (v6 : Vec Ideal S2000x64 .bf16) (v9 : Vec Ideal S64x128 .f32)
    (g : Fin 64) (o : Fin 128) :
    k6_pay2 v3 v6 v9 (ix2 g o) = v9 (ix2 g o) + ∑ r : Fin 2000, v6 (ix2 r g) * v3 (ix2 r o) := by
  unfold k6_pay2
  simp only [shapeCast_self]
  rw [addf_apply]
  refine congrArg (v9 (ix2 g o) + ·) ?_
  refine (Ideal.matmul_constant_zero_apply dot_S2000x64_S2000x128_S64x128_0_0_1_1_n_n none v6 (truncf .bf16 v3 bitsLt_bf16_f32) (ix2 g o)).trans ?_
  rw [← Equiv.sum_comp (contrEquiv1 dot_S2000x64_S2000x128_S64x128_0_0_1_1_n_n 2000 rfl rfl).symm]
  refine Finset.sum_congr rfl fun k _ => ?_
  have hk := contrEquiv1_symm_val dot_S2000x64_S2000x128_S64x128_0_0_1_1_n_n 2000 rfl rfl k
  have el : dot_S2000x64_S2000x128_S64x128_0_0_1_1_n_n.lhsIdx (ix2 g o) ((contrEquiv1 dot_S2000x64_S2000x128_S64x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x64_S2000x128_S64x128_0_0_1_1_n_n.rhsIdx (ix2 g o) ((contrEquiv1 dot_S2000x64_S2000x128_S64x128_0_0_1_1_n_n 2000 rfl rfl).symm k) = ix2 k o := funext fun a => Fin.ext (by
    match a with
    | ⟨0, _⟩ => exact (rhs_pool_0 _ _).trans hk
    | ⟨1, _⟩ => exact rhs_pool_1 _ _)
  rw [el, er]
  rfl

/-! ## The blocks read in their arrays -/

/-- The printed index maps, decided over the grid: at point t the two input windows are at row block t of their
    arrays, and the output window at its one block. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- The one-hot array and the node array as the region finds them, and their blocks at a point, at their literal types. -/
abbrev ohArr (V : Vals Ideal) (c : Dev nD) : Vec Ideal S50000x64 .bf16 := V c (Pipeline.arrRef spec6 0)
abbrev hArr (V : Vals Ideal) (c : Dev nD) : Vec Ideal S50000x128 .f32 := V c (Pipeline.arrRef spec6 1)
abbrev ohBlk (V : Vals Ideal) (c : Dev nD) (t : Fin cfg6.N) : Vec Ideal S2000x64 .bf16 := iblk6 V c 0 t
abbrev hBlk (V : Vals Ideal) (c : Dev nD) (t : Fin cfg6.N) : Vec Ideal S2000x128 .f32 := iblk6 V c 1 t

theorem row_lt6 (t : Fin cfg6.N) (r : Fin 2000) : 2000 * t.val + r.val < 50000 := by
  have ht : t.val < 25 := lt_of_lt_of_eq t.isLt (show cfg6.N = 25 from N_6)
  have hr := r.isLt
  omega

/-- Row r of the one-hot block at point t is row 2000 t + r of the one-hot array. -/
theorem ohBlk_apply (V : Vals Ideal) (c : Dev nD) (t : Fin cfg6.N) (r : Fin 2000) (g : Fin 64) :
    ohBlk V c t (ix2 r g) = ohArr V c (ix2 ⟨2000 * t.val + r.val, row_lt6 t r⟩ g) := by
  obtain ⟨e0, e1, e2, e3, e4, e5⟩ := idx_facts6 t
  show V c (Pipeline.arrRef spec6 0) (((cfg6.win 0).blk t).view.emb (ix2 r g)) = V c (Pipeline.arrRef spec6 0) (ix2 ⟨2000 * t.val + r.val, row_lt6 t r⟩ g)
  refine congrArg (V c (Pipeline.arrRef spec6 0)) ?_
  funext a; apply Fin.ext
  match a with
  | ⟨0, _⟩ => show win6_0.index t (0 : Fin 2) * 2000 + 1 * r.val = 2000 * t.val + r.val; omega
  | ⟨1, _⟩ => show win6_0.index t (1 : Fin 2) * 64 + 1 * g.val = g.val; omega

/-- Row r of the node block at point t is row 2000 t + r of the node array. -/
theorem hBlk_apply (V : Vals Ideal) (c : Dev nD) (t : Fin cfg6.N) (r : Fin 2000) (o : Fin 128) :
    hBlk V c t (ix2 r o) = hArr V c (ix2 ⟨2000 * t.val + r.val, row_lt6 t r⟩ o) := by
  obtain ⟨e0, e1, e2, e3, e4, e5⟩ := idx_facts6 t
  show V c (Pipeline.arrRef spec6 1) (((cfg6.win 1).blk t).view.emb (ix2 r o)) = V c (Pipeline.arrRef spec6 1) (ix2 ⟨2000 * t.val + r.val, row_lt6 t r⟩ o)
  refine congrArg (V c (Pipeline.arrRef spec6 1)) ?_
  funext a; apply Fin.ext
  match a with
  | ⟨0, _⟩ => show win6_1.index t (0 : Fin 2) * 2000 + 1 * r.val = 2000 * t.val + r.val; omega
  | ⟨1, _⟩ => show win6_1.index t (1 : Fin 2) * 128 + 1 * o.val = o.val; omega

/-! ## The running sum as a sum over rows -/

/-- Row k's contribution to the pooled sum at (g, o): the one-hot entry (k, g) times the node entry (k, o); zero
    past the arrays' 50000 rows. -/
def poolRow (oh : Vec Ideal S50000x64 .bf16) (h : Vec Ideal S50000x128 .f32) (g : Fin 64) (o : Fin 128) (k : ℕ) : EReal :=
  if hk : k < 50000 then oh (ix2 ⟨k, hk⟩ g) * h (ix2 ⟨k, hk⟩ o) else 0

theorem poolRow_of_lt (oh : Vec Ideal S50000x64 .bf16) (h : Vec Ideal S50000x128 .f32) (g : Fin 64) (o : Fin 128) (k : ℕ) (hk : k < 50000) :
    poolRow oh h g o k = oh (ix2 ⟨k, hk⟩ g) * h (ix2 ⟨k, hk⟩ o) := by
  unfold poolRow; rw [dif_pos hk]

/-- One product of the blocks at point t is one row's contribution. -/
theorem blkProd6 (V : Vals Ideal) (c : Dev nD) (t : Fin cfg6.N) (r : Fin 2000) (g : Fin 64) (o : Fin 128) :
    ohBlk V c t (ix2 r g) * hBlk V c t (ix2 r o) = poolRow (ohArr V c) (hArr V c) g o (2000 * t.val + r.val) := by
  rw [ohBlk_apply, hBlk_apply, poolRow_of_lt _ _ _ _ _ (row_lt6 t r)]

/-- THE RUNNING SUM after point n, at (g, o): the contributions of the rows of blocks 0 … n. -/
theorem acc6_apply (V : Vals Ideal) (c : Dev nD) (g : Fin 64) (o : Fin 128) : ∀ (n : ℕ) (hn : n < cfg6.N),
    acc6 V c n hn (ix2 g o) = ∑ t ∈ Finset.range (n + 1), ∑ r : Fin 2000, poolRow (ohArr V c) (hArr V c) g o (2000 * t + r.val)
  | 0, hn => by
    rw [acc6_zero]
    refine (k6_pay2_apply (hBlk V c ⟨0, hn⟩) (ohBlk V c ⟨0, hn⟩) (k6_pay1 (F := Ideal)) g o).trans ?_
    rw [k6_pay1_apply, zero_add, Finset.sum_range_one]
    exact Finset.sum_congr rfl fun r _ => blkProd6 V c ⟨0, hn⟩ r g o
  | n + 1, hn => by
    rw [acc6_succ]
    refine (k6_pay2_apply (hBlk V c ⟨n + 1, hn⟩) (ohBlk V c ⟨n + 1, hn⟩) (acc6 V c n (Nat.lt_of_succ_lt hn)) g o).trans ?_
    rw [acc6_apply V c g o n (Nat.lt_of_succ_lt hn), Finset.sum_range_succ _ (n + 1)]
    exact congrArg _ (Finset.sum_congr rfl fun r _ => blkProd6 V c ⟨n + 1, hn⟩ r g o)

/-- After the last point: the sum over all 50000 rows. -/
theorem acc6_last_apply (V : Vals Ideal) (c : Dev nD) (g : Fin 64) (o : Fin 128) :
    acc6 V c 24 (by decide) (ix2 g o) = ∑ n : Fin 50000, ohArr V c (ix2 n g) * hArr V c (ix2 n o) := by
  rw [acc6_apply V c g o 24 (by decide), ← Cert.ScatterMath.sum_rows_eq_blocks (poolRow (ohArr V c) (hArr V c) g o)]
  exact Finset.sum_congr rfl fun n _ => poolRow_of_lt _ _ g o n.val n.isLt

/-! ## The array the region leaves -/

/-- An index of the output array is in point t's block iff each coordinate is in the block's range on its axis. -/
theorem mem_blk6 (t : Fin cfg6.N) (i : S64x128.Idx) :
    i ∈ ((cfg6.win 2).blk t).view.set ↔ ∀ a : Fin 2, win6_2.index t a * S64x128.size a ≤ (i a).val ∧ (i a).val < win6_2.index t a * S64x128.size a + S64x128.size a := by
  show i ∈ ((View.whole main_v108).slice (win6_2.rect t)).set ↔ _
  rw [View.set_slice_whole, Rect.mem_set_unit]
  exact Iff.rfl

/-- The output array has one block, written back once, at the last point: after the region it holds the running
    sum after the last point. -/
theorem arr6_last (V : Vals Ideal) (c : Dev nD) : (dat6 V c).arrAt 2 cfg6.N = acc6 V c 24 (by decide) := by
  refine (dat6 V c).arrAt_eq_of_cover 2 (acc6 V c 24 (by decide)) (fun t hf => ?_) (fun (i : S64x128.Idx) => ?_)
  · have h24 : t.val = 24 := by
      have h := (flush6_2 t).mp hf
      have ht : t.val < 25 := lt_of_lt_of_eq t.isLt (show cfg6.N = 25 from N_6)
      omega
    obtain ⟨e0, e1, e2, e3, e4, e5⟩ := idx_facts6 t
    show (cfg6.win 2).cut (grid6.coords t) ((dat6 V c).after 2 t) = _
    rw [after6_2_last V c t h24]
    funext j
    show acc6 V c 24 (by decide) j = acc6 V c 24 (by decide) (((cfg6.win 2).blk t).view.emb j)
    refine congrArg (acc6 V c 24 (by decide)) ?_
    funext a; apply Fin.ext
    match a with
    | ⟨0, _⟩ => show (j 0).val = win6_2.index t (0 : Fin 2) * 64 + 1 * (j 0).val; omega
    | ⟨1, _⟩ => show (j 1).val = win6_2.index t (1 : Fin 2) * 128 + 1 * (j 1).val; omega
  · obtain ⟨e0, e1, e2, e3, e4, e5⟩ := idx_facts6 ⟨24, by decide⟩
    refine ⟨⟨24, by decide⟩, (flush6_2 _).mpr rfl, ?_⟩
    rw [mem_blk6]
    intro a
    have hi0 : (i 0).val < 64 := (i 0).isLt
    have hi1 : (i 1).val < 128 := (i 1).isLt
    match a with
    | ⟨0, _⟩ => show win6_2.index ⟨24, by decide⟩ (0 : Fin 2) * 64 ≤ (i 0).val ∧ (i 0).val < win6_2.index ⟨24, by decide⟩ (0 : Fin 2) * 64 + 64; omega
    | ⟨1, _⟩ => show win6_2.index ⟨24, by decide⟩ (1 : Fin 2) * 128 ≤ (i 1).val ∧ (i 1).val < win6_2.index ⟨24, by decide⟩ (1 : Fin 2) * 128 + 128; omega

/-- THE POOLED ARRAY. When the first input array is the one-hot matrix of the graph indices, the output array the
    region leaves is the node array's rows summed by graph: the reference program's scatter of the rows onto zeros. -/
theorem arr6_eq (V : Vals Ideal) (c : Dev nD) (batch : IVec S50000 32)
    (hoh : V c (Pipeline.arrRef spec6 0) = Cert.ScatterMath.oneHot batch) :
    (dat6 V c).arrAt 2 cfg6.N = Host.scatterAdd (F := Ideal) (φ := .f32) Cert.ReferenceIdeal.scatter_S64x128_S50000x1_S50000x128_1_0_0_1
      (broadcastInDim Cert.ReferenceIdeal.S64x128 ![] Cert.ReferenceIdeal.Facts₀.bcast_S_S64x128 (constant (F := Ideal) Cert.ReferenceIdeal.S_ .f32 0x00000000#32))
      (broadcastInDim Cert.ReferenceIdeal.S50000x1 ![0] Cert.ReferenceIdeal.Facts₀.bcast_S50000_S50000x1_0 batch)
      (V c (Pipeline.arrRef spec6 1)) := by
  rw [arr6_last]
  funext i
  obtain ⟨g, o, rfl⟩ : ∃ (g : Fin 64) (o : Fin 128), i = ix2 g o := ⟨i 0, i 1, eq_ix2 i⟩
  rw [acc6_last_apply]
  have hoh' : ohArr V c = Cert.ScatterMath.oneHot batch := hoh
  rw [hoh']
  exact Cert.ScatterMath.pooled_two_ways_at batch (hArr V c) g o

end Cert.KernelIdeal.Hand

end
-- ==== Proof.Val.Stage4.lean ====
/-
  The end of the bridge between the two programs, at the ideal instance: the one-hot membership matrix, the graph
  sizes, the sums per graph and the means per graph that the kernel program's last items leave, each named by the
  reference program's own stage.
-/
import proofs.«425873_j26182120636599_1_alg».proof.Proof.KI.Frames
import proofs.«425873_j26182120636599_1_alg».proof.Proof.Val.Stage0
import proofs.«425873_j26182120636599_1_alg».proof.Proof.Val.Keep
import proofs.«425873_j26182120636599_1_alg».proof.Proof.Val.ScatterMath
import proofs.«425873_j26182120636599_1_alg».proof.Proof.Val.Pool6
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The batch vector, an argument of @main, is still the launch memory's after region 5. -/
theorem B10_batch : B10 m c (Proc.devRef .tc main_arg2) = m (c, Proc.devRef .tc main_arg2) :=
  B10_arg m c main_arg2 (by decide) (by decide) (by decide) (by decide) (by decide) (by decide) (by decide) (by decide) (by decide) (by decide)

/-- The one-hot membership matrix: entry (n, g) is 1 when node n belongs to graph g, else 0. -/
theorem oh12 : B12 m c (Proc.devRef .tc main_v103) = Cert.ScatterMath.oneHot (m ((c.tc : Thread nD τ).loc main_arg2)) := by
  rw [B12_of_B11 m c main_v103 (by decide)]
  show StableHlo.after hostOps6 (B10 m c) (Proc.devRef .tc main_v103) = _
  after_results_simp
  rw [B10_batch m c]
  rfl

/-- The graph sizes: ones, one per node, added up per graph. -/
theorem cnt12 : B12 m c (Proc.devRef .tc main_v107) = Cert.ReferenceIdeal.Read.val_main_v183 (F := Ideal) (m ((c.tc : Thread nD τ).loc main_arg2)) := by
  show StableHlo.after hostOps6_1 (B11 m c) (Proc.devRef .tc main_v107) = _
  after_results_simp
  rw [B10_batch m c]
  rfl

/-- The sums per graph: what the pooling region leaves in its output array is the reference's scatter of the node
    rows onto the rows their graph numbers name, given that the region's operand is the reference's last layer. -/
theorem pool13 (h3 : B10 m c (Proc.devRef .tc main_v102) = Cert.ReferenceIdeal.Read.val_main_v176 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    B13 m c (Proc.devRef .tc main_v108) = Cert.ReferenceIdeal.Read.val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (B13_arr m c 2).trans ?_
  rw [arr6_eq (E12 m) c (m ((c.tc : Thread nD τ).loc main_arg2)) (oh12 m c)]
  have h102 : E12 m c (Pipeline.arrRef spec6 1) = Cert.ReferenceIdeal.Read.val_main_v176 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    ((B12_of_B11 m c main_v102 (by decide)).trans (B11_of_B10 m c main_v102 (by decide))).trans h3
  rw [h102]
  rfl

/-- The means per graph: the sums divided by the graph sizes, a size of zero counted as one. -/
theorem final14 (h3 : B10 m c (Proc.devRef .tc main_v102) = Cert.ReferenceIdeal.Read.val_main_v176 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    B14 m c (Proc.devRef .tc main_v113) = Cert.ReferenceIdeal.Read.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after hostOps7 (B13 m c) (Proc.devRef .tc main_v113) = _
  after_results_simp
  rw [pool13 m c h3, B13_keep m c main_v107 (by decide), cnt12 m c]
  rfl

end Cert.KernelIdeal.Hand

end
-- ==== Proof.Val.Final.lean ====
/-
  The run of the idealized kernel program with its result named: every weakly fair execution from a memory with
  zero counters terminates, and the pooled means it returns are the reference's last stage - the reference's own
  composition of operations - applied to the seventeen argument arrays of the launch memory; the arguments end
  as launched. The value is read off the last valuation of the fold through @main, where the three layers and
  the pooling have each been identified with the reference's stages.
-/
import proofs.«425873_j26182120636599_1_alg».proof.Proof.Val.Stage3
import proofs.«425873_j26182120636599_1_alg».proof.Proof.Val.Stage4
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (c : Dev nD)

/-- The result buffer at the end of @main is the reference's last stage of the launch arguments. -/
theorem final_eq : B14 m c (Proc.devRef .tc main_v113) = Cert.ReferenceIdeal.Read.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  final14 m c (out3_eq m c)

/-- The run, with the result and the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v113) = Cert.ReferenceIdeal.Read.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v113 (by decide))).trans (final_eq m c),
     arg_end m c main_arg0 (by decide) (by decide) r.2 (h c),
     arg_end m c main_arg1 (by decide) (by decide) r.2 (h c),
     arg_end m c main_arg2 (by decide) (by decide) r.2 (h c),
     arg_end m c main_arg3 (by decide) (by decide) r.2 (h c),
     arg_end m c main_arg4 (by decide) (by decide) r.2 (h c),
     arg_end m c main_arg5 (by decide) (by decide) r.2 (h c),
     arg_end m c main_arg6 (by decide) (by decide) r.2 (h c),
     arg_end m c main_arg7 (by decide) (by decide) r.2 (h c),
     arg_end m c main_arg8 (by decide) (by decide) r.2 (h c),
     arg_end m c main_arg9 (by decide) (by decide) r.2 (h c),
     arg_end m c main_arg10 (by decide) (by decide) r.2 (h c),
     arg_end m c main_arg11 (by decide) (by decide) r.2 (h c),
     arg_end m c main_arg12 (by decide) (by decide) r.2 (h c),
     arg_end m c main_arg13 (by decide) (by decide) r.2 (h c),
     arg_end m c main_arg14 (by decide) (by decide) r.2 (h c),
     arg_end m c main_arg15 (by decide) (by decide) r.2 (h c),
     arg_end m c main_arg16 (by decide) (by decide) r.2 (h c)⟩) (run_all m ρ)

end Cert.KernelIdeal.Hand

end
-- ==== Proof.lean ====
/-
  The certificate of the three-layer graph convolution with mean pooling. The kernel program runs seven
  pipelined regions (three dense products, two fused bias-normalisation-rectifier passes, a bias pass, and a
  one-hot matrix product accumulated over the grid that sums the node outputs per graph) between stretches of
  host operations (the degree normalisation, and per layer the gather, scale and scatter-add over the edges).
  Frames: both readings of the kernel program are @main's fourteen segments chained through the pipeline
  library's launch, no segment writing an argument; the reference is a line of host operations. The ideal pass
  rewrote nothing, so there is nothing to preserve. Equivalence over the extended reals: layer by layer the
  kernel program's arrays are the reference's stages - a product computed block of rows by block of rows is the
  whole product; rounding a weight is the identity; bias, normalisation and rectifier per block are the
  reference's elementwise chain with the parameter rows broadcast; the degree vector "ones scattered onto zeros,
  plus one" is "ones scattered onto ones"; and the sum over all nodes of one-hot membership times node output is
  the scatter-add of the node outputs by graph index, a node outside every graph contributing zero on both sides.
-/
import proofs.«425873_j26182120636599_1_alg».proof.Defs
import proofs.«425873_j26182120636599_1_alg».proof.Proof.Gen.Kernel
import proofs.«425873_j26182120636599_1_alg».proof.Proof.Gen.KernelIdeal
import proofs.«425873_j26182120636599_1_alg».proof.Proof.Gen.ReferenceIdeal
import proofs.«425873_j26182120636599_1_alg».proof.Proof.Gen.Pre_finite_inputs
import proofs.«425873_j26182120636599_1_alg».proof.Proof.Gen.ReferenceIdeal.Run
import proofs.«425873_j26182120636599_1_alg».proof.Proof.Gen.ReferenceIdeal.Read
import proofs.«425873_j26182120636599_1_alg».proof.Proof.K.Frames
import proofs.«425873_j26182120636599_1_alg».proof.Proof.KI.Frames
import proofs.«425873_j26182120636599_1_alg».proof.Proof.Val.Final
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame_all (F := Bits) m ρ

/-- So does its reading over the extended reals. -/
theorem frame_ki : Cert.frame_KernelIdeal := fun m ρ _ => Cert.KernelIdeal.Hand.frame_all (F := Ideal) m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.Hand.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v188_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
